-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S250000 : Shape := ⟨1, ![250000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S250000 : S_.BroadcastsInDim S250000 (![] : Fin 0 → Fin S250000.rank)
  reducesTo_S250000_S_d0 : S250000.ReducesTo [0] S_

variable [Facts]

def fn_part5 {F : FTy → Type} [FloatOps F] (main_arg14 : IVec S250000 32) (main_v81 : IVec S_ 1) (main_v82 : IVec S250000 32) : IVec S_ 1 :=
  let main_v83 : IVec S250000 1 := cmpi .slt main_arg14 main_v82
  let main_c_35 : IVec S_ 1 := constantI S_ 1 1#1
  let main_v84 : IVec S_ 1 := (fun x v => Host.reduce IntOp.andi x v reducesTo_S250000_S_d0 h_S_) main_v83 main_c_35
  let main_v85 : IVec S_ 1 := andi main_v81 main_v84
  main_v85

def fn_part4 {F : FTy → Type} [FloatOps F] (main_arg12 : IVec S250000 32) (main_arg13 : IVec S250000 32) (main_arg14 : IVec S250000 32) (main_v65 : IVec S_ 1) (main_v66 : IVec S250000 32) : IVec S_ 1 :=
  let main_v67 : IVec S250000 1 := cmpi .slt main_arg12 main_v66
  let main_c_27 : IVec S_ 1 := constantI S_ 1 1#1
  let main_v68 : IVec S_ 1 := (fun x v => Host.reduce IntOp.andi x v reducesTo_S250000_S_d0 h_S_) main_v67 main_c_27
  let main_v69 : IVec S_ 1 := andi main_v65 main_v68
  let main_c_28 : IVec S_ 32 := constantI S_ 32 0#32
  let main_v70 : IVec S250000 32 := broadcastInDim S250000 ![] bcast_S_S250000 main_c_28
  let main_v71 : IVec S250000 1 := cmpi .sge main_arg13 main_v70
  let main_c_29 : IVec S_ 1 := constantI S_ 1 1#1
  let main_v72 : IVec S_ 1 := (fun x v => Host.reduce IntOp.andi x v reducesTo_S250000_S_d0 h_S_) main_v71 main_c_29
  let main_v73 : IVec S_ 1 := andi main_v69 main_v72
  let main_c_30 : IVec S_ 32 := constantI S_ 32 200000#32
  let main_v74 : IVec S250000 32 := broadcastInDim S250000 ![] bcast_S_S250000 main_c_30
  let main_v75 : IVec S250000 1 := cmpi .slt main_arg13 main_v74
  let main_c_31 : IVec S_ 1 := constantI S_ 1 1#1
  let main_v76 : IVec S_ 1 := (fun x v => Host.reduce IntOp.andi x v reducesTo_S250000_S_d0 h_S_) main_v75 main_c_31
  let main_v77 : IVec S_ 1 := andi main_v73 main_v76
  let main_c_32 : IVec S_ 32 := constantI S_ 32 0#32
  let main_v78 : IVec S250000 32 := broadcastInDim S250000 ![] bcast_S_S250000 main_c_32
  let main_v79 : IVec S250000 1 := cmpi .sge main_arg14 main_v78
  let main_c_33 : IVec S_ 1 := constantI S_ 1 1#1
  let main_v80 : IVec S_ 1 := (fun x v => Host.reduce IntOp.andi x v reducesTo_S250000_S_d0 h_S_) main_v79 main_c_33
  let main_v81 : IVec S_ 1 := andi main_v77 main_v80
  let main_c_34 : IVec S_ 32 := constantI S_ 32 60000#32
  let main_v82 : IVec S250000 32 := broadcastInDim S250000 ![] bcast_S_S250000 main_c_34
  fn_part5 (F := F) main_arg14 main_v81 main_v82

def fn_part3 {F : FTy → Type} [FloatOps F] (main_arg11 : IVec S250000 32) (main_arg12 : IVec S250000 32) (main_arg13 : IVec S250000 32) (main_arg14 : IVec S250000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_c_20 : IVec S_ 32 := constantI S_ 32 0#32
  let main_v54 : IVec S250000 32 := broadcastInDim S250000 ![] bcast_S_S250000 main_c_20
  let main_v55 : IVec S250000 1 := cmpi .sge main_arg11 main_v54
  let main_c_21 : IVec S_ 1 := constantI S_ 1 1#1
  let main_v56 : IVec S_ 1 := (fun x v => Host.reduce IntOp.andi x v reducesTo_S250000_S_d0 h_S_) main_v55 main_c_21
  let main_v57 : IVec S_ 1 := andi main_v53 main_v56
  let main_c_22 : IVec S_ 32 := constantI S_ 32 200000#32
  let main_v58 : IVec S250000 32 := broadcastInDim S250000 ![] bcast_S_S250000 main_c_22
  let main_v59 : IVec S250000 1 := cmpi .slt main_arg11 main_v58
  let main_c_23 : IVec S_ 1 := constantI S_ 1 1#1
  let main_v60 : IVec S_ 1 := (fun x v => Host.reduce IntOp.andi x v reducesTo_S250000_S_d0 h_S_) main_v59 main_c_23
  let main_v61 : IVec S_ 1 := andi main_v57 main_v60
  let main_c_24 : IVec S_ 32 := constantI S_ 32 0#32
  let main_v62 : IVec S250000 32 := broadcastInDim S250000 ![] bcast_S_S250000 main_c_24
  let main_v63 : IVec S250000 1 := cmpi .sge main_arg12 main_v62
  let main_c_25 : IVec S_ 1 := constantI S_ 1 1#1
  let main_v64 : IVec S_ 1 := (fun x v => Host.reduce IntOp.andi x v reducesTo_S250000_S_d0 h_S_) main_v63 main_c_25
  let main_v65 : IVec S_ 1 := andi main_v61 main_v64
  let main_c_26 : IVec S_ 32 := constantI S_ 32 80000#32
  let main_v66 : IVec S250000 32 := broadcastInDim S250000 ![] bcast_S_S250000 main_c_26
  fn_part4 (F := F) main_arg12 main_arg13 main_arg14 main_v65 main_v66

def fn_part2 {F : FTy → Type} [FloatOps F] (main_arg7 : FVec F S4x128 .f32) (main_arg8 : FVec F S4x128x128 .f32) (main_arg9 : FVec F S128x1 .f32) (main_arg10 : FVec F S1 .f32) (main_arg11 : IVec S250000 32) (main_arg12 : IVec S250000 32) (main_arg13 : IVec S250000 32) (main_arg14 : IVec S250000 32) (main_v33 : IVec S_ 1) : IVec S_ 1 :=
  let main_v34 : FVec F S4x128 .f32 := Host.absf main_arg7
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x128 .f32 := Host.absf main_arg8
  let main_cst_14 : FVec F S_ .f32 := constant S_ .f32 0x7F800000#32
  let main_v40 : FVec F S4x128x128 .f32 := broadcastInDim S4x128x128 ![] bcast_S_S4x128x128 main_cst_14
  let main_v41 : IVec S4x128x128 1 := cmpf .olt main_v39 main_v40
  let main_c_15 : IVec S_ 1 := constantI S_ 1 1#1
  let main_v42 : IVec S_ 1 := (fun x v => Host.reduce IntOp.andi x v reducesTo_S4x128x128_S_d0_1_2 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_v48 main_v49 main_v50

def fn_part1 {F : FTy → Type} [FloatOps F] (main_arg4 : FVec F S4x128 .f32) (main_arg5 : FVec F S4x128x128 .f32) (main_arg6 : FVec F S4x128x128 .f32) (main_arg7 : FVec F S4x128 .f32) (main_arg8 : FVec F S4x128x128 .f32) (main_arg9 : FVec F S128x1 .f32) (main_arg10 : FVec F S1 .f32) (main_arg11 : IVec S250000 32) (main_arg12 : IVec S250000 32) (main_arg13 : IVec S250000 32) (main_arg14 : IVec S250000 32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg5
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128x128 .f32 := Host.absf main_arg6
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S200000x64 .f32) (main_arg1 : FVec F S64x128 .f32) (main_arg2 : FVec F S128 .f32) (main_arg3 : FVec F S4x128x128 .f32) (main_arg4 : FVec F S4x128 .f32) (main_arg5 : FVec F S4x128x128 .f32) (main_arg6 : FVec F S4x128x128 .f32) (main_arg7 : FVec F S4x128 .f32) (main_arg8 : FVec F S4x128x128 .f32) (main_arg9 : FVec F S128x1 .f32) (main_arg10 : FVec F S1 .f32) (main_arg11 : IVec S250000 32) (main_arg12 : IVec S250000 32) (main_arg13 : IVec S250000 32) (main_arg14 : IVec S250000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S200000x64 : Shape := ⟨2, ![200000, 64]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S250000 : Shape := ⟨1, ![250000]⟩
abbrev S_ : Shape := ⟨0, ![]⟩
abbrev S80000 : Shape := ⟨1, ![80000]⟩
abbrev S250000x1 : Shape := ⟨2, ![250000, 1]⟩
abbrev S60000 : Shape := ⟨1, ![60000]⟩
abbrev S200000 : Shape := ⟨1, ![200000]⟩
abbrev S80000x1 : Shape := ⟨2, ![80000, 1]⟩
abbrev S60000x1 : Shape := ⟨2, ![60000, 1]⟩
abbrev S200000x1 : Shape := ⟨2, ![200000, 1]⟩
abbrev S1x128x128 : Shape := ⟨3, ![1, 128, 128]⟩
abbrev S128x128 : Shape := ⟨2, ![128, 128]⟩
abbrev S1x128 : Shape := ⟨2, ![1, 128]⟩
abbrev S200000x128 : Shape := ⟨2, ![200000, 128]⟩
abbrev S5000x64 : Shape := ⟨2, ![5000, 64]⟩
abbrev S5000x128 : Shape := ⟨2, ![5000, 128]⟩
abbrev S1x1 : Shape := ⟨2, ![1, 1]⟩
abbrev S250000x128 : Shape := ⟨2, ![250000, 128]⟩
abbrev S80000x128 : Shape := ⟨2, ![80000, 128]⟩
abbrev S8000x128 : Shape := ⟨2, ![8000, 128]⟩
abbrev S8000x1 : Shape := ⟨2, ![8000, 1]⟩
abbrev S60000x128 : Shape := ⟨2, ![60000, 128]⟩
abbrev S6000x128 : Shape := ⟨2, ![6000, 128]⟩
abbrev S6000x1 : Shape := ⟨2, ![6000, 1]⟩
abbrev S5000x1 : Shape := ⟨2, ![5000, 1]⟩

abbrev nBuf : Space → Nat
  | .hbm => 213
  | .vmem => 44
  | .smem => 0
  | _ => 0

abbrev hbmTy0_0 (i : Nat) : BufTy := match i % 128 with
  | 0 => ⟨S200000x64, .f32⟩
  | 1 => ⟨S64x128, .f32⟩
  | 2 => ⟨S128, .f32⟩
  | 3 => ⟨S4x128x128, .f32⟩
  | 4 => ⟨S4x128, .f32⟩
  | 5 => ⟨S4x128x128, .f32⟩
  | 6 => ⟨S4x128x128, .f32⟩
  | 7 => ⟨S4x128, .f32⟩
  | 8 => ⟨S4x128x128, .f32⟩
  | 9 => ⟨S128x1, .f32⟩
  | 10 => ⟨S1, .f32⟩
  | 11 => ⟨S250000, .i32⟩
  | 12 => ⟨S250000, .i32⟩
  | 13 => ⟨S250000, .i32⟩
  | 14 => ⟨S250000, .i32⟩
  | 15 => ⟨S_, .f32⟩
  | 16 => ⟨S250000, .f32⟩
  | 17 => ⟨S_, .f32⟩
  | 18 => ⟨S80000, .f32⟩
  | 19 => ⟨S250000x1, .i32⟩
  | 20 => ⟨S80000, .f32⟩
  | 21 => ⟨S_, .f32⟩
  | 22 => ⟨S60000, .f32⟩
  | 23 => ⟨S250000x1, .i32⟩
  | 24 => ⟨S60000, .f32⟩
  | 25 => ⟨S_, .f32⟩
  | 26 => ⟨S200000, .f32⟩
  | 27 => ⟨S250000x1, .i32⟩
  | 28 => ⟨S200000, .f32⟩
  | 29 => ⟨S_, .f32⟩
  | 30 => ⟨S200000, .f32⟩
  | 31 => ⟨S250000x1, .i32⟩
  | 32 => ⟨S200000, .f32⟩
  | 33 => ⟨S_, .f32⟩
  | 34 => ⟨S80000, .f32⟩
  | 35 => ⟨S80000, .f32⟩
  | 36 => ⟨S_, .f32⟩
  | 37 => ⟨S80000, .f32⟩
  | 38 => ⟨S80000, .f32⟩
  | 39 => ⟨S80000x1, .f32⟩
  | 40 => ⟨S_, .f32⟩
  | 41 => ⟨S60000, .f32⟩
  | 42 => ⟨S60000, .f32⟩
  | 43 => ⟨S_, .f32⟩
  | 44 => ⟨S60000, .f32⟩
  | 45 => ⟨S60000, .f32⟩
  | 46 => ⟨S60000x1, .f32⟩
  | 47 => ⟨S_, .f32⟩
  | 48 => ⟨S200000, .f32⟩
  | 49 => ⟨S200000, .f32⟩
  | 50 => ⟨S_, .f32⟩
  | 51 => ⟨S200000, .f32⟩
  | 52 => ⟨S200000, .f32⟩
  | 53 => ⟨S200000x1, .f32⟩
  | 54 => ⟨S_, .f32⟩
  | 55 => ⟨S200000, .f32⟩
  | 56 => ⟨S200000, .f32⟩
  | 57 => ⟨S_, .f32⟩
  | 58 => ⟨S200000, .f32⟩
  | 59 => ⟨S200000, .f32⟩
  | 60 => ⟨S200000x1, .f32⟩
  | 61 => ⟨S1x128x128, .f32⟩
  | 62 => ⟨S128x128, .f32⟩
  | 63 => ⟨S1x128x128, .f32⟩
  | 64 => ⟨S128x128, .f32⟩
  | 65 => ⟨S128x128, .f32⟩
  | 66 => ⟨S1x128, .f32⟩
  | 67 => ⟨S128, .f32⟩
  | 68 => ⟨S1x128, .f32⟩
  | 69 => ⟨S128, .f32⟩
  | 70 => ⟨S128, .f32⟩
  | 71 => ⟨S1x128, .f32⟩
  | 72 => ⟨S1x128x128, .f32⟩
  | 73 => ⟨S128x128, .f32⟩
  | 74 => ⟨S1x128x128, .f32⟩
  | 75 => ⟨S128x128, .f32⟩
  | 76 => ⟨S128x128, .f32⟩
  | 77 => ⟨S1x128, .f32⟩
  | 78 => ⟨S128, .f32⟩
  | 79 => ⟨S1x128, .f32⟩
  | 80 => ⟨S128, .f32⟩
  | 81 => ⟨S128, .f32⟩
  | 82 => ⟨S1x128, .f32⟩
  | 83 => ⟨S1x128, .f32⟩
  | 84 => ⟨S1x128, .f32⟩
  | 85 => ⟨S128, .f32⟩
  | 86 => ⟨S1x128, .f32⟩
  | 87 => ⟨S1x128, .f32⟩
  | 88 => ⟨S128, .f32⟩
  | 89 => ⟨S1x128, .f32⟩
  | 90 => ⟨S200000x128, .f32⟩
  | 91 => ⟨S200000x128, .f32⟩
  | 92 => ⟨S_, .i32⟩
  | 93 => ⟨S250000, .i32⟩
  | 94 => ⟨S250000, .i1⟩
  | 95 => ⟨S_, .i32⟩
  | 96 => ⟨S250000, .i32⟩
  | 97 => ⟨S250000, .i32⟩
  | 98 => ⟨S250000, .i32⟩
  | 99 => ⟨S250000x1, .i32⟩
  | 100 => ⟨S1, .i32⟩
  | 101 => ⟨S_, .i32⟩
  | 102 => ⟨S250000x1, .i32⟩
  | 103 => ⟨S250000x1, .i1⟩
  | 104 => ⟨S1x1, .i32⟩
  | 105 => ⟨S250000x1, .i32⟩
  | 106 => ⟨S250000x1, .i1⟩
  | 107 => ⟨S250000x1, .i1⟩
  | 108 => ⟨S_, .i1⟩
  | 109 => ⟨S250000, .i1⟩
  | 110 => ⟨S250000x128, .f32⟩
  | 111 => ⟨S250000x128, .i1⟩
  | 112 => ⟨S_, .f32⟩
  | 113 => ⟨S250000x128, .f32⟩
  | 114 => ⟨S250000x128, .f32⟩
  | 115 => ⟨S_, .f32⟩
  | 116 => ⟨S80000x128, .f32⟩
  | 117 => ⟨S250000x1, .i32⟩
  | 118 => ⟨S80000x128, .f32⟩
  | 119 => ⟨S1x128x128, .f32⟩
  | 120 => ⟨S128x128, .f32⟩
  | 121 => ⟨S80000x128, .f32⟩
  | 122 => ⟨S_, .i32⟩
  | 123 => ⟨S250000, .i32⟩
  | 124 => ⟨S250000, .i1⟩
  | 125 => ⟨S_, .i32⟩
  | 126 => ⟨S250000, .i32⟩
  | 127 => ⟨S250000, .i32⟩
  | _ => ⟨S200000x64, .f32⟩

abbrev hbmTy0_1 (i : Nat) : BufTy := match i % 128 with
  | 0 => ⟨S250000, .i32⟩
  | 1 => ⟨S250000x1, .i32⟩
  | 2 => ⟨S1, .i32⟩
  | 3 => ⟨S_, .i32⟩
  | 4 => ⟨S250000x1, .i32⟩
  | 5 => ⟨S250000x1, .i1⟩
  | 6 => ⟨S1x1, .i32⟩
  | 7 => ⟨S250000x1, .i32⟩
  | 8 => ⟨S250000x1, .i1⟩
  | 9 => ⟨S250000x1, .i1⟩
  | 10 => ⟨S_, .i1⟩
  | 11 => ⟨S250000, .i1⟩
  | 12 => ⟨S250000x128, .f32⟩
  | 13 => ⟨S250000x128, .i1⟩
  | 14 => ⟨S_, .f32⟩
  | 15 => ⟨S250000x128, .f32⟩
  | 16 => ⟨S250000x128, .f32⟩
  | 17 => ⟨S_, .f32⟩
  | 18 => ⟨S60000x128, .f32⟩
  | 19 => ⟨S250000x1, .i32⟩
  | 20 => ⟨S60000x128, .f32⟩
  | 21 => ⟨S1x128x128, .f32⟩
  | 22 => ⟨S128x128, .f32⟩
  | 23 => ⟨S60000x128, .f32⟩
  | 24 => ⟨S_, .i32⟩
  | 25 => ⟨S250000, .i32⟩
  | 26 => ⟨S250000, .i1⟩
  | 27 => ⟨S_, .i32⟩
  | 28 => ⟨S250000, .i32⟩
  | 29 => ⟨S250000, .i32⟩
  | 30 => ⟨S250000, .i32⟩
  | 31 => ⟨S250000x1, .i32⟩
  | 32 => ⟨S1, .i32⟩
  | 33 => ⟨S_, .i32⟩
  | 34 => ⟨S250000x1, .i32⟩
  | 35 => ⟨S250000x1, .i1⟩
  | 36 => ⟨S1x1, .i32⟩
  | 37 => ⟨S250000x1, .i32⟩
  | 38 => ⟨S250000x1, .i1⟩
  | 39 => ⟨S250000x1, .i1⟩
  | 40 => ⟨S_, .i1⟩
  | 41 => ⟨S250000, .i1⟩
  | 42 => ⟨S250000x128, .f32⟩
  | 43 => ⟨S250000x128, .i1⟩
  | 44 => ⟨S_, .f32⟩
  | 45 => ⟨S250000x128, .f32⟩
  | 46 => ⟨S250000x128, .f32⟩
  | 47 => ⟨S_, .f32⟩
  | 48 => ⟨S200000x128, .f32⟩
  | 49 => ⟨S250000x1, .i32⟩
  | 50 => ⟨S200000x128, .f32⟩
  | 51 => ⟨S_, .i32⟩
  | 52 => ⟨S250000, .i32⟩
  | 53 => ⟨S250000, .i1⟩
  | 54 => ⟨S_, .i32⟩
  | 55 => ⟨S250000, .i32⟩
  | 56 => ⟨S250000, .i32⟩
  | 57 => ⟨S250000, .i32⟩
  | 58 => ⟨S250000x1, .i32⟩
  | 59 => ⟨S1, .i32⟩
  | 60 => ⟨S_, .i32⟩
  | 61 => ⟨S250000x1, .i32⟩
  | 62 => ⟨S250000x1, .i1⟩
  | 63 => ⟨S1x1, .i32⟩
  | 64 => ⟨S250000x1, .i32⟩
  | 65 => ⟨S250000x1, .i1⟩
  | 66 => ⟨S250000x1, .i1⟩
  | 67 => ⟨S_, .i1⟩
  | 68 => ⟨S250000, .i1⟩
  | 69 => ⟨S250000x128, .f32⟩
  | 70 => ⟨S250000x128, .i1⟩
  | 71 => ⟨S_, .f32⟩
  | 72 => ⟨S250000x128, .f32⟩
  | 73 => ⟨S250000x128, .f32⟩
  | 74 => ⟨S_, .f32⟩
  | 75 => ⟨S200000x128, .f32⟩
  | 76 => ⟨S250000x1, .i32⟩
  | 77 => ⟨S200000x128, .f32⟩
  | 78 => ⟨S1x128x128, .f32⟩
  | 79 => ⟨S128x128, .f32⟩
  | 80 => ⟨S1x128x128, .f32⟩
  | 81 => ⟨S128x128, .f32⟩
  | 82 => ⟨S1x1, .f32⟩
  | 83 => ⟨S200000x1, .f32⟩
  | 84 => ⟨S200000, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S8000x128, .f32⟩
  | .local _ .vmem, ⟨11, _⟩ => ⟨S8000x128, .f32⟩
  | .local _ .vmem, ⟨12, _⟩ => ⟨S8000x1, .f32⟩
  | .local _ .vmem, ⟨13, _⟩ => ⟨S8000x1, .f32⟩
  | .local _ .vmem, ⟨14, _⟩ => ⟨S128x128, .f32⟩
  | .local _ .vmem, ⟨15, _⟩ => ⟨S1x128, .f32⟩
  | .local _ .vmem, ⟨16, _⟩ => ⟨S8000x128, .f32⟩
  | .local _ .vmem, ⟨17, _⟩ => ⟨S8000x128, .f32⟩
  | .local _ .vmem, ⟨18, _⟩ => ⟨S6000x128, .f32⟩
  | .local _ .vmem, ⟨19, _⟩ => ⟨S6000x128, .f32⟩
  | .local _ .vmem, ⟨20, _⟩ => ⟨S6000x1, .f32⟩
  | .local _ .vmem, ⟨21, _⟩ => ⟨S6000x1, .f32⟩
  | .local _ .vmem, ⟨22, _⟩ => ⟨S128x128, .f32⟩
  | .local _ .vmem, ⟨23, _⟩ => ⟨S1x128, .f32⟩
  | .local _ .vmem, ⟨24, _⟩ => ⟨S6000x128, .f32⟩
  | .local _ .vmem, ⟨25, _⟩ => ⟨S6000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S1x128, .f32⟩
  | .local _ .vmem, ⟨40, _⟩ => ⟨S128x1, .f32⟩
  | .local _ .vmem, ⟨41, _⟩ => ⟨S1x1, .f32⟩
  | .local _ .vmem, ⟨42, _⟩ => ⟨S5000x1, .f32⟩
  | .local _ .vmem, ⟨43, _⟩ => ⟨S5000x1, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_cst_5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_6 : Ref sig .tc := ⟨.hbm, 40, rfl⟩
abbrev main_v18 : Ref sig .tc := ⟨.hbm, 41, rfl⟩
abbrev main_v19 : Ref sig .tc := ⟨.hbm, 42, rfl⟩
abbrev main_cst_7 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_cst_9 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_10 : Ref sig .tc := ⟨.hbm, 54, rfl⟩
abbrev main_v28 : Ref sig .tc := ⟨.hbm, 55, rfl⟩
abbrev main_v29 : Ref sig .tc := ⟨.hbm, 56, rfl⟩
abbrev main_cst_11 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62_0 : Ref sig .tc := ⟨.hbm, 90, rfl⟩
abbrev main_v62_1 : Ref sig .tc := ⟨.hbm, 91, rfl⟩
abbrev main_call0_c : Ref sig .tc := ⟨.hbm, 92, rfl⟩
abbrev main_call0_v0 : Ref sig .tc := ⟨.hbm, 93, rfl⟩
abbrev main_call0_v1 : Ref sig .tc := ⟨.hbm, 94, rfl⟩
abbrev main_call0_c_0 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_v5 : Ref sig .tc := ⟨.hbm, 99, rfl⟩
abbrev main_call0_c_1 : Ref sig .tc := ⟨.hbm, 100, rfl⟩
abbrev main_call0_c_2 : Ref sig .tc := ⟨.hbm, 101, rfl⟩
abbrev main_call0_v6 : Ref sig .tc := ⟨.hbm, 102, rfl⟩
abbrev main_call0_v7 : Ref sig .tc := ⟨.hbm, 103, rfl⟩
abbrev main_call0_v8 : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_call0_c_3 : Ref sig .tc := ⟨.hbm, 108, rfl⟩
abbrev main_call0_v12 : Ref sig .tc := ⟨.hbm, 109, rfl⟩
abbrev main_call0_v13 : Ref sig .tc := ⟨.hbm, 110, rfl⟩
abbrev main_call0_v14 : Ref sig .tc := ⟨.hbm, 111, rfl⟩
abbrev main_call0_cst : Ref sig .tc := ⟨.hbm, 112, rfl⟩
abbrev main_call0_v15 : Ref sig .tc := ⟨.hbm, 113, rfl⟩
abbrev main_v63 : Ref sig .tc := ⟨.hbm, 114, rfl⟩
abbrev main_cst_12 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_call1_c : Ref sig .tc := ⟨.hbm, 122, rfl⟩
abbrev main_call1_v0 : Ref sig .tc := ⟨.hbm, 123, rfl⟩
abbrev main_call1_v1 : Ref sig .tc := ⟨.hbm, 124, rfl⟩
abbrev main_call1_c_0 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_c_1 : Ref sig .tc := ⟨.hbm, 130, rfl⟩
abbrev main_call1_c_2 : Ref sig .tc := ⟨.hbm, 131, rfl⟩
abbrev main_call1_v6 : Ref sig .tc := ⟨.hbm, 132, rfl⟩
abbrev main_call1_v7 : Ref sig .tc := ⟨.hbm, 133, rfl⟩
abbrev main_call1_v8 : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_call1_c_3 : Ref sig .tc := ⟨.hbm, 138, rfl⟩
abbrev main_call1_v12 : Ref sig .tc := ⟨.hbm, 139, rfl⟩
abbrev main_call1_v13 : Ref sig .tc := ⟨.hbm, 140, rfl⟩
abbrev main_call1_v14 : Ref sig .tc := ⟨.hbm, 141, rfl⟩
abbrev main_call1_cst : Ref sig .tc := ⟨.hbm, 142, rfl⟩
abbrev main_call1_v15 : Ref sig .tc := ⟨.hbm, 143, rfl⟩
abbrev main_v70 : Ref sig .tc := ⟨.hbm, 144, rfl⟩
abbrev main_cst_13 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_call2_c : Ref sig .tc := ⟨.hbm, 152, rfl⟩
abbrev main_call2_v0 : Ref sig .tc := ⟨.hbm, 153, rfl⟩
abbrev main_call2_v1 : Ref sig .tc := ⟨.hbm, 154, rfl⟩
abbrev main_call2_c_0 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_c_1 : Ref sig .tc := ⟨.hbm, 160, rfl⟩
abbrev main_call2_c_2 : Ref sig .tc := ⟨.hbm, 161, rfl⟩
abbrev main_call2_v6 : Ref sig .tc := ⟨.hbm, 162, rfl⟩
abbrev main_call2_v7 : Ref sig .tc := ⟨.hbm, 163, rfl⟩
abbrev main_call2_v8 : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_c_3 : Ref sig .tc := ⟨.hbm, 168, rfl⟩
abbrev main_call2_v12 : Ref sig .tc := ⟨.hbm, 169, rfl⟩
abbrev main_call2_v13 : Ref sig .tc := ⟨.hbm, 170, rfl⟩
abbrev main_call2_v14 : Ref sig .tc := ⟨.hbm, 171, rfl⟩
abbrev main_call2_cst : Ref sig .tc := ⟨.hbm, 172, rfl⟩
abbrev main_call2_v15 : Ref sig .tc := ⟨.hbm, 173, rfl⟩
abbrev main_v77 : Ref sig .tc := ⟨.hbm, 174, rfl⟩
abbrev main_cst_14 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_call3_c : Ref sig .tc := ⟨.hbm, 179, rfl⟩
abbrev main_call3_v0 : Ref sig .tc := ⟨.hbm, 180, rfl⟩
abbrev main_call3_v1 : Ref sig .tc := ⟨.hbm, 181, rfl⟩
abbrev main_call3_c_0 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_call3_v5 : Ref sig .tc := ⟨.hbm, 186, rfl⟩
abbrev main_call3_c_1 : Ref sig .tc := ⟨.hbm, 187, rfl⟩
abbrev main_call3_c_2 : Ref sig .tc := ⟨.hbm, 188, rfl⟩
abbrev main_call3_v6 : Ref sig .tc := ⟨.hbm, 189, rfl⟩
abbrev main_call3_v7 : Ref sig .tc := ⟨.hbm, 190, rfl⟩
abbrev main_call3_v8 : Ref sig .tc := ⟨.hbm, 191, rfl⟩
abbrev main_call3_v9 : Ref sig .tc := ⟨.hbm, 192, rfl⟩
abbrev main_call3_v10 : Ref sig .tc := ⟨.hbm, 193, rfl⟩
abbrev main_call3_v11 : Ref sig .tc := ⟨.hbm, 194, rfl⟩
abbrev main_call3_c_3 : Ref sig .tc := ⟨.hbm, 195, rfl⟩
abbrev main_call3_v12 : Ref sig .tc := ⟨.hbm, 196, rfl⟩
abbrev main_call3_v13 : Ref sig .tc := ⟨.hbm, 197, rfl⟩
abbrev main_call3_v14 : Ref sig .tc := ⟨.hbm, 198, rfl⟩
abbrev main_call3_cst : Ref sig .tc := ⟨.hbm, 199, rfl⟩
abbrev main_call3_v15 : Ref sig .tc := ⟨.hbm, 200, rfl⟩
abbrev main_v81 : Ref sig .tc := ⟨.hbm, 201, rfl⟩
abbrev main_cst_15 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg11_0 : Ref sig .tc := ⟨.vmem, 42, rfl⟩
abbrev cc3_stg11_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem10_0 : DmaSem sig := 41
abbrev cc3_sem11_0 : DmaSem sig := 42
abbrev cc3_sem11_1 : DmaSem sig := 43

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  bcast_S_S250000 : S_.BroadcastsInDim S250000 (![] : Fin 0 → Fin S250000.rank)
  bcast_S_S80000 : S_.BroadcastsInDim S80000 (![] : Fin 0 → Fin S80000.rank)
  bcast_S250000_S250000x1_0 : S250000.BroadcastsInDim S250000x1 (![0] : Fin 1 → Fin S250000x1.rank)
  bcast_S_S60000 : S_.BroadcastsInDim S60000 (![] : Fin 0 → Fin S60000.rank)
  bcast_S_S200000 : S_.BroadcastsInDim S200000 (![] : Fin 0 → Fin S200000.rank)
  shapeCasts_S80000_S80000x1 : S80000.ShapeCasts S80000x1
  shapeCasts_S60000_S60000x1 : S60000.ShapeCasts S60000x1
  shapeCasts_S200000_S200000x1 : S200000.ShapeCasts S200000x1
  slices_S4x128x128_S1x128x128_1_0_0 : S4x128x128.Slices ![1, 0, 0] S1x128x128
  shapeCasts_S1x128x128_S128x128 : S1x128x128.ShapeCasts S128x128
  slices_S4x128x128_S1x128x128_3_0_0 : S4x128x128.Slices ![3, 0, 0] S1x128x128
  slices_S4x128_S1x128_1_0 : S4x128.Slices ![1, 0] S1x128
  shapeCasts_S1x128_S128 : S1x128.ShapeCasts S128
  slices_S4x128_S1x128_3_0 : S4x128.Slices ![3, 0] S1x128
  shapeCasts_S128_S1x128 : S128.ShapeCasts S1x128
  slices_S4x128_S1x128_0_0 : S4x128.Slices ![0, 0] S1x128
  slices_S4x128_S1x128_2_0 : S4x128.Slices ![2, 0] S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S250000x1 : S_.BroadcastsInDim S250000x1 (![] : Fin 0 → Fin S250000x1.rank)
  bcast_S1_S1x1_1 : S1.BroadcastsInDim S1x1 (![1] : Fin 1 → Fin S1x1.rank)
  bcast_S1x1_S250000x1_0_1 : S1x1.BroadcastsInDim S250000x1 (![0, 1] : Fin 2 → Fin S250000x1.rank)
  reducesTo_S250000x1_S250000_d1 : S250000x1.ReducesTo [1] S250000
  h_S_ : 0 < S_.numel
  bcast_S250000_S250000x128_0 : S250000.BroadcastsInDim S250000x128 (![0] : Fin 1 → Fin S250000x128.rank)
  bcast_S_S250000x128 : S_.BroadcastsInDim S250000x128 (![] : Fin 0 → Fin S250000x128.rank)
  bcast_S_S80000x128 : S_.BroadcastsInDim S80000x128 (![] : Fin 0 → Fin S80000x128.rank)
  slices_S4x128x128_S1x128x128_0_0_0 : S4x128x128.Slices ![0, 0, 0] S1x128x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  broadcasts_S1x128_S8000x128 : S1x128.Broadcasts S8000x128
  bcast_S_S60000x128 : S_.BroadcastsInDim S60000x128 (![] : Fin 0 → Fin S60000x128.rank)
  slices_S4x128x128_S1x128x128_2_0_0 : S4x128x128.Slices ![2, 0, 0] S1x128x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x128 : S6000x1.Broadcasts S6000x128
  broadcasts_S1x128_S6000x128 : S1x128.Broadcasts S6000x128
  bcast_S_S200000x128 : S_.BroadcastsInDim S200000x128 (![] : Fin 0 → Fin S200000x128.rank)
  shapeCasts_S1_S1x1 : S1.ShapeCasts S1x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S200000x1_S200000 : S200000x1.ShapeCasts S200000
  scatter_S80000_S250000x1_S250000_n_0_0_1_wf : ScatterDims.WF S80000 S250000x1 S250000 [] [0] [0] 1
  scatter_S60000_S250000x1_S250000_n_0_0_1_wf : ScatterDims.WF S60000 S250000x1 S250000 [] [0] [0] 1
  scatter_S200000_S250000x1_S250000_n_0_0_1_wf : ScatterDims.WF S200000 S250000x1 S250000 [] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S200000x128_S250000x1_S250000x128_1_0_n_n_0_1_1128_wf : GatherDims.WF S200000x128 S250000x1 S250000x128 [1] [0] [] [0] [] 1 ![1, 128]
  scatter_S80000x128_S250000x1_S250000x128_1_0_0_1_wf : ScatterDims.WF S80000x128 S250000x1 S250000x128 [1] [0] [0] 1
  dot_S8000x128_S128x128_S8000x128_1_0_0_1_n_n_wf : DotDims.WF S8000x128 S128x128 S8000x128 [1] [0] [0] [1] [] []
  scatter_S60000x128_S250000x1_S250000x128_1_0_0_1_wf : ScatterDims.WF S60000x128 S250000x1 S250000x128 [1] [0] [0] 1
  dot_S6000x128_S128x128_S6000x128_1_0_0_1_n_n_wf : DotDims.WF S6000x128 S128x128 S6000x128 [1] [0] [0] [1] [] []
  gather_S80000x128_S250000x1_S250000x128_1_0_n_n_0_1_1128_wf : GatherDims.WF S80000x128 S250000x1 S250000x128 [1] [0] [] [0] [] 1 ![1, 128]
  scatter_S200000x128_S250000x1_S250000x128_1_0_0_1_wf : ScatterDims.WF S200000x128 S250000x1 S250000x128 [1] [0] [0] 1
  gather_S60000x128_S250000x1_S250000x128_1_0_n_n_0_1_1128_wf : GatherDims.WF S60000x128 S250000x1 S250000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S200000x128.size a
  hwx0_5 : ∀ i : grid0.Coords, EltTy.bits .f32 = 32 ∨ (Rect.block (s := S200000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S200000x128.size a
  hwx0_6 : ∀ i : grid0.Coords, EltTy.bits .f32 = 32 ∨ (Rect.block (s := S200000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S80000x128.size a
  hwx1_0 : ∀ i : grid1.Coords, EltTy.bits .f32 = 32 ∨ (Rect.block (s := S80000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S80000x1.size a
  hwx1_1 : ∀ i : grid1.Coords, EltTy.bits .f32 = 32 ∨ (Rect.block (s := S80000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S80000x128.size a
  hwx1_4 : ∀ i : grid1.Coords, EltTy.bits .f32 = 32 ∨ (Rect.block (s := S80000x128) S8000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S60000x128.size a
  hwx2_0 : ∀ i : grid2.Coords, EltTy.bits .f32 = 32 ∨ (Rect.block (s := S60000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x1.size a ≤ S60000x1.size a
  hwx2_1 : ∀ i : grid2.Coords, EltTy.bits .f32 = 32 ∨ (Rect.block (s := S60000x1) S6000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6000x128.size a ≤ S60000x128.size a
  hwx2_4 : ∀ i : grid2.Coords, EltTy.bits .f32 = 32 ∨ (Rect.block (s := S60000x128) S6000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S200000x1.size a
  hwx3_1 : ∀ i : grid3.Coords, EltTy.bits .f32 = 32 ∨ (Rect.block (s := S200000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S200000x128.size a
  hwx3_2 : ∀ i : grid3.Coords, EltTy.bits .f32 = 32 ∨ (Rect.block (s := S200000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S200000x1.size a
  hwx3_3 : ∀ i : grid3.Coords, EltTy.bits .f32 = 32 ∨ (Rect.block (s := S200000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S200000x128.size a
  hwx3_4 : ∀ i : grid3.Coords, EltTy.bits .f32 = 32 ∨ (Rect.block (s := S200000x128) S5000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x1.size a ≤ S128x1.size a
  hwx3_9 : ∀ i : grid3.Coords, EltTy.bits .f32 = 32 ∨ (Rect.block (s := S128x1) S128x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x1.size a ≤ S1x1.size a
  hwx3_10 : ∀ i : grid3.Coords, EltTy.bits .f32 = 32 ∨ (Rect.block (s := S1x1) S1x1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x1.size a ≤ S200000x1.size a
  hwx3_11 : ∀ i : grid3.Coords, EltTy.bits .f32 = 32 ∨ (Rect.block (s := S200000x1) S5000x1.size (cc3_transform_11 i) (hinb3_11 i)).WholeWords (EltTy.packing .f32)

variable [Facts₀]

def scatter_S80000_S250000x1_S250000_n_0_0_1 : ScatterDims S80000 S250000x1 S250000 where
  updateWindowDims := []
  insertedWindowDims := [0]
  scatterDimsToOperandDims := [0]
  indexVectorDim := 1
  wf := scatter_S80000_S250000x1_S250000_n_0_0_1_wf
def scatter_S60000_S250000x1_S250000_n_0_0_1 : ScatterDims S60000 S250000x1 S250000 where
  updateWindowDims := []
  insertedWindowDims := [0]
  scatterDimsToOperandDims := [0]
  indexVectorDim := 1
  wf := scatter_S60000_S250000x1_S250000_n_0_0_1_wf
def scatter_S200000_S250000x1_S250000_n_0_0_1 : ScatterDims S200000 S250000x1 S250000 where
  updateWindowDims := []
  insertedWindowDims := [0]
  scatterDimsToOperandDims := [0]
  indexVectorDim := 1
  wf := scatter_S200000_S250000x1_S250000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S200000x128_S250000x1_S250000x128_1_0_n_n_0_1_1128 : GatherDims S200000x128 S250000x1 S250000x128 where
  offsetDims := [1]
  collapsedSliceDims := [0]
  operandBatchingDims := []
  startIndicesBatchingDims := []
  startIndexMap := [0]
  indexVectorDim := 1
  sliceSizes := ![1, 128]
  wf := gather_S200000x128_S250000x1_S250000x128_1_0_n_n_0_1_1128_wf
def scatter_S80000x128_S250000x1_S250000x128_1_0_0_1 : ScatterDims S80000x128 S250000x1 S250000x128 where
  updateWindowDims := [1]
  insertedWindowDims := [0]
  scatterDimsToOperandDims := [0]
  indexVectorDim := 1
  wf := scatter_S80000x128_S250000x1_S250000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S60000x128_S250000x1_S250000x128_1_0_0_1 : ScatterDims S60000x128 S250000x1 S250000x128 where
  updateWindowDims := [1]
  insertedWindowDims := [0]
  scatterDimsToOperandDims := [0]
  indexVectorDim := 1
  wf := scatter_S60000x128_S250000x1_S250000x128_1_0_0_1_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def gather_S80000x128_S250000x1_S250000x128_1_0_n_n_0_1_1128 : GatherDims S80000x128 S250000x1 S250000x128 where
  offsetDims := [1]
  collapsedSliceDims := [0]
  operandBatchingDims := []
  startIndicesBatchingDims := []
  startIndexMap := [0]
  indexVectorDim := 1
  sliceSizes := ![1, 128]
  wf := gather_S80000x128_S250000x1_S250000x128_1_0_n_n_0_1_1128_wf
def scatter_S200000x128_S250000x1_S250000x128_1_0_0_1 : ScatterDims S200000x128 S250000x1 S250000x128 where
  updateWindowDims := [1]
  insertedWindowDims := [0]
  scatterDimsToOperandDims := [0]
  indexVectorDim := 1
  wf := scatter_S200000x128_S250000x1_S250000x128_1_0_0_1_wf
def gather_S60000x128_S250000x1_S250000x128_1_0_n_n_0_1_1128 : GatherDims S60000x128 S250000x1 S250000x128 where
  offsetDims := [1]
  collapsedSliceDims := [0]
  operandBatchingDims := []
  startIndicesBatchingDims := []
  startIndexMap := [0]
  indexVectorDim := 1
  sliceSizes := ![1, 128]
  wf := gather_S60000x128_S250000x1_S250000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v55) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v62_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v62_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v66) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v73) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S6000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S6000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v80) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v32) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v62_1) S5000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v86) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v88) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v48) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v54) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg9) S128x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v89) S1x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v90) S5000x1.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S200000x64 : Shape := ⟨2, ![200000, 64]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S250000 : Shape := ⟨1, ![250000]⟩
abbrev S200000x128 : Shape := ⟨2, ![200000, 128]⟩
abbrev S1x128 : Shape := ⟨2, ![1, 128]⟩
abbrev S_ : Shape := ⟨0, ![]⟩
abbrev S80000x128 : Shape := ⟨2, ![80000, 128]⟩
abbrev S60000x128 : Shape := ⟨2, ![60000, 128]⟩
abbrev S1x128x128 : Shape := ⟨3, ![1, 128, 128]⟩
abbrev S128x128 : Shape := ⟨2, ![128, 128]⟩
abbrev S250000x1 : Shape := ⟨2, ![250000, 1]⟩
abbrev S250000x128 : Shape := ⟨2, ![250000, 128]⟩
abbrev S200000 : Shape := ⟨1, ![200000]⟩
abbrev S200000x1 : Shape := ⟨2, ![200000, 1]⟩
abbrev S80000 : Shape := ⟨1, ![80000]⟩
abbrev S80000x1 : Shape := ⟨2, ![80000, 1]⟩
abbrev S60000 : Shape := ⟨1, ![60000]⟩
abbrev S60000x1 : Shape := ⟨2, ![60000, 1]⟩
abbrev S1x1 : Shape := ⟨2, ![1, 1]⟩

abbrev nBuf : Space → Nat
  | .hbm => 338
  | .vmem => 0
  | .smem => 0
  | _ => 0

abbrev hbmTy0_0 (i : Nat) : BufTy := match i % 128 with
  | 0 => ⟨S200000x64, .f32⟩
  | 1 => ⟨S64x128, .f32⟩
  | 2 => ⟨S128, .f32⟩
  | 3 => ⟨S4x128x128, .f32⟩
  | 4 => ⟨S4x128, .f32⟩
  | 5 => ⟨S4x128x128, .f32⟩
  | 6 => ⟨S4x128x128, .f32⟩
  | 7 => ⟨S4x128, .f32⟩
  | 8 => ⟨S4x128x128, .f32⟩
  | 9 => ⟨S128x1, .f32⟩
  | 10 => ⟨S1, .f32⟩
  | 11 => ⟨S250000, .i32⟩
  | 12 => ⟨S250000, .i32⟩
  | 13 => ⟨S250000, .i32⟩
  | 14 => ⟨S250000, .i32⟩
  | 15 => ⟨S200000x128, .f32⟩
  | 16 => ⟨S1x128, .f32⟩
  | 17 => ⟨S200000x128, .f32⟩
  | 18 => ⟨S200000x128, .f32⟩
  | 19 => ⟨S_, .f32⟩
  | 20 => ⟨S80000x128, .f32⟩
  | 21 => ⟨S_, .f32⟩
  | 22 => ⟨S60000x128, .f32⟩
  | 23 => ⟨S1x128x128, .f32⟩
  | 24 => ⟨S128x128, .f32⟩
  | 25 => ⟨S1x128, .f32⟩
  | 26 => ⟨S128, .f32⟩
  | 27 => ⟨S1x128x128, .f32⟩
  | 28 => ⟨S128x128, .f32⟩
  | 29 => ⟨S_, .i32⟩
  | 30 => ⟨S250000, .i32⟩
  | 31 => ⟨S250000, .i1⟩
  | 32 => ⟨S_, .i32⟩
  | 33 => ⟨S250000, .i32⟩
  | 34 => ⟨S250000, .i32⟩
  | 35 => ⟨S250000, .i32⟩
  | 36 => ⟨S250000x1, .i32⟩
  | 37 => ⟨S250000x128, .f32⟩
  | 38 => ⟨S_, .f32⟩
  | 39 => ⟨S200000x128, .f32⟩
  | 40 => ⟨S250000x1, .i32⟩
  | 41 => ⟨S200000x128, .f32⟩
  | 42 => ⟨S_, .f32⟩
  | 43 => ⟨S250000, .f32⟩
  | 44 => ⟨S_, .f32⟩
  | 45 => ⟨S200000, .f32⟩
  | 46 => ⟨S250000x1, .i32⟩
  | 47 => ⟨S200000, .f32⟩
  | 48 => ⟨S_, .f32⟩
  | 49 => ⟨S200000, .f32⟩
  | 50 => ⟨S200000, .f32⟩
  | 51 => ⟨S200000x1, .f32⟩
  | 52 => ⟨S200000x128, .f32⟩
  | 53 => ⟨S200000x128, .f32⟩
  | 54 => ⟨S200000x128, .f32⟩
  | 55 => ⟨S1x128, .f32⟩
  | 56 => ⟨S200000x128, .f32⟩
  | 57 => ⟨S200000x128, .f32⟩
  | 58 => ⟨S200000x128, .f32⟩
  | 59 => ⟨S200000x128, .f32⟩
  | 60 => ⟨S1x128x128, .f32⟩
  | 61 => ⟨S128x128, .f32⟩
  | 62 => ⟨S1x128, .f32⟩
  | 63 => ⟨S128, .f32⟩
  | 64 => ⟨S1x128x128, .f32⟩
  | 65 => ⟨S128x128, .f32⟩
  | 66 => ⟨S_, .i32⟩
  | 67 => ⟨S250000, .i32⟩
  | 68 => ⟨S250000, .i1⟩
  | 69 => ⟨S_, .i32⟩
  | 70 => ⟨S250000, .i32⟩
  | 71 => ⟨S250000, .i32⟩
  | 72 => ⟨S250000, .i32⟩
  | 73 => ⟨S250000x1, .i32⟩
  | 74 => ⟨S250000x128, .f32⟩
  | 75 => ⟨S_, .f32⟩
  | 76 => ⟨S200000x128, .f32⟩
  | 77 => ⟨S250000x1, .i32⟩
  | 78 => ⟨S200000x128, .f32⟩
  | 79 => ⟨S_, .f32⟩
  | 80 => ⟨S250000, .f32⟩
  | 81 => ⟨S_, .f32⟩
  | 82 => ⟨S200000, .f32⟩
  | 83 => ⟨S250000x1, .i32⟩
  | 84 => ⟨S200000, .f32⟩
  | 85 => ⟨S_, .f32⟩
  | 86 => ⟨S200000, .f32⟩
  | 87 => ⟨S200000, .f32⟩
  | 88 => ⟨S200000x1, .f32⟩
  | 89 => ⟨S200000x128, .f32⟩
  | 90 => ⟨S200000x128, .f32⟩
  | 91 => ⟨S200000x128, .f32⟩
  | 92 => ⟨S1x128, .f32⟩
  | 93 => ⟨S200000x128, .f32⟩
  | 94 => ⟨S200000x128, .f32⟩
  | 95 => ⟨S200000x128, .f32⟩
  | 96 => ⟨S200000x128, .f32⟩
  | 97 => ⟨S200000x128, .f32⟩
  | 98 => ⟨S1x128x128, .f32⟩
  | 99 => ⟨S128x128, .f32⟩
  | 100 => ⟨S1x128, .f32⟩
  | 101 => ⟨S128, .f32⟩
  | 102 => ⟨S1x128x128, .f32⟩
  | 103 => ⟨S128x128, .f32⟩
  | 104 => ⟨S_, .i32⟩
  | 105 => ⟨S250000, .i32⟩
  | 106 => ⟨S250000, .i1⟩
  | 107 => ⟨S_, .i32⟩
  | 108 => ⟨S250000, .i32⟩
  | 109 => ⟨S250000, .i32⟩
  | 110 => ⟨S250000, .i32⟩
  | 111 => ⟨S250000x1, .i32⟩
  | 112 => ⟨S250000x128, .f32⟩
  | 113 => ⟨S_, .f32⟩
  | 114 => ⟨S80000x128, .f32⟩
  | 115 => ⟨S250000x1, .i32⟩
  | 116 => ⟨S80000x128, .f32⟩
  | 117 => ⟨S_, .f32⟩
  | 118 => ⟨S250000, .f32⟩
  | 119 => ⟨S_, .f32⟩
  | 120 => ⟨S80000, .f32⟩
  | 121 => ⟨S250000x1, .i32⟩
  | 122 => ⟨S80000, .f32⟩
  | 123 => ⟨S_, .f32⟩
  | 124 => ⟨S80000, .f32⟩
  | 125 => ⟨S80000, .f32⟩
  | 126 => ⟨S80000x1, .f32⟩
  | 127 => ⟨S80000x128, .f32⟩
  | _ => ⟨S200000x64, .f32⟩

abbrev hbmTy0_1 (i : Nat) : BufTy := match i % 128 with
  | 0 => ⟨S80000x128, .f32⟩
  | 1 => ⟨S80000x128, .f32⟩
  | 2 => ⟨S1x128, .f32⟩
  | 3 => ⟨S80000x128, .f32⟩
  | 4 => ⟨S80000x128, .f32⟩
  | 5 => ⟨S80000x128, .f32⟩
  | 6 => ⟨S80000x128, .f32⟩
  | 7 => ⟨S1x128x128, .f32⟩
  | 8 => ⟨S128x128, .f32⟩
  | 9 => ⟨S1x128, .f32⟩
  | 10 => ⟨S128, .f32⟩
  | 11 => ⟨S1x128x128, .f32⟩
  | 12 => ⟨S128x128, .f32⟩
  | 13 => ⟨S_, .i32⟩
  | 14 => ⟨S250000, .i32⟩
  | 15 => ⟨S250000, .i1⟩
  | 16 => ⟨S_, .i32⟩
  | 17 => ⟨S250000, .i32⟩
  | 18 => ⟨S250000, .i32⟩
  | 19 => ⟨S250000, .i32⟩
  | 20 => ⟨S250000x1, .i32⟩
  | 21 => ⟨S250000x128, .f32⟩
  | 22 => ⟨S_, .f32⟩
  | 23 => ⟨S60000x128, .f32⟩
  | 24 => ⟨S250000x1, .i32⟩
  | 25 => ⟨S60000x128, .f32⟩
  | 26 => ⟨S_, .f32⟩
  | 27 => ⟨S250000, .f32⟩
  | 28 => ⟨S_, .f32⟩
  | 29 => ⟨S60000, .f32⟩
  | 30 => ⟨S250000x1, .i32⟩
  | 31 => ⟨S60000, .f32⟩
  | 32 => ⟨S_, .f32⟩
  | 33 => ⟨S60000, .f32⟩
  | 34 => ⟨S60000, .f32⟩
  | 35 => ⟨S60000x1, .f32⟩
  | 36 => ⟨S60000x128, .f32⟩
  | 37 => ⟨S60000x128, .f32⟩
  | 38 => ⟨S60000x128, .f32⟩
  | 39 => ⟨S1x128, .f32⟩
  | 40 => ⟨S60000x128, .f32⟩
  | 41 => ⟨S60000x128, .f32⟩
  | 42 => ⟨S60000x128, .f32⟩
  | 43 => ⟨S60000x128, .f32⟩
  | 44 => ⟨S_, .f32⟩
  | 45 => ⟨S200000x128, .f32⟩
  | 46 => ⟨S200000x128, .f32⟩
  | 47 => ⟨S_, .f32⟩
  | 48 => ⟨S80000x128, .f32⟩
  | 49 => ⟨S80000x128, .f32⟩
  | 50 => ⟨S_, .f32⟩
  | 51 => ⟨S60000x128, .f32⟩
  | 52 => ⟨S60000x128, .f32⟩
  | 53 => ⟨S1x128x128, .f32⟩
  | 54 => ⟨S128x128, .f32⟩
  | 55 => ⟨S1x128, .f32⟩
  | 56 => ⟨S128, .f32⟩
  | 57 => ⟨S1x128x128, .f32⟩
  | 58 => ⟨S128x128, .f32⟩
  | 59 => ⟨S_, .i32⟩
  | 60 => ⟨S250000, .i32⟩
  | 61 => ⟨S250000, .i1⟩
  | 62 => ⟨S_, .i32⟩
  | 63 => ⟨S250000, .i32⟩
  | 64 => ⟨S250000, .i32⟩
  | 65 => ⟨S250000, .i32⟩
  | 66 => ⟨S250000x1, .i32⟩
  | 67 => ⟨S250000x128, .f32⟩
  | 68 => ⟨S_, .f32⟩
  | 69 => ⟨S200000x128, .f32⟩
  | 70 => ⟨S250000x1, .i32⟩
  | 71 => ⟨S200000x128, .f32⟩
  | 72 => ⟨S_, .f32⟩
  | 73 => ⟨S250000, .f32⟩
  | 74 => ⟨S_, .f32⟩
  | 75 => ⟨S200000, .f32⟩
  | 76 => ⟨S250000x1, .i32⟩
  | 77 => ⟨S200000, .f32⟩
  | 78 => ⟨S_, .f32⟩
  | 79 => ⟨S200000, .f32⟩
  | 80 => ⟨S200000, .f32⟩
  | 81 => ⟨S200000x1, .f32⟩
  | 82 => ⟨S200000x128, .f32⟩
  | 83 => ⟨S200000x128, .f32⟩
  | 84 => ⟨S200000x128, .f32⟩
  | 85 => ⟨S1x128, .f32⟩
  | 86 => ⟨S200000x128, .f32⟩
  | 87 => ⟨S200000x128, .f32⟩
  | 88 => ⟨S200000x128, .f32⟩
  | 89 => ⟨S200000x128, .f32⟩
  | 90 => ⟨S1x128x128, .f32⟩
  | 91 => ⟨S128x128, .f32⟩
  | 92 => ⟨S1x128, .f32⟩
  | 93 => ⟨S128, .f32⟩
  | 94 => ⟨S1x128x128, .f32⟩
  | 95 => ⟨S128x128, .f32⟩
  | 96 => ⟨S_, .i32⟩
  | 97 => ⟨S250000, .i32⟩
  | 98 => ⟨S250000, .i1⟩
  | 99 => ⟨S_, .i32⟩
  | 100 => ⟨S250000, .i32⟩
  | 101 => ⟨S250000, .i32⟩
  | 102 => ⟨S250000, .i32⟩
  | 103 => ⟨S250000x1, .i32⟩
  | 104 => ⟨S250000x128, .f32⟩
  | 105 => ⟨S_, .f32⟩
  | 106 => ⟨S200000x128, .f32⟩
  | 107 => ⟨S250000x1, .i32⟩
  | 108 => ⟨S200000x128, .f32⟩
  | 109 => ⟨S_, .f32⟩
  | 110 => ⟨S250000, .f32⟩
  | 111 => ⟨S_, .f32⟩
  | 112 => ⟨S200000, .f32⟩
  | 113 => ⟨S250000x1, .i32⟩
  | 114 => ⟨S200000, .f32⟩
  | 115 => ⟨S_, .f32⟩
  | 116 => ⟨S200000, .f32⟩
  | 117 => ⟨S200000, .f32⟩
  | 118 => ⟨S200000x1, .f32⟩
  | 119 => ⟨S200000x128, .f32⟩
  | 120 => ⟨S200000x128, .f32⟩
  | 121 => ⟨S200000x128, .f32⟩
  | 122 => ⟨S1x128, .f32⟩
  | 123 => ⟨S200000x128, .f32⟩
  | 124 => ⟨S200000x128, .f32⟩
  | 125 => ⟨S200000x128, .f32⟩
  | 126 => ⟨S200000x128, .f32⟩
  | 127 => ⟨S200000x128, .f32⟩
  | _ => ⟨S200000x64, .f32⟩

abbrev hbmTy0_2 (i : Nat) : BufTy := match i % 128 with
  | 0 => ⟨S1x128x128, .f32⟩
  | 1 => ⟨S128x128, .f32⟩
  | 2 => ⟨S1x128, .f32⟩
  | 3 => ⟨S128, .f32⟩
  | 4 => ⟨S1x128x128, .f32⟩
  | 5 => ⟨S128x128, .f32⟩
  | 6 => ⟨S_, .i32⟩
  | 7 => ⟨S250000, .i32⟩
  | 8 => ⟨S250000, .i1⟩
  | 9 => ⟨S_, .i32⟩
  | 10 => ⟨S250000, .i32⟩
  | 11 => ⟨S250000, .i32⟩
  | 12 => ⟨S250000, .i32⟩
  | 13 => ⟨S250000x1, .i32⟩
  | 14 => ⟨S250000x128, .f32⟩
  | 15 => ⟨S_, .f32⟩
  | 16 => ⟨S80000x128, .f32⟩
  | 17 => ⟨S250000x1, .i32⟩
  | 18 => ⟨S80000x128, .f32⟩
  | 19 => ⟨S_, .f32⟩
  | 20 => ⟨S250000, .f32⟩
  | 21 => ⟨S_, .f32⟩
  | 22 => ⟨S80000, .f32⟩
  | 23 => ⟨S250000x1, .i32⟩
  | 24 => ⟨S80000, .f32⟩
  | 25 => ⟨S_, .f32⟩
  | 26 => ⟨S80000, .f32⟩
  | 27 => ⟨S80000, .f32⟩
  | 28 => ⟨S80000x1, .f32⟩
  | 29 => ⟨S80000x128, .f32⟩
  | 30 => ⟨S80000x128, .f32⟩
  | 31 => ⟨S80000x128, .f32⟩
  | 32 => ⟨S1x128, .f32⟩
  | 33 => ⟨S80000x128, .f32⟩
  | 34 => ⟨S80000x128, .f32⟩
  | 35 => ⟨S80000x128, .f32⟩
  | 36 => ⟨S80000x128, .f32⟩
  | 37 => ⟨S1x128x128, .f32⟩
  | 38 => ⟨S128x128, .f32⟩
  | 39 => ⟨S1x128, .f32⟩
  | 40 => ⟨S128, .f32⟩
  | 41 => ⟨S1x128x128, .f32⟩
  | 42 => ⟨S128x128, .f32⟩
  | 43 => ⟨S_, .i32⟩
  | 44 => ⟨S250000, .i32⟩
  | 45 => ⟨S250000, .i1⟩
  | 46 => ⟨S_, .i32⟩
  | 47 => ⟨S250000, .i32⟩
  | 48 => ⟨S250000, .i32⟩
  | 49 => ⟨S250000, .i32⟩
  | 50 => ⟨S250000x1, .i32⟩
  | 51 => ⟨S250000x128, .f32⟩
  | 52 => ⟨S_, .f32⟩
  | 53 => ⟨S60000x128, .f32⟩
  | 54 => ⟨S250000x1, .i32⟩
  | 55 => ⟨S60000x128, .f32⟩
  | 56 => ⟨S_, .f32⟩
  | 57 => ⟨S250000, .f32⟩
  | 58 => ⟨S_, .f32⟩
  | 59 => ⟨S60000, .f32⟩
  | 60 => ⟨S250000x1, .i32⟩
  | 61 => ⟨S60000, .f32⟩
  | 62 => ⟨S_, .f32⟩
  | 63 => ⟨S60000, .f32⟩
  | 64 => ⟨S60000, .f32⟩
  | 65 => ⟨S60000x1, .f32⟩
  | 66 => ⟨S60000x128, .f32⟩
  | 67 => ⟨S60000x128, .f32⟩
  | 68 => ⟨S60000x128, .f32⟩
  | 69 => ⟨S1x128, .f32⟩
  | 70 => ⟨S60000x128, .f32⟩
  | 71 => ⟨S60000x128, .f32⟩
  | 72 => ⟨S60000x128, .f32⟩
  | 73 => ⟨S60000x128, .f32⟩
  | 74 => ⟨S_, .f32⟩
  | 75 => ⟨S200000x128, .f32⟩
  | 76 => ⟨S200000x128, .f32⟩
  | 77 => ⟨S200000x1, .f32⟩
  | 78 => ⟨S1x1, .f32⟩
  | 79 => ⟨S200000x1, .f32⟩
  | 80 => ⟨S200000x1, .f32⟩
  | 81 => ⟨S200000, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_c_13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_18 : Ref sig .tc := ⟨.hbm, 141, rfl⟩
abbrev main_v106 : Ref sig .tc := ⟨.hbm, 142, rfl⟩
abbrev main_v107 : Ref sig .tc := ⟨.hbm, 143, rfl⟩
abbrev main_c_19 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_20 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_21 : Ref sig .tc := ⟨.hbm, 154, rfl⟩
abbrev main_v116 : Ref sig .tc := ⟨.hbm, 155, rfl⟩
abbrev main_cst_22 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_23 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_call0_cst : Ref sig .tc := ⟨.hbm, 172, rfl⟩
abbrev main_call0_v0 : Ref sig .tc := ⟨.hbm, 173, rfl⟩
abbrev main_v131 : Ref sig .tc := ⟨.hbm, 174, rfl⟩
abbrev main_call1_cst : Ref sig .tc := ⟨.hbm, 175, rfl⟩
abbrev main_call1_v0 : Ref sig .tc := ⟨.hbm, 176, rfl⟩
abbrev main_v132 : Ref sig .tc := ⟨.hbm, 177, rfl⟩
abbrev main_call2_cst : Ref sig .tc := ⟨.hbm, 178, rfl⟩
abbrev main_call2_v0 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_c_24 : Ref sig .tc := ⟨.hbm, 187, rfl⟩
abbrev main_v140 : Ref sig .tc := ⟨.hbm, 188, rfl⟩
abbrev main_v141 : Ref sig .tc := ⟨.hbm, 189, rfl⟩
abbrev main_c_25 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_26 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_27 : Ref sig .tc := ⟨.hbm, 200, rfl⟩
abbrev main_v150 : Ref sig .tc := ⟨.hbm, 201, rfl⟩
abbrev main_cst_28 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_29 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_c_30 : Ref sig .tc := ⟨.hbm, 224, rfl⟩
abbrev main_v171 : Ref sig .tc := ⟨.hbm, 225, rfl⟩
abbrev main_v172 : Ref sig .tc := ⟨.hbm, 226, rfl⟩
abbrev main_c_31 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_cst_32 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_cst_33 : Ref sig .tc := ⟨.hbm, 237, rfl⟩
abbrev main_v181 : Ref sig .tc := ⟨.hbm, 238, rfl⟩
abbrev main_cst_34 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_35 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_c_36 : Ref sig .tc := ⟨.hbm, 262, rfl⟩
abbrev main_v203 : Ref sig .tc := ⟨.hbm, 263, rfl⟩
abbrev main_v204 : Ref sig .tc := ⟨.hbm, 264, rfl⟩
abbrev main_c_37 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_cst_38 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_cst_39 : Ref sig .tc := ⟨.hbm, 275, rfl⟩
abbrev main_v213 : Ref sig .tc := ⟨.hbm, 276, rfl⟩
abbrev main_cst_40 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_cst_41 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_c_42 : Ref sig .tc := ⟨.hbm, 299, rfl⟩
abbrev main_v234 : Ref sig .tc := ⟨.hbm, 300, rfl⟩
abbrev main_v235 : Ref sig .tc := ⟨.hbm, 301, rfl⟩
abbrev main_c_43 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_cst_44 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_cst_45 : Ref sig .tc := ⟨.hbm, 312, rfl⟩
abbrev main_v244 : Ref sig .tc := ⟨.hbm, 313, rfl⟩
abbrev main_cst_46 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_cst_47 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_call3_cst : Ref sig .tc := ⟨.hbm, 330, rfl⟩
abbrev main_call3_v0 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S80000x128 : S_.BroadcastsInDim S80000x128 (![] : Fin 0 → Fin S80000x128.rank)
  bcast_S_S60000x128 : S_.BroadcastsInDim S60000x128 (![] : Fin 0 → Fin S60000x128.rank)
  slices_S4x128x128_S1x128x128_1_0_0 : S4x128x128.Slices ![1, 0, 0] S1x128x128
  shapeCasts_S1x128x128_S128x128 : S1x128x128.ShapeCasts S128x128
  slices_S4x128_S1x128_1_0 : S4x128.Slices ![1, 0] S1x128
  shapeCasts_S1x128_S128 : S1x128.ShapeCasts S128
  bcast_S_S250000 : S_.BroadcastsInDim S250000 (![] : Fin 0 → Fin S250000.rank)
  bcast_S250000_S250000x1_0 : S250000.BroadcastsInDim S250000x1 (![0] : Fin 1 → Fin S250000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S4x128x128_S1x128x128_3_0_0 : S4x128x128.Slices ![3, 0, 0] S1x128x128
  slices_S4x128_S1x128_3_0 : S4x128.Slices ![3, 0] S1x128
  slices_S4x128x128_S1x128x128_0_0_0 : S4x128x128.Slices ![0, 0, 0] S1x128x128
  slices_S4x128_S1x128_0_0 : S4x128.Slices ![0, 0] S1x128
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x128_0_1 : S80000x1.BroadcastsInDim S80000x128 (![0, 1] : Fin 2 → Fin S80000x128.rank)
  bcast_S1x128_S80000x128_0_1 : S1x128.BroadcastsInDim S80000x128 (![0, 1] : Fin 2 → Fin S80000x128.rank)
  slices_S4x128x128_S1x128x128_2_0_0 : S4x128x128.Slices ![2, 0, 0] S1x128x128
  slices_S4x128_S1x128_2_0 : S4x128.Slices ![2, 0] S1x128
  bcast_S_S60000 : S_.BroadcastsInDim S60000 (![] : Fin 0 → Fin S60000.rank)
  bcast_S60000_S60000x1_0 : S60000.BroadcastsInDim S60000x1 (![0] : Fin 1 → Fin S60000x1.rank)
  bcast_S60000x1_S60000x128_0_1 : S60000x1.BroadcastsInDim S60000x128 (![0, 1] : Fin 2 → Fin S60000x128.rank)
  bcast_S1x128_S60000x128_0_1 : S1x128.BroadcastsInDim S60000x128 (![0, 1] : Fin 2 → Fin S60000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S200000x64_S64x128_S200000x128_1_0_0_1_n_n_wf : DotDims.WF S200000x64 S64x128 S200000x128 [1] [0] [0] [1] [] []
  gather_S80000x128_S250000x1_S250000x128_1_0_n_n_0_1_1128_wf : GatherDims.WF S80000x128 S250000x1 S250000x128 [1] [0] [] [0] [] 1 ![1, 128]
  scatter_S200000x128_S250000x1_S250000x128_1_0_0_1_wf : ScatterDims.WF S200000x128 S250000x1 S250000x128 [1] [0] [0] 1
  scatter_S200000_S250000x1_S250000_n_0_0_1_wf : ScatterDims.WF S200000 S250000x1 S250000 [] [0] [0] 1
  dot_S200000x128_S128x128_S200000x128_1_0_0_1_n_n_wf : DotDims.WF S200000x128 S128x128 S200000x128 [1] [0] [0] [1] [] []
  gather_S60000x128_S250000x1_S250000x128_1_0_n_n_0_1_1128_wf : GatherDims.WF S60000x128 S250000x1 S250000x128 [1] [0] [] [0] [] 1 ![1, 128]
  gather_S200000x128_S250000x1_S250000x128_1_0_n_n_0_1_1128_wf : GatherDims.WF S200000x128 S250000x1 S250000x128 [1] [0] [] [0] [] 1 ![1, 128]
  scatter_S80000x128_S250000x1_S250000x128_1_0_0_1_wf : ScatterDims.WF S80000x128 S250000x1 S250000x128 [1] [0] [0] 1
  scatter_S80000_S250000x1_S250000_n_0_0_1_wf : ScatterDims.WF S80000 S250000x1 S250000 [] [0] [0] 1
  dot_S80000x128_S128x128_S80000x128_1_0_0_1_n_n_wf : DotDims.WF S80000x128 S128x128 S80000x128 [1] [0] [0] [1] [] []
  scatter_S60000x128_S250000x1_S250000x128_1_0_0_1_wf : ScatterDims.WF S60000x128 S250000x1 S250000x128 [1] [0] [0] 1
  scatter_S60000_S250000x1_S250000_n_0_0_1_wf : ScatterDims.WF S60000 S250000x1 S250000 [] [0] [0] 1
  dot_S60000x128_S128x128_S60000x128_1_0_0_1_n_n_wf : DotDims.WF S60000x128 S128x128 S60000x128 [1] [0] [0] [1] [] []
  dot_S200000x128_S128x1_S200000x1_1_0_0_1_n_n_wf : DotDims.WF S200000x128 S128x1 S200000x1 [1] [0] [0] [1] [] []

variable [Facts₀]

def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def gather_S80000x128_S250000x1_S250000x128_1_0_n_n_0_1_1128 : GatherDims S80000x128 S250000x1 S250000x128 where
  offsetDims := [1]
  collapsedSliceDims := [0]
  operandBatchingDims := []
  startIndicesBatchingDims := []
  startIndexMap := [0]
  indexVectorDim := 1
  sliceSizes := ![1, 128]
  wf := gather_S80000x128_S250000x1_S250000x128_1_0_n_n_0_1_1128_wf
def scatter_S200000x128_S250000x1_S250000x128_1_0_0_1 : ScatterDims S200000x128 S250000x1 S250000x128 where
  updateWindowDims := [1]
  insertedWindowDims := [0]
  scatterDimsToOperandDims := [0]
  indexVectorDim := 1
  wf := scatter_S200000x128_S250000x1_S250000x128_1_0_0_1_wf
def scatter_S200000_S250000x1_S250000_n_0_0_1 : ScatterDims S200000 S250000x1 S250000 where
  updateWindowDims := []
  insertedWindowDims := [0]
  scatterDimsToOperandDims := [0]
  indexVectorDim := 1
  wf := scatter_S200000_S250000x1_S250000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S60000x128_S250000x1_S250000x128_1_0_n_n_0_1_1128 : GatherDims S60000x128 S250000x1 S250000x128 where
  offsetDims := [1]
  collapsedSliceDims := [0]
  operandBatchingDims := []
  startIndicesBatchingDims := []
  startIndexMap := [0]
  indexVectorDim := 1
  sliceSizes := ![1, 128]
  wf := gather_S60000x128_S250000x1_S250000x128_1_0_n_n_0_1_1128_wf
def gather_S200000x128_S250000x1_S250000x128_1_0_n_n_0_1_1128 : GatherDims S200000x128 S250000x1 S250000x128 where
  offsetDims := [1]
  collapsedSliceDims := [0]
  operandBatchingDims := []
  startIndicesBatchingDims := []
  startIndexMap := [0]
  indexVectorDim := 1
  sliceSizes := ![1, 128]
  wf := gather_S200000x128_S250000x1_S250000x128_1_0_n_n_0_1_1128_wf
def scatter_S80000x128_S250000x1_S250000x128_1_0_0_1 : ScatterDims S80000x128 S250000x1 S250000x128 where
  updateWindowDims := [1]
  insertedWindowDims := [0]
  scatterDimsToOperandDims := [0]
  indexVectorDim := 1
  wf := scatter_S80000x128_S250000x1_S250000x128_1_0_0_1_wf
def scatter_S80000_S250000x1_S250000_n_0_0_1 : ScatterDims S80000 S250000x1 S250000 where
  updateWindowDims := []
  insertedWindowDims := [0]
  scatterDimsToOperandDims := [0]
  indexVectorDim := 1
  wf := scatter_S80000_S250000x1_S250000_n_0_0_1_wf
def dot_S80000x128_S128x128_S80000x128_1_0_0_1_n_n : DotDims S80000x128 S128x128 S80000x128 where
  lhsContracting := [1]
  rhsContracting := [0]
  lhsNonContracting := [0]
  rhsNonContracting := [1]
  lhsBatch := []
  rhsBatch := []
  wf := dot_S80000x128_S128x128_S80000x128_1_0_0_1_n_n_wf
def scatter_S60000x128_S250000x1_S250000x128_1_0_0_1 : ScatterDims S60000x128 S250000x1 S250000x128 where
  updateWindowDims := [1]
  insertedWindowDims := [0]
  scatterDimsToOperandDims := [0]
  indexVectorDim := 1
  wf := scatter_S60000x128_S250000x1_S250000x128_1_0_0_1_wf
def scatter_S60000_S250000x1_S250000_n_0_0_1 : ScatterDims S60000 S250000x1 S250000 where
  updateWindowDims := []
  insertedWindowDims := [0]
  scatterDimsToOperandDims := [0]
  indexVectorDim := 1
  wf := scatter_S60000_S250000x1_S250000_n_0_0_1_wf
def dot_S60000x128_S128x128_S60000x128_1_0_0_1_n_n : DotDims S60000x128 S128x128 S60000x128 where
  lhsContracting := [1]
  rhsContracting := [0]
  lhsNonContracting := [0]
  rhsNonContracting := [1]
  lhsBatch := []
  rhsBatch := []
  wf := dot_S60000x128_S128x128_S60000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.RowOps.lean ====
/-
  Dense row-wise operations on matrices of extended reals, index by index: a matrix product as the sum over the
  contracted coordinate, a one-row bias added to every row, a one-column scale applied to every row, and the positive
  part.  A matrix [n, D] is a function on the indices of the rank-two shape; the index functions spell each coordinate
  out, so that a block of rows of a product is the product of the block of rows.
-/
import Idealize.ShloMosaic.PureOps.Ideal
import Idealize.ShloMosaic.Lib.ValueIdx

noncomputable section

namespace Cert.RowOps

open Idealize.ShloMosaic

/-- The rank-two shape [a, b]. -/
abbrev Sh2 (a b : Nat) : Shape := ⟨2, ![a, b]⟩

/-- A matrix [a, b] of extended reals. -/
abbrev Mat (a b : Nat) : Type := (Sh2 a b).Idx → EReal

/-- (row of i, k): the left factor's index in a product read at i. -/
abbrev li {n K D : Nat} (i : (Sh2 n D).Idx) (k : Fin K) : (Sh2 n K).Idx := fun a => match a with
  | ⟨0, _⟩ => ⟨(i 0).val, (i 0).isLt⟩
  | ⟨1, _⟩ => ⟨k.val, k.isLt⟩

/-- (k, column of i): the right factor's index in a product read at i. -/
abbrev ri {n K D : Nat} (i : (Sh2 n D).Idx) (k : Fin K) : (Sh2 K D).Idx := fun a => match a with
  | ⟨0, _⟩ => ⟨k.val, k.isLt⟩
  | ⟨1, _⟩ => ⟨(i 1).val, (i 1).isLt⟩

/-- (0, column of i): where a one-row matrix is read for index i. -/
abbrev rowOf {n D : Nat} (i : (Sh2 n D).Idx) : (Sh2 1 D).Idx := fun a => match a with
  | ⟨0, _⟩ => ⟨0, Nat.one_pos⟩
  | ⟨1, _⟩ => ⟨(i 1).val, (i 1).isLt⟩

/-- (row of i, 0): where a one-column matrix is read for index i. -/
abbrev colOf {n D : Nat} (i : (Sh2 n D).Idx) : (Sh2 n 1).Idx := fun a => match a with
  | ⟨0, _⟩ => ⟨(i 0).val, (i 0).isLt⟩
  | ⟨1, _⟩ => ⟨0, Nat.one_pos⟩

/-- The matrix product x · w: entry (r, c) is the sum over k of x (r, k) · w (k, c). -/
def mm {n K D : Nat} (x : Mat n K) (w : Mat K D) : Mat n D := fun i => ∑ k : Fin K, x (li i k) * w (ri i k)

/-- The one-row matrix b added to every row of y. -/
def addRow {n D : Nat} (y : Mat n D) (b : Mat 1 D) : Mat n D := fun i => y i + b (rowOf i)

/-- Every row r of s multiplied by the entry r of the one-column matrix c. -/
def scaleCol {n D : Nat} (s : Mat n D) (c : Mat n 1) : Mat n D := fun i => s i * c (colOf i)

/-- The positive part, entry by entry. -/
def relu {n D : Nat} (y : Mat n D) : Mat n D := fun i => max (y i) 0

/-- The entrywise sum. -/
def add {n D : Nat} (y z : Mat n D) : Mat n D := fun i => y i + z i

end Cert.RowOps

end
-- ==== Proof.Reg0.lean ====
/-
  Region 0 of the kernel's program at the ideal values: every block of 5000 rows of the first output is the block of
  the features times the projection matrix plus the bias row; of the second output, the positive part of that block
  times the summed right-hand weights plus the summed bias row. The forty blocks tile the 200000 rows, so each output
  array is that row-wise function of the region's five arrays.
-/
import proofs.«412835_j24404004176459_1_alg».proof.Proof.Gen.KernelIdeal.Frame
import proofs.«412835_j24404004176459_1_alg».proof.Proof.RowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Cert.RowOps
open Idealize.ShloMosaic Idealize.ShloMosaic.TcCoe Idealize.ShloMosaic.ValueIdx Idealize.SL.Sem
open Idealize.ShloMosaic.Pipeline (Dat)

/-! ## The two products of a block, entry by entry -/

/-- A whole-block access starts at the zero offsets. -/
theorem hz : (![0, 0] : Fin 2 → Nat) = fun _ => 0 := funext fun a => by fin_cases a <;> rfl

/-- The projection's left factor is read in the output's row … -/
theorem lhs_proj_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … at the contracted coordinate; -/
theorem lhs_proj_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- its right factor at the contracted coordinate … -/
theorem rhs_proj_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … in the output's column. -/
theorem rhs_proj_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The projection of a block of 5000 rows into the zero accumulator is the sum over the 64 features of the products. -/
theorem proj_apply (a : FVec Ideal S5000x64 .bf16) (b : FVec Ideal S64x128 .bf16) (i : S5000x128.Idx) :
    matmul dot_S5000x64_S64x128_S5000x128_1_0_0_1_n_n none a b (constant (F := Ideal) S5000x128 .f32 0x00000000#32) i
      = ∑ k : Fin 64, a (li i k) * b (ri i k) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx i ((ValueIdx.contrEquiv1 dot_S5000x64_S64x128_S5000x128_1_0_0_1_n_n 64 rfl rfl).symm k) = li i k := funext fun a => Fin.ext (by
    match a with
    | ⟨0, _⟩ => exact lhs_proj_0 _ _
    | ⟨1, _⟩ => exact (lhs_proj_1 _ _).trans hk)
  have er : dot_S5000x64_S64x128_S5000x128_1_0_0_1_n_n.rhsIdx i ((ValueIdx.contrEquiv1 dot_S5000x64_S64x128_S5000x128_1_0_0_1_n_n 64 rfl rfl).symm k) = ri i k := funext fun a => Fin.ext (by
    match a with
    | ⟨0, _⟩ => exact (rhs_proj_0 _ _).trans hk
    | ⟨1, _⟩ => exact rhs_proj_1 _ _)
  rw [el, er]

/-- The update's left factor is read in the output's row … -/
theorem lhs_upd_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contracted coordinate; -/
theorem lhs_upd_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- its right factor at the contracted coordinate … -/
theorem rhs_upd_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in the output's column. -/
theorem rhs_upd_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The update of a block of 5000 rows into the zero accumulator is the sum over the 128 hidden coordinates of the products. -/
theorem upd_apply (a : FVec Ideal S5000x128 .bf16) (b : FVec Ideal S128x128 .bf16) (i : S5000x128.Idx) :
    matmul dot_S5000x128_S128x128_S5000x128_1_0_0_1_n_n none a b (constant (F := Ideal) S5000x128 .f32 0x00000000#32) i
      = ∑ k : Fin 128, a (li i k) * b (ri i k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = li i k := funext fun a => Fin.ext (by
    match a with
    | ⟨0, _⟩ => exact lhs_upd_0 _ _
    | ⟨1, _⟩ => exact (lhs_upd_1 _ _).trans hk)
  have er : dot_S5000x128_S128x128_S5000x128_1_0_0_1_n_n.rhsIdx i ((ValueIdx.contrEquiv1 dot_S5000x128_S128x128_S5000x128_1_0_0_1_n_n 128 rfl rfl).symm k) = ri i k := funext fun a => Fin.ext (by
    match a with
    | ⟨0, _⟩ => exact (rhs_upd_0 _ _).trans hk
    | ⟨1, _⟩ => exact rhs_upd_1 _ _)
  rw [el, er]

/-- Where the one bias row is read for the entry (p, q) of a block. -/
theorem row_ix (p : Fin 5000) (q : Fin 128) :
    (ix2 (0 : Fin 1) q : S1x128.Idx) = rowOf (n := 5000) (D := 128) (ix2 p q) :=
  funext fun a => by match a with | ⟨0, _⟩ => rfl | ⟨1, _⟩ => rfl

/-- The first payload of a block: the block of features times the projection matrix, plus the bias row. -/
theorem pay1_eq (v0 : Vec Ideal S5000x64 .f32) (v2 : Vec Ideal S64x128 .f32) (v5 : Vec Ideal S1x128 .f32) :
    k0_pay1 (F := Ideal) v0 v2 v5 = addRow (mm v0 v2) v5 := by
  funext j
  obtain ⟨p, q, rfl⟩ : ∃ (p : Fin 5000) (q : Fin 128), j = ix2 p q := ⟨j 0, j 1, eq_ix2 j⟩
  unfold k0_pay1
  show matmul dot_S5000x64_S64x128_S5000x128_1_0_0_1_n_n none (truncf .bf16 v0 bitsLt_bf16_f32) (truncf .bf16 v2 bitsLt_bf16_f32) (constant (F := Ideal) S5000x128 .f32 0x00000000#32) (ix2 p q)
      + broadcastTo S5000x128 (shapeCast S1x128 v5 shapeCasts_S1x128_S1x128) broadcasts_S1x128_S5000x128 (ix2 p q) = _
  rw [proj_apply, shapeCast_self, broadcastTo_1b_ab_apply, row_ix p q]
  rfl

/-- The second payload of a block: the positive part of the first payload times the update matrix plus its bias row. -/
theorem pay2_eq (v0 : Vec Ideal S5000x64 .f32) (v2 : Vec Ideal S64x128 .f32) (v5 : Vec Ideal S1x128 .f32)
    (v11 : Vec Ideal S128x128 .f32) (v15 : Vec Ideal S1x128 .f32) :
    k0_pay2 (F := Ideal) v0 v2 v5 v11 v15 = relu (addRow (mm (addRow (mm v0 v2) v5) v11) v15) := by
  funext j
  obtain ⟨p, q, rfl⟩ : ∃ (p : Fin 5000) (q : Fin 128), j = ix2 p q := ⟨j 0, j 1, eq_ix2 j⟩
  unfold k0_pay2
  rw [pay1_eq]
  show max (matmul dot_S5000x128_S128x128_S5000x128_1_0_0_1_n_n none (truncf .bf16 (addRow (mm v0 v2) v5) bitsLt_bf16_f32) (truncf .bf16 (shapeCast S128x128 v11 shapeCasts_S128x128_S128x128) bitsLt_bf16_f32) (constant (F := Ideal) S5000x128 .f32 0x00000000#32) (ix2 p q)
      + broadcastTo S5000x128 (shapeCast S1x128 v15 shapeCasts_S1x128_S1x128) broadcasts_S1x128_S5000x128 (ix2 p q)) (Ideal.ofBits .f32 0x00000000#32) = _
  rw [upd_apply, shapeCast_self, shapeCast_self, broadcastTo_1b_ab_apply, row_ix p q, Ideal.ofBits_zero_f32]
  rfl

/-! ## From the forty blocks to the arrays -/

/-- The printed index maps, decided once over the forty points: the features' window and the two outputs' windows sit
    at row block `t`, column block 0; the four small arrays are whole, at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The projection is row-wise: the entry `y` of a block's projection is the entry `i` of the arrays' projection as soon
    as the block's row of features, the projection matrix's column and the bias entry read for `y` are those read for `i`. -/
theorem proj_rowwise (X0 : Mat 200000 64) (X1 : Mat 64 128) (X2 : Mat 1 128)
    (x0 : Mat 5000 64) (x1 : Mat 64 128) (x2 : Mat 1 128) (y : (Sh2 5000 128).Idx) (i : (Sh2 200000 128).Idx)
    (h0 : ∀ k : Fin 64, x0 (li y k) = X0 (li i k)) (h1 : ∀ k : Fin 64, x1 (ri y k) = X1 (ri i k))
    (h2 : x2 (rowOf y) = X2 (rowOf i)) :
    addRow (mm x0 x1) x2 y = addRow (mm X0 X1) X2 i := by
  show (∑ k : Fin 64, x0 (li y k) * x1 (ri y k)) + x2 (rowOf y) = (∑ k : Fin 64, X0 (li i k) * X1 (ri i k)) + X2 (rowOf i)
  rw [h2, Finset.sum_congr rfl (fun k _ => by rw [h0 k, h1 k] : ∀ k ∈ (Finset.univ : Finset (Fin 64)), x0 (li y k) * x1 (ri y k) = X0 (li i k) * X1 (ri i k))]

/-- The update is row-wise too: its entry `y` reads, for each hidden coordinate `k`, the projected entry (row of `y`, `k`),
    hence the same row of features, and the update matrix's column and bias entry of `y`. -/
theorem upd_rowwise (X0 : Mat 200000 64) (X1 : Mat 64 128) (X2 : Mat 1 128) (X3 : Mat 128 128) (X4 : Mat 1 128)
    (x0 : Mat 5000 64) (x1 : Mat 64 128) (x2 : Mat 1 128) (x3 : Mat 128 128) (x4 : Mat 1 128)
    (y : (Sh2 5000 128).Idx) (i : (Sh2 200000 128).Idx)
    (h0 : ∀ (k : Fin 128) (k' : Fin 64), x0 (li (li y k) k') = X0 (li (li i k) k'))
    (h1 : ∀ (k : Fin 128) (k' : Fin 64), x1 (ri (li y k) k') = X1 (ri (li i k) k'))
    (h2 : ∀ k : Fin 128, x2 (rowOf (li y k)) = X2 (rowOf (li i k)))
    (h3 : ∀ k : Fin 128, x3 (ri y k) = X3 (ri i k)) (h4 : x4 (rowOf y) = X4 (rowOf i)) :
    relu (addRow (mm (addRow (mm x0 x1) x2) x3) x4) y = relu (addRow (mm (addRow (mm X0 X1) X2) X3) X4) i := by
  have hs : ∀ k : Fin 128,
      ((∑ k' : Fin 64, x0 (li (li y k) k') * x1 (ri (li y k) k')) + x2 (rowOf (li y k))) * x3 (ri y k)
        = ((∑ k' : Fin 64, X0 (li (li i k) k') * X1 (ri (li i k) k')) + X2 (rowOf (li i k))) * X3 (ri i k) := fun k => by
    rw [h2 k, h3 k, Finset.sum_congr rfl (fun k' _ => by rw [h0 k k', h1 k k'] : ∀ k' ∈ (Finset.univ : Finset (Fin 64)), x0 (li (li y k) k') * x1 (ri (li y k) k') = X0 (li (li i k) k') * X1 (ri (li i k) k'))]
  show max ((∑ k : Fin 128, ((∑ k' : Fin 64, x0 (li (li y k) k') * x1 (ri (li y k) k')) + x2 (rowOf (li y k))) * x3 (ri y k)) + x4 (rowOf y)) 0
      = max ((∑ k : Fin 128, ((∑ k' : Fin 64, X0 (li (li i k) k') * X1 (ri (li i k) k')) + X2 (rowOf (li i k))) * X3 (ri i k)) + X4 (rowOf i)) 0
  rw [h4, Finset.sum_congr rfl (fun k _ => hs k)]

variable (V : (c : Dev nD) → (b : Ref sig .tc) → Buf (Elt Ideal) ((c : Thread nD τ).loc b))

/-- WHAT POINT `t` WRITES BACK to the first output is block `t` of the arrays' projection: the block of features is rows
    5000 t … 5000 t + 4999 of the features, the small arrays are read whole. -/
theorem flushed5_eq (c : Dev nD) (t : Fin cfg0.N) :
    (dat0 V c).flushed 5 t
      = ((cfg0.win 5).blk t).view.read (Elt Ideal) (addRow (mm (V c main_arg0) (V c main_arg1)) (V c main_v55)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  rw [pay1_eq]
  obtain ⟨e00, e01, e10, e11, e20, e21, e30, e31, e40, e41, e50, e51, e60, e61⟩ := idx_facts t
  refine funext fun (y : S5000x128.Idx) => ?_
  refine proj_rowwise (V c main_arg0) (V c main_arg1) (V c main_v55) (iblk0 V c 0 t) (iblk0 V c 1 t) (iblk0 V c 2 t) y
    (((cfg0.win 5).blk t).view.emb y) (fun k => ?_) (fun k => ?_) ?_
  · show V c main_arg0 (((cfg0.win 0).blk t).view.emb (li y k)) = V c main_arg0 (li (((cfg0.win 5).blk t).view.emb y) k)
    refine congrArg (V c main_arg0) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 64 + 1 * k.val = k.val; omega
  · show V c main_arg1 (((cfg0.win 1).blk t).view.emb (ri y k)) = V c main_arg1 (ri (((cfg0.win 5).blk t).view.emb y) k)
    refine congrArg (V c main_arg1) (funext fun a => Fin.ext ?_)
    match a with
    | ⟨0, _⟩ => show win0_1.index t (0 : Fin 2) * 64 + 1 * k.val = k.val; omega
    | ⟨1, _⟩ => show win0_1.index t (1 : Fin 2) * 128 + 1 * (y 1).val = win0_5.index t (1 : Fin 2) * 128 + 1 * (y 1).val; omega
  · show V c main_v55 (((cfg0.win 2).blk t).view.emb (rowOf y)) = V c main_v55 (rowOf (((cfg0.win 5).blk t).view.emb y))
    refine congrArg (V c main_v55) (funext fun a => Fin.ext ?_)
    match a with
    | ⟨0, _⟩ => show win0_2.index t (0 : Fin 2) * 1 + 1 * 0 = 0; omega
    | ⟨1, _⟩ => show win0_2.index t (1 : Fin 2) * 128 + 1 * (y 1).val = win0_5.index t (1 : Fin 2) * 128 + 1 * (y 1).val; omega

/-- WHAT POINT `t` WRITES BACK to the second output is block `t` of the arrays' update of their projection. -/
theorem flushed6_eq (c : Dev nD) (t : Fin cfg0.N) :
    (dat0 V c).flushed 6 t
      = ((cfg0.win 6).blk t).view.read (Elt Ideal)
          (relu (addRow (mm (addRow (mm (V c main_arg0) (V c main_arg1)) (V c main_v55)) (V c main_v37)) (V c main_v43))) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x128) hz, View.ld_unit_zero (S := S1x128) hz,
    View.ld_unit_zero (S := S128x128) hz]
  rw [pay2_eq]
  obtain ⟨e00, e01, e10, e11, e20, e21, e30, e31, e40, e41, e50, e51, e60, e61⟩ := idx_facts t
  refine funext fun (y : S5000x128.Idx) => ?_
  refine upd_rowwise (V c main_arg0) (V c main_arg1) (V c main_v55) (V c main_v37) (V c main_v43)
    (iblk0 V c 0 t) (iblk0 V c 1 t) (iblk0 V c 2 t) (iblk0 V c 3 t) (iblk0 V c 4 t) y
    (((cfg0.win 6).blk t).view.emb y) (fun k k' => ?_) (fun k k' => ?_) (fun k => ?_) (fun k => ?_) ?_
  · show V c main_arg0 (((cfg0.win 0).blk t).view.emb (li (li y k) k')) = V c main_arg0 (li (li (((cfg0.win 6).blk t).view.emb y) k) k')
    refine congrArg (V c main_arg0) (funext fun a => Fin.ext ?_)
    match a with
    | ⟨0, _⟩ => show win0_0.index t (0 : Fin 2) * 5000 + 1 * (y 0).val = win0_6.index t (0 : Fin 2) * 5000 + 1 * (y 0).val; omega
    | ⟨1, _⟩ => show win0_0.index t (1 : Fin 2) * 64 + 1 * k'.val = k'.val; omega
  · show V c main_arg1 (((cfg0.win 1).blk t).view.emb (ri (li y k) k')) = V c main_arg1 (ri (li (((cfg0.win 6).blk t).view.emb y) k) k')
    refine congrArg (V c main_arg1) (funext fun a => Fin.ext ?_)
    match a with
    | ⟨0, _⟩ => show win0_1.index t (0 : Fin 2) * 64 + 1 * k'.val = k'.val; omega
    | ⟨1, _⟩ => show win0_1.index t (1 : Fin 2) * 128 + 1 * k.val = k.val; omega
  · show V c main_v55 (((cfg0.win 2).blk t).view.emb (rowOf (li y k))) = V c main_v55 (rowOf (li (((cfg0.win 6).blk t).view.emb y) k))
    refine congrArg (V c main_v55) (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  · show V c main_v37 (((cfg0.win 3).blk t).view.emb (ri y k)) = V c main_v37 (ri (((cfg0.win 6).blk t).view.emb y) k)
    refine congrArg (V c main_v37) (funext fun a => Fin.ext ?_)
    match a with
    | ⟨0, _⟩ => show win0_3.index t (0 : Fin 2) * 128 + 1 * k.val = k.val; omega
    | ⟨1, _⟩ => show win0_3.index t (1 : Fin 2) * 128 + 1 * (y 1).val = win0_6.index t (1 : Fin 2) * 128 + 1 * (y 1).val; omega
  · show V c main_v43 (((cfg0.win 4).blk t).view.emb (rowOf y)) = V c main_v43 (rowOf (((cfg0.win 6).blk t).view.emb y))
    refine congrArg (V c main_v43) (funext fun a => Fin.ext ?_)
    match a with
    | ⟨0, _⟩ => show win0_4.index t (0 : Fin 2) * 1 + 1 * 0 = 0; omega
    | ⟨1, _⟩ => show win0_4.index t (1 : Fin 2) * 128 + 1 * (y 1).val = win0_6.index t (1 : Fin 2) * 128 + 1 * (y 1).val; omega

/-- An index of the first output is in point `t`'s block iff each coordinate is in the block's range on its axis. -/
theorem mem_blk5 (t : Fin cfg0.N) (i : S200000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v62_0).slice (win0_5.rect t)).set ↔ _
  rw [View.set_slice_whole, Rect.mem_set_unit]
  exact Iff.rfl

/-- The same for the second output. -/
theorem mem_blk6 (t : Fin cfg0.N) (i : S200000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v62_1).slice (win0_6.rect t)).set ↔ _
  rw [View.set_slice_whole, Rect.mem_set_unit]
  exact Iff.rfl

/-- The forty blocks of 5000 rows tile the 200000 rows: row `r` lies in the block of point `r / 5000`. -/
theorem cover5 (i : S200000x128.Idx) :
    ∃ t : Fin cfg0.N, (cfg0.win 5).flush t = true ∧ i ∈ ((cfg0.win 5).blk t).view.set := by
  have hi0 : (i 0).val < 200000 := (i 0).isLt
  have hi1 : (i 1).val < 128 := (i 1).isLt
  have hN : cfg0.N = 40 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31, e40, e41, e50, e51, e60, e61⟩ := idx_facts t
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The same tiling for the second output. -/
theorem cover6 (i : S200000x128.Idx) :
    ∃ t : Fin cfg0.N, (cfg0.win 6).flush t = true ∧ i ∈ ((cfg0.win 6).blk t).view.set := by
  have hi0 : (i 0).val < 200000 := (i 0).isLt
  have hi1 : (i 1).val < 128 := (i 1).isLt
  have hN : cfg0.N = 40 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31, e40, e41, e50, e51, e60, e61⟩ := idx_facts t
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- Region 0's first output array after the run: the projected features, as one row-wise function of the arrays the region
    finds on entry. -/
theorem arr5 (c : Dev nD) :
    (dat0 V c).arrAt 5 cfg0.N = addRow (mm (V c main_arg0) (V c main_arg1)) (V c main_v55) :=
  (dat0 V c).arrAt_eq_of_cover 5 (addRow (mm (V c main_arg0) (V c main_arg1)) (V c main_v55))
    (fun t _ => flushed5_eq V c t) cover5

/-- Region 0's second output array after the run: the first layer's update of the projected features. -/
theorem arr6 (c : Dev nD) :
    (dat0 V c).arrAt 6 cfg0.N
      = relu (addRow (mm (addRow (mm (V c main_arg0) (V c main_arg1)) (V c main_v55)) (V c main_v37)) (V c main_v43)) :=
  (dat0 V c).arrAt_eq_of_cover 6
    (relu (addRow (mm (addRow (mm (V c main_arg0) (V c main_arg1)) (V c main_v55)) (V c main_v37)) (V c main_v43)))
    (fun t _ => flushed6_eq V c t) cover6

end Cert.KernelIdeal.Reg0

end
-- ==== Proof.KDefs.lean ====
/-
  The host-side pieces of the kernel's program, named: jnp.take on a node table (the index normalised as numpy does,
  a negative one counting from the end; the rows gathered; a row whose index falls outside the table replaced by a fill
  value), the segment sum of edge messages into a node table (an accumulating scatter into zeros), the number of edges
  into each node raised to at least one, and its reciprocal as a column.
-/
import proofs.«412835_j24404004176459_1_alg».proof.Proof.Gen.KernelIdeal
import Idealize.ShloMosaic.PureOps.Ideal

noncomputable section

namespace Cert.KernelIdeal.Host

open Cert.KernelIdeal Cert.KernelIdeal.Gen
open Idealize.ShloMosaic Idealize.ShloMosaic.TcCoe

/-- An edge-index array as a column [E, 1]. -/
abbrev idxCol (w : IVec S250000 32) : IVec S250000x1 32 := broadcastInDim S250000x1 ![0] bcast_S250000_S250000x1_0 w

/-- numpy's index normalisation for a table of N rows: a negative index has N added. -/
abbrev wrapIdx (N : BitVec 32) (idx : IVec S250000 32) : IVec S250000 32 :=
  select (cmpi .slt idx (broadcastInDim S250000 ![] bcast_S_S250000 (constantI S_ 32 0#32)))
    (addi idx (broadcastInDim S250000 ![] bcast_S_S250000 (constantI S_ 32 N))) idx

/-- Per edge and feature: is the (normalised) index inside the table, 0 ≤ index ≤ hi? -/
abbrev inTable (hi : BitVec 32) (w : IVec S250000x1 32) : IVec S250000x128 1 :=
  broadcastInDim S250000x128 ![0] bcast_S250000_S250000x128_0
    (Host.reduce IntOp.andi
      (andi (cmpi .sge w (broadcastInDim S250000x1 ![] bcast_S_S250000x1 (constantI S_ 32 0#32)))
        (cmpi .sle w (broadcastInDim S250000x1 ![0, 1] bcast_S1x1_S250000x1_0_1
          (broadcastInDim S1x1 ![1] bcast_S1_S1x1_1 (constantI S1 32 hi)))))
      (constantI S_ 1 1#1) reducesTo_S250000x1_S250000_d1 h_S_)

/-- The fill value of jnp.take for an index outside the table. -/
abbrev fillRows : FVec Ideal S250000x128 .f32 :=
  broadcastInDim S250000x128 ![] bcast_S_S250000x128 (constant S_ .f32 0x7FC00000#32)

/-- jnp.take of the rows of a table of 200000 rows. -/
abbrev take200k (h : FVec Ideal S200000x128 .f32) (idx : IVec S250000 32) : FVec Ideal S250000x128 .f32 :=
  select (inTable 199999#32 (idxCol (wrapIdx 200000#32 idx)))
    (Host.gather gather_S200000x128_S250000x1_S250000x128_1_0_n_n_0_1_1128 h (idxCol (wrapIdx 200000#32 idx))) fillRows

/-- jnp.take of the rows of a table of 80000 rows. -/
abbrev take80k (h : FVec Ideal S80000x128 .f32) (idx : IVec S250000 32) : FVec Ideal S250000x128 .f32 :=
  select (inTable 79999#32 (idxCol (wrapIdx 80000#32 idx)))
    (Host.gather gather_S80000x128_S250000x1_S250000x128_1_0_n_n_0_1_1128 h (idxCol (wrapIdx 80000#32 idx))) fillRows

/-- jnp.take of the rows of a table of 60000 rows. -/
abbrev take60k (h : FVec Ideal S60000x128 .f32) (idx : IVec S250000 32) : FVec Ideal S250000x128 .f32 :=
  select (inTable 59999#32 (idxCol (wrapIdx 60000#32 idx)))
    (Host.gather gather_S60000x128_S250000x1_S250000x128_1_0_n_n_0_1_1128 h (idxCol (wrapIdx 60000#32 idx))) fillRows

/-- The edge messages summed into a table of 80000 nodes. -/
abbrev seg80k (dst : IVec S250000 32) (upd : FVec Ideal S250000x128 .f32) : FVec Ideal S80000x128 .f32 :=
  Host.scatterAdd scatter_S80000x128_S250000x1_S250000x128_1_0_0_1
    (broadcastInDim S80000x128 ![] bcast_S_S80000x128 (constant S_ .f32 0x00000000#32)) (idxCol dst) upd

/-- The edge messages summed into a table of 60000 nodes. -/
abbrev seg60k (dst : IVec S250000 32) (upd : FVec Ideal S250000x128 .f32) : FVec Ideal S60000x128 .f32 :=
  Host.scatterAdd scatter_S60000x128_S250000x1_S250000x128_1_0_0_1
    (broadcastInDim S60000x128 ![] bcast_S_S60000x128 (constant S_ .f32 0x00000000#32)) (idxCol dst) upd

/-- The edge messages summed into a table of 200000 nodes. -/
abbrev seg200k (dst : IVec S250000 32) (upd : FVec Ideal S250000x128 .f32) : FVec Ideal S200000x128 .f32 :=
  Host.scatterAdd scatter_S200000x128_S250000x1_S250000x128_1_0_0_1
    (broadcastInDim S200000x128 ![] bcast_S_S200000x128 (constant S_ .f32 0x00000000#32)) (idxCol dst) upd

/-- One per edge. -/
abbrev onesE : FVec Ideal S250000 .f32 := broadcastInDim S250000 ![] bcast_S_S250000 (constant S_ .f32 0x3F800000#32)

/-- The number of edges into each of 80000 nodes, at least one. -/
abbrev cnt80k (dst : IVec S250000 32) : FVec Ideal S80000 .f32 :=
  maximumf (Host.scatterAdd scatter_S80000_S250000x1_S250000_n_0_0_1
      (broadcastInDim S80000 ![] bcast_S_S80000 (constant S_ .f32 0x00000000#32)) (idxCol dst) onesE)
    (broadcastInDim S80000 ![] bcast_S_S80000 (constant S_ .f32 0x3F800000#32))

abbrev cnt60k (dst : IVec S250000 32) : FVec Ideal S60000 .f32 :=
  maximumf (Host.scatterAdd scatter_S60000_S250000x1_S250000_n_0_0_1
      (broadcastInDim S60000 ![] bcast_S_S60000 (constant S_ .f32 0x00000000#32)) (idxCol dst) onesE)
    (broadcastInDim S60000 ![] bcast_S_S60000 (constant S_ .f32 0x3F800000#32))

abbrev cnt200k (dst : IVec S250000 32) : FVec Ideal S200000 .f32 :=
  maximumf (Host.scatterAdd scatter_S200000_S250000x1_S250000_n_0_0_1
      (broadcastInDim S200000 ![] bcast_S_S200000 (constant S_ .f32 0x00000000#32)) (idxCol dst) onesE)
    (broadcastInDim S200000 ![] bcast_S_S200000 (constant S_ .f32 0x3F800000#32))

/-- The reciprocal counts as a column. -/
abbrev inv80k (dst : IVec S250000 32) : FVec Ideal S80000x1 .f32 :=
  shapeCast S80000x1 (Host.divf (broadcastInDim S80000 ![] bcast_S_S80000 (constant S_ .f32 0x3F800000#32)) (cnt80k dst))
    shapeCasts_S80000_S80000x1

abbrev inv60k (dst : IVec S250000 32) : FVec Ideal S60000x1 .f32 :=
  shapeCast S60000x1 (Host.divf (broadcastInDim S60000 ![] bcast_S_S60000 (constant S_ .f32 0x3F800000#32)) (cnt60k dst))
    shapeCasts_S60000_S60000x1

abbrev inv200k (dst : IVec S250000 32) : FVec Ideal S200000x1 .f32 :=
  shapeCast S200000x1 (Host.divf (broadcastInDim S200000 ![] bcast_S_S200000 (constant S_ .f32 0x3F800000#32)) (cnt200k dst))
    shapeCasts_S200000_S200000x1

/-- Slice e of a stack of four [128, 128] matrices. -/
abbrev mat4 (x : FVec Ideal S4x128x128 .f32) (e : Nat) (h : S4x128x128.Slices ![e, 0, 0] S1x128x128) : FVec Ideal S128x128 .f32 :=
  shapeCast S128x128 (extractStridedSlice S1x128x128 ![e, 0, 0] x h) shapeCasts_S1x128x128_S128x128

/-- Slice e of a stack of four [128] rows. -/
abbrev row4 (x : FVec Ideal S4x128 .f32) (e : Nat) (h : S4x128.Slices ![e, 0] S1x128) : FVec Ideal S128 .f32 :=
  shapeCast S128 (extractStridedSlice S1x128 ![e, 0] x h) shapeCasts_S1x128_S128

end Cert.KernelIdeal.Host

end
-- ==== Proof.KHost0.lean ====
/-
  The kernel's program up to its first region's exit, at the ideal values: what the host operations before the region
  leave in the buffers the region and the later stretches read (each a short term of the argument arrays: a reshape, a
  slice of a stacked parameter, a sum of two slices, a reciprocal count), and the region's two output arrays as
  row-wise functions of the argument arrays.
-/
import proofs.«412835_j24404004176459_1_alg».proof.Proof.Gen.KernelIdeal.Frame
import proofs.«412835_j24404004176459_1_alg».proof.Proof.RowOps
import proofs.«412835_j24404004176459_1_alg».proof.Proof.Reg0
import proofs.«412835_j24404004176459_1_alg».proof.Proof.KDefs
set_option maxRecDepth 16384

noncomputable section

namespace Cert.KernelIdeal.Host

open Cert.KernelIdeal Cert.KernelIdeal.Gen Cert.RowOps
open Idealize.ShloMosaic Idealize.ShloMosaic.TcCoe Idealize.SL.Sem Idealize.ShloMosaic.StableHlo

variable (m : (ℓ : Loc nD τ sig) → Buf (Elt Ideal) ℓ) (ρ : Dev nD → PrngReg)

/-- No operation of the named stretch writes the buffer in question: the stretch leaves it as it found it. -/
macro "not_written" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## After the first stretch of host operations -/

theorem W1_arg0 (c : Dev nD) : W1 m ρ c (Proc.devRef .tc main_arg0) = m ((c : Thread nD τ).loc main_arg0) := by
  show StableHlo.after hostOps0 (W0 m ρ c) (Proc.devRef .tc main_arg0) = _
  not_written hostOps0

theorem W1_arg1 (c : Dev nD) : W1 m ρ c (Proc.devRef .tc main_arg1) = m ((c : Thread nD τ).loc main_arg1) := by
  show StableHlo.after hostOps0 (W0 m ρ c) (Proc.devRef .tc main_arg1) = _
  not_written hostOps0

/-- The projection's bias as one row. -/
theorem W1_v55 (c : Dev nD) : W1 m ρ c (Proc.devRef .tc main_v55)
    = shapeCast S1x128 (m ((c : Thread nD τ).loc main_arg2)) shapeCasts_S128_S1x128 := by
  show StableHlo.after hostOps0 (W0 m ρ c) (Proc.devRef .tc main_v55) = _
  after_results_simp
  rfl

/-- The first layer's two right-hand weights into the transaction nodes, added. -/
theorem W1_v37 (c : Dev nD) : W1 m ρ c (Proc.devRef .tc main_v37)
    = addf (mat4 (m ((c : Thread nD τ).loc main_arg5)) 1 slices_S4x128x128_S1x128x128_1_0_0)
        (mat4 (m ((c : Thread nD τ).loc main_arg5)) 3 slices_S4x128x128_S1x128x128_3_0_0) := by
  show StableHlo.after hostOps0 (W0 m ρ c) (Proc.devRef .tc main_v37) = _
  after_results_simp
  rfl

/-- The first layer's two biases into the transaction nodes, added, as one row. -/
theorem W1_v43 (c : Dev nD) : W1 m ρ c (Proc.devRef .tc main_v43)
    = shapeCast S1x128 (addf (row4 (m ((c : Thread nD τ).loc main_arg4)) 1 slices_S4x128_S1x128_1_0)
        (row4 (m ((c : Thread nD τ).loc main_arg4)) 3 slices_S4x128_S1x128_3_0)) shapeCasts_S128_S1x128 := by
  show StableHlo.after hostOps0 (W0 m ρ c) (Proc.devRef .tc main_v43) = _
  after_results_simp
  rfl

/-! ## The first region's outputs -/

/-- The projected features. -/
abbrev h0 (c : Dev nD) : Mat 200000 128 :=
  addRow (mm (m ((c : Thread nD τ).loc main_arg0)) (m ((c : Thread nD τ).loc main_arg1)))
    (shapeCast S1x128 (m ((c : Thread nD τ).loc main_arg2)) shapeCasts_S128_S1x128)

theorem W2_v62_0 (c : Dev nD) : W2 m ρ c (Proc.devRef .tc main_v62_0) = h0 m c := by
  show W2 m ρ c (Proc.devRef .tc (Pipeline.arrRef spec0 5)) = _
  rw [W2_arr m ρ c 5, Cert.KernelIdeal.Reg0.arr5 (V1 m ρ) c]
  show addRow (mm (W1 m ρ c (Proc.devRef .tc main_arg0)) (W1 m ρ c (Proc.devRef .tc main_arg1))) (W1 m ρ c (Proc.devRef .tc main_v55)) = _
  rw [W1_arg0, W1_arg1, W1_v55]

/-- The transaction features after the first layer. -/
abbrev h1 (c : Dev nD) : Mat 200000 128 :=
  relu (addRow (mm (h0 m c)
      (addf (mat4 (m ((c : Thread nD τ).loc main_arg5)) 1 slices_S4x128x128_S1x128x128_1_0_0)
        (mat4 (m ((c : Thread nD τ).loc main_arg5)) 3 slices_S4x128x128_S1x128x128_3_0_0)))
    (shapeCast S1x128 (addf (row4 (m ((c : Thread nD τ).loc main_arg4)) 1 slices_S4x128_S1x128_1_0)
        (row4 (m ((c : Thread nD τ).loc main_arg4)) 3 slices_S4x128_S1x128_3_0)) shapeCasts_S128_S1x128))

theorem W2_v62_1 (c : Dev nD) : W2 m ρ c (Proc.devRef .tc main_v62_1) = h1 m c := by
  show W2 m ρ c (Proc.devRef .tc (Pipeline.arrRef spec0 6)) = _
  rw [W2_arr m ρ c 6, Cert.KernelIdeal.Reg0.arr6 (V1 m ρ) c]
  show relu (addRow (mm (addRow (mm (W1 m ρ c (Proc.devRef .tc main_arg0)) (W1 m ρ c (Proc.devRef .tc main_arg1))) (W1 m ρ c (Proc.devRef .tc main_v55))) (W1 m ρ c (Proc.devRef .tc main_v37))) (W1 m ρ c (Proc.devRef .tc main_v43))) = _
  rw [W1_arg0, W1_arg1, W1_v55, W1_v37, W1_v43]

end Cert.KernelIdeal.Host

end
-- ==== Proof.Reg1.lean ====
/-
  Region 1 of the kernel's program at the ideal values: every block of 8000 rows of the output is the positive part of
  (the block of the summed messages, each row scaled by its reciprocal count) times the weight matrix plus the bias row;
  the ten blocks tile the 80000 rows, so the whole output array is that row-wise function of the region's four arrays.
-/
import proofs.«412835_j24404004176459_1_alg».proof.Proof.Gen.KernelIdeal.Frame
import proofs.«412835_j24404004176459_1_alg».proof.Proof.RowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Cert.RowOps
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Broadcasts of a one-row and of a one-column matrix, read at an index -/

/-- A one-row matrix broadcast over the rows reads, at an index, its one row at that index's column. -/
theorem bcastRow_apply {α : Type} {a b : ℕ} (v : (Sh2 1 b).Idx → α) (h : (Sh2 1 b).Broadcasts (Sh2 a b)) (j : (Sh2 a b).Idx) :
    broadcastTo (Sh2 a b) v h j = v (rowOf j) := by
  refine broadcastTo_apply v h j (rowOf j) fun ax => ?_
  match ax with
  | ⟨0, _⟩ => rfl
  | ⟨1, _⟩ =>
    show (j 1).val = if b = 1 then 0 else (j 1).val
    split
    · have := idx2_lt1 j; omega
    · rfl

/-- A one-column matrix broadcast over the columns reads, at an index, its one column at that index's row. -/
theorem bcastCol_apply {α : Type} {a b : ℕ} (v : (Sh2 a 1).Idx → α) (h : (Sh2 a 1).Broadcasts (Sh2 a b)) (j : (Sh2 a b).Idx) :
    broadcastTo (Sh2 a b) v h j = v (colOf j) := by
  refine broadcastTo_apply v h j (colOf j) fun ax => ?_
  match ax with
  | ⟨0, _⟩ =>
    show (j 0).val = if a = 1 then 0 else (j 0).val
    split
    · have := idx2_lt0 j; omega
    · rfl
  | ⟨1, _⟩ => rfl

/-! ## The product into the zero accumulator, as the sum over the contracted coordinate -/

/-- The left factor's row is the output's row. -/
theorem dot_lhs_row (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- The left factor's column is the contracted coordinate. -/
theorem dot_lhs_contr (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- The right factor's row is the contracted coordinate. -/
theorem dot_rhs_contr (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- The right factor's column is the output's column. -/
theorem dot_rhs_col (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The block product started from zero, at an index: the sum over k of left (row, k) times right (k, column). -/
theorem matmul_at (l : FVec Ideal S8000x128 .bf16) (r : FVec Ideal S128x128 .bf16) (i : S8000x128.Idx) :
    matmul dot_S8000x128_S128x128_S8000x128_1_0_0_1_n_n none l r (constant (F := Ideal) S8000x128 .f32 0x00000000#32) i
      = ∑ k : Fin 128, l (li i k) * r (ri i k) := by
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx i ((ValueIdx.contrEquiv1 dot_S8000x128_S128x128_S8000x128_1_0_0_1_n_n 128 rfl rfl).symm k) = li i k := funext fun a => Fin.ext (by
    match a with
    | ⟨0, _⟩ => exact dot_lhs_row _ _
    | ⟨1, _⟩ => exact (dot_lhs_contr _ _).trans hk)
  have er : dot_S8000x128_S128x128_S8000x128_1_0_0_1_n_n.rhsIdx i ((ValueIdx.contrEquiv1 dot_S8000x128_S128x128_S8000x128_1_0_0_1_n_n 128 rfl rfl).symm k) = ri i k := funext fun a => Fin.ext (by
    match a with
    | ⟨0, _⟩ => exact (dot_rhs_contr _ _).trans hk
    | ⟨1, _⟩ => exact dot_rhs_col _ _)
  rw [el, er]

/-! ## The body's payload -/

/-- What the body stores, from the four blocks it loads: the positive part of (the rows scaled by the count column)
    times the weights plus the bias row. -/
theorem pay_eq (v0 : Vec Ideal S8000x128 .f32) (v2 : Vec Ideal S8000x1 .f32) (v7 : Vec Ideal S128x128 .f32) (v11 : Vec Ideal S1x128 .f32) :
    k1_pay1 (F := Ideal) v0 v2 v7 v11 = relu (addRow (mm (scaleCol v0 v2) v7) v11) := by
  funext j
  unfold k1_pay1
  simp only [shapeCast_self]
  rw [maximumf_apply, addf_apply, broadcast_apply, matmul_at, bcastRow_apply]
  simp only [truncf_apply, mulf_apply, bcastCol_apply]
  show max _ (Ideal.ofBits .f32 0x00000000#32) = _
  rw [Ideal.ofBits_zero_f32]
  rfl

/-! ## A block of rows of the row-wise function is the function of the blocks -/

/-- Entry (r, c) of the result depends on row r of the two tall arrays and on the whole of the two small ones: so if a
    block index y sits at the array index i (same column, row shifted by the block's offset), and the tall blocks are
    read out of their arrays at that same shift, the function of the blocks at y is the function of the arrays at i. -/
theorem rowwise_block (A0 : Mat 80000 128) (A1 : Mat 80000 1) (A2 : Mat 128 128) (A3 : Mat 1 128)
    (B0 : Mat 8000 128) (B1 : Mat 8000 1) (B2 : Mat 128 128) (B3 : Mat 1 128) (off : ℕ)
    (y : (Sh2 8000 128).Idx) (i : (Sh2 80000 128).Idx)
    (hi0 : (i 0).val = off + (y 0).val) (hi1 : (i 1).val = (y 1).val)
    (h0 : ∀ (y' : (Sh2 8000 128).Idx) (i' : (Sh2 80000 128).Idx), (i' 0).val = off + (y' 0).val → (i' 1).val = (y' 1).val → B0 y' = A0 i')
    (h1 : ∀ (y' : (Sh2 8000 1).Idx) (i' : (Sh2 80000 1).Idx), (i' 0).val = off + (y' 0).val → B1 y' = A1 i')
    (h2 : B2 = A2) (h3 : B3 = A3) :
    relu (addRow (mm (scaleCol B0 B1) B2) B3) y = relu (addRow (mm (scaleCol A0 A1) A2) A3) i := by
  subst h2; subst h3
  have er : rowOf y = rowOf i := funext fun a => Fin.ext (by
    match a with
    | ⟨0, _⟩ => rfl
    | ⟨1, _⟩ => exact hi1.symm)
  have eri : ∀ k : Fin 128, ri y k = ri i k := fun k => funext fun a => Fin.ext (by
    match a with
    | ⟨0, _⟩ => rfl
    | ⟨1, _⟩ => exact hi1.symm)
  show max ((∑ k : Fin 128, B0 (li y k) * B1 (colOf (li y k)) * B2 (ri y k)) + B3 (rowOf y)) 0
     = max ((∑ k : Fin 128, A0 (li i k) * A1 (colOf (li i k)) * B2 (ri i k)) + B3 (rowOf i)) 0
  rw [er]
  refine congrArg (fun s => max (s + B3 (rowOf i)) 0) (Finset.sum_congr rfl fun k _ => ?_)
  rw [eri k, h0 (li y k) (li i k) hi0 rfl, h1 (colOf (li y k)) (colOf (li i k)) hi0]

/-! ## From the blocks to the array -/

theorem hz : (![0, 0] : Fin 2 → Nat) = fun _ => 0 := funext fun a => by fin_cases a <;> rfl

/-- The printed index maps, decided over the grid: the two tall inputs' row block is the output's, which is the point's
    number; every other block index is zero. -/
theorem idx_facts : ∀ t : Fin cfg1.N,
      win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT t WRITES BACK is block t of the row-wise function of the arrays as the region finds them. -/
theorem flushed_eq (c : Dev nD) (t : Fin cfg1.N) :
    (dat1 V c).flushed 4 t = ((cfg1.win 4).blk t).view.read (Elt Ideal) (relu (addRow (mm (scaleCol (V c main_v66) (V c main_v17)) (V c main_v68)) (V c main_v58))) := by
  show (cfg1.win 4).cut (grid1.coords t) ((dat1 V c).after 4 t) = _
  rw [after1_4]
  unfold out1_4
  rw [View.canon_unit_zero hz]
  simp only [View.ld_unit_zero (S := S8000x128) hz, View.ld_unit_zero (S := S8000x1) hz, View.ld_unit_zero (S := S128x128) hz, View.ld_unit_zero (S := S1x128) hz]
  rw [pay_eq]
  obtain ⟨e0, e1, e2, e3, e4, e5, e6, e7, e8, e9⟩ := idx_facts t
  funext y
  show relu (addRow (mm (scaleCol (iblk1 V c 0 t) (iblk1 V c 1 t)) (iblk1 V c 2 t)) (iblk1 V c 3 t)) y
     = relu (addRow (mm (scaleCol (V c main_v66) (V c main_v17)) (V c main_v68)) (V c main_v58)) (((cfg1.win 4).blk t).view.emb y)
  refine rowwise_block (V c main_v66) (V c main_v17) (V c main_v68) (V c main_v58)
    (iblk1 V c 0 t) (iblk1 V c 1 t) (iblk1 V c 2 t) (iblk1 V c 3 t)
    (win1_4.index t (0 : Fin 2) * 8000) y (((cfg1.win 4).blk t).view.emb y) ?_ ?_ ?_ ?_ ?_ ?_
  · -- the output block's row sits at block index × 8000 + the row inside the block
    show win1_4.index t (0 : Fin 2) * 8000 + 1 * (y 0).val = win1_4.index t (0 : Fin 2) * 8000 + (y 0).val
    omega
  · show win1_4.index t (1 : Fin 2) * 128 + 1 * (y 1).val = (y 1).val
    omega
  · -- the summed messages' block is read at the output's row block
    intro y' i' hr hc
    show V c main_v66 (((cfg1.win 0).blk t).view.emb y') = V c main_v66 i'
    refine congrArg (V c main_v66) ?_
    funext a; apply Fin.ext
    match a with
    | ⟨0, _⟩ => show win1_0.index t (0 : Fin 2) * 8000 + 1 * (y' 0).val = (i' 0).val; omega
    | ⟨1, _⟩ => show win1_0.index t (1 : Fin 2) * 128 + 1 * (y' 1).val = (i' 1).val; omega
  · -- the count column's block too
    intro y' i' hr
    show V c main_v17 (((cfg1.win 1).blk t).view.emb y') = V c main_v17 i'
    refine congrArg (V c main_v17) ?_
    funext a; apply Fin.ext
    match a with
    | ⟨0, _⟩ => show win1_1.index t (0 : Fin 2) * 8000 + 1 * (y' 0).val = (i' 0).val; omega
    | ⟨1, _⟩ =>
      show win1_1.index t (1 : Fin 2) * 1 + 1 * (y' 1).val = (i' 1).val
      have hy := idx2_lt1 y'; have hi := idx2_lt1 i'; omega
  · -- the weights' block is the whole array
    funext y'
    show V c main_v68 (((cfg1.win 2).blk t).view.emb y') = V c main_v68 y'
    refine congrArg (V c main_v68) ?_
    funext a; apply Fin.ext
    match a with
    | ⟨0, _⟩ => show win1_2.index t (0 : Fin 2) * 128 + 1 * (y' 0).val = (y' 0).val; omega
    | ⟨1, _⟩ => show win1_2.index t (1 : Fin 2) * 128 + 1 * (y' 1).val = (y' 1).val; omega
  · -- and so is the bias row's
    funext y'
    show V c main_v58 (((cfg1.win 3).blk t).view.emb y') = V c main_v58 y'
    refine congrArg (V c main_v58) ?_
    funext a; apply Fin.ext
    match a with
    | ⟨0, _⟩ => show win1_3.index t (0 : Fin 2) * 1 + 1 * (y' 0).val = (y' 0).val; omega
    | ⟨1, _⟩ => show win1_3.index t (1 : Fin 2) * 128 + 1 * (y' 1).val = (y' 1).val; omega

/-- An index of the output array is in point t's block iff each coordinate is in the block's range on its axis. -/
theorem mem_blk (t : Fin cfg1.N) (i : S80000x128.Idx) :
    i ∈ ((cfg1.win 4).blk t).view.set ↔ ∀ a : Fin 2, win1_4.index t a * S8000x128.size a ≤ (i a).val ∧ (i a).val < win1_4.index t a * S8000x128.size a + S8000x128.size a := by
  show i ∈ ((View.whole main_v69).slice (win1_4.rect t)).set ↔ _
  rw [View.set_slice_whole, Rect.mem_set_unit]
  exact Iff.rfl

/-- The 10 row blocks tile the 80000 rows: row r lies in the block of point r / 8000. -/
theorem cover (i : S80000x128.Idx) : ∃ t : Fin cfg1.N, (cfg1.win 4).flush t = true ∧ i ∈ ((cfg1.win 4).blk t).view.set := by
  have hi0 : (i 0).val < 80000 := (i 0).isLt
  have hi1 : (i 1).val < 128 := (i 1).isLt
  have hN : cfg1.N = 10 := N_1
  have ht : (i 0).val / 8000 < cfg1.N := by rw [hN]; omega
  obtain ⟨-, -, -, -, -, -, -, -, e8, e9⟩ := idx_facts ⟨(i 0).val / 8000, ht⟩
  have e8' : win1_4.index ⟨(i 0).val / 8000, ht⟩ (0 : Fin 2) = (i 0).val / 8000 := e8
  refine ⟨⟨(i 0).val / 8000, ht⟩, flush1_4 _, ?_⟩
  rw [mem_blk]
  intro a
  match a with
  | ⟨0, _⟩ =>
    show win1_4.index ⟨(i 0).val / 8000, ht⟩ (0 : Fin 2) * 8000 ≤ (i 0).val ∧ (i 0).val < win1_4.index ⟨(i 0).val / 8000, ht⟩ (0 : Fin 2) * 8000 + 8000
    rw [e8']; omega
  | ⟨1, _⟩ =>
    show win1_4.index ⟨(i 0).val / 8000, ht⟩ (1 : Fin 2) * 128 ≤ (i 1).val ∧ (i 1).val < win1_4.index ⟨(i 0).val / 8000, ht⟩ (1 : Fin 2) * 128 + 128
    rw [e9]; omega

/-- Region 1's output array after the run, as one
    row-wise function of the arrays the region finds on entry. -/
theorem arr (c : Dev nD) :
    (dat1 V c).arrAt 4 cfg1.N
      = relu (addRow (mm (scaleCol (V c main_v66) (V c main_v17)) (V c main_v68)) (V c main_v58)) :=
  (dat1 V c).arrAt_eq_of_cover 4 (relu (addRow (mm (scaleCol (V c main_v66) (V c main_v17)) (V c main_v68)) (V c main_v58)))
    (fun t _ => flushed_eq V c t) cover

end Cert.KernelIdeal.Reg1

end
-- ==== Proof.KHost1.lean ====
/-
  The kernel's program from region 0's exit to region 1's exit, at the ideal values. The first gather takes the rows of
  the projected features at the edges' source nodes; the next stretch sums those rows into the 80000 destination nodes
  and cuts slice 0 out of the stacked weights. Region 1's four input arrays are then short terms of the argument arrays,
  and its output array is the positive part of the scaled sums times the weights plus the bias row. Every buffer that
  neither stretch nor region 1 writes keeps the contents it had at region 0's exit.
-/
import proofs.«412835_j24404004176459_1_alg».proof.Proof.KHost0
import proofs.«412835_j24404004176459_1_alg».proof.Proof.Reg1
import proofs.«412835_j24404004176459_1_alg».proof.Proof.KDefs
set_option maxRecDepth 16384

noncomputable section

namespace Cert.KernelIdeal.Host

open Cert.KernelIdeal Cert.KernelIdeal.Gen Cert.RowOps
open Idealize.ShloMosaic Idealize.ShloMosaic.TcCoe Idealize.SL.Sem Idealize.ShloMosaic.StableHlo

variable (m : (ℓ : Loc nD τ sig) → Buf (Elt Ideal) ℓ) (ρ : Dev nD → PrngReg)

set_option hygiene false in
/-- The buffer in question is none of region 1's arrays and no operation of the two stretches before region 1 writes it:
    at region 1's exit it holds what it held at region 0's exit (the goal is about the valuations m, ρ and the device c
    of the statement it is used in). -/
macro "kept_through_region1" b:ident : tactic => `(tactic| (
  rw [W5_of_ne m ρ c $b (by decide)]
  refine Eq.trans (b := W3 m ρ c (Proc.devRef .tc $b)) ?_ ?_
  · show StableHlo.after hostOps1_1 (W3 m ρ c) (Proc.devRef .tc $b) = _
    not_written hostOps1_1
  · show StableHlo.after hostOps1 (W2 m ρ c) (Proc.devRef .tc $b) = _
    not_written hostOps1))

/-! ## The buffers the two stretches read, back to the launch -/

theorem W2_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  not_written hostOps0

theorem W2_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  not_written hostOps0

theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  not_written hostOps0

/-- The reciprocal counts of the 80000 destination nodes, as the first stretch leaves them. -/
theorem W2_v17 (c : Dev nD) : W2 m ρ c (Proc.devRef .tc main_v17) = inv80k (m ((c : Thread nD τ).loc main_arg12)) := by
  rw [W2_of_ne m ρ c main_v17 (by decide)]
  show StableHlo.after hostOps0 (W0 m ρ c) (Proc.devRef .tc main_v17) = _
  after_results_simp
  rfl

/-- Slice 0 of the stacked biases, as one row, as the first stretch leaves it. -/
theorem W2_v58 (c : Dev nD) : W2 m ρ c (Proc.devRef .tc main_v58)
    = shapeCast S1x128 (row4 (m ((c : Thread nD τ).loc main_arg4)) 0 slices_S4x128_S1x128_0_0) shapeCasts_S128_S1x128 := by
  rw [W2_of_ne m ρ c main_v58 (by decide)]
  show StableHlo.after hostOps0 (W0 m ρ c) (Proc.devRef .tc main_v58) = _
  after_results_simp
  rfl

/-! ## After the first gather -/

/-- The rows of region 0's first output at the edges' source nodes (the gather's own casts between a value's
    type and its buffer's are identities). -/
theorem W3_v63 (c : Dev nD) : W3 m ρ c (Proc.devRef .tc main_v63)
    = take200k (W2 m ρ c (Proc.devRef .tc main_v62_0)) (W2 m ρ c (Proc.devRef .tc main_arg11)) := by
  show StableHlo.after hostOps1 (W2 m ρ c) (Proc.devRef .tc main_v63) = _
  after_results_simp
  simp only [TRef.ofBuf, TRef.toBuf, cast_eq]

theorem W3_arg12 (c : Dev nD) : W3 m ρ c (Proc.devRef .tc main_arg12) = W2 m ρ c (Proc.devRef .tc main_arg12) := by
  show StableHlo.after hostOps1 (W2 m ρ c) (Proc.devRef .tc main_arg12) = _
  not_written hostOps1

theorem W3_arg3 (c : Dev nD) : W3 m ρ c (Proc.devRef .tc main_arg3) = W2 m ρ c (Proc.devRef .tc main_arg3) := by
  show StableHlo.after hostOps1 (W2 m ρ c) (Proc.devRef .tc main_arg3) = _
  not_written hostOps1

/-! ## Region 1's entry -/

/-- The gathered rows summed into the destination nodes. -/
theorem W4_v66 (c : Dev nD) : W4 m ρ c (Proc.devRef .tc main_v66)
    = seg80k (m ((c : Thread nD τ).loc main_arg12)) (take200k (h0 m c) (m ((c : Thread nD τ).loc main_arg11))) := by
  have e : W4 m ρ c (Proc.devRef .tc main_v66)
      = seg80k (W3 m ρ c (Proc.devRef .tc main_arg12)) (W3 m ρ c (Proc.devRef .tc main_v63)) := by
    show StableHlo.after hostOps1_1 (W3 m ρ c) (Proc.devRef .tc main_v66) = _
    after_results_simp <;> rfl
  rw [e, W3_v63, W3_arg12, W2_v62_0, W2_arg11, W2_arg12]

theorem W4_v17 (c : Dev nD) : W4 m ρ c (Proc.devRef .tc main_v17) = inv80k (m ((c : Thread nD τ).loc main_arg12)) := by
  rw [← W2_v17 m ρ c]
  refine Eq.trans (b := W3 m ρ c (Proc.devRef .tc main_v17)) ?_ ?_
  · show StableHlo.after hostOps1_1 (W3 m ρ c) (Proc.devRef .tc main_v17) = _
    not_written hostOps1_1
  · show StableHlo.after hostOps1 (W2 m ρ c) (Proc.devRef .tc main_v17) = _
    not_written hostOps1

/-- Slice 0 of the stacked weights. -/
theorem W4_v68 (c : Dev nD) : W4 m ρ c (Proc.devRef .tc main_v68)
    = mat4 (m ((c : Thread nD τ).loc main_arg3)) 0 slices_S4x128x128_S1x128x128_0_0_0 := by
  have e : W4 m ρ c (Proc.devRef .tc main_v68)
      = mat4 (W3 m ρ c (Proc.devRef .tc main_arg3)) 0 slices_S4x128x128_S1x128x128_0_0_0 := by
    show StableHlo.after hostOps1_1 (W3 m ρ c) (Proc.devRef .tc main_v68) = _
    after_results_simp <;> rfl
  rw [e, W3_arg3, W2_arg3]

theorem W4_v58 (c : Dev nD) : W4 m ρ c (Proc.devRef .tc main_v58)
    = shapeCast S1x128 (row4 (m ((c : Thread nD τ).loc main_arg4)) 0 slices_S4x128_S1x128_0_0) shapeCasts_S128_S1x128 := by
  rw [← W2_v58 m ρ c]
  refine Eq.trans (b := W3 m ρ c (Proc.devRef .tc main_v58)) ?_ ?_
  · show StableHlo.after hostOps1_1 (W3 m ρ c) (Proc.devRef .tc main_v58) = _
    not_written hostOps1_1
  · show StableHlo.after hostOps1 (W2 m ρ c) (Proc.devRef .tc main_v58) = _
    not_written hostOps1

/-! ## Region 1's output -/

/-- The card-node features after the first layer. -/
abbrev card (c : Dev nD) : Mat 80000 128 :=
  relu (addRow (mm (scaleCol (seg80k (m ((c : Thread nD τ).loc main_arg12)) (take200k (h0 m c) (m ((c : Thread nD τ).loc main_arg11))))
        (inv80k (m ((c : Thread nD τ).loc main_arg12))))
      (mat4 (m ((c : Thread nD τ).loc main_arg3)) 0 slices_S4x128x128_S1x128x128_0_0_0))
    (shapeCast S1x128 (row4 (m ((c : Thread nD τ).loc main_arg4)) 0 slices_S4x128_S1x128_0_0) shapeCasts_S128_S1x128))

theorem W5_v69 (c : Dev nD) : W5 m ρ c (Proc.devRef .tc main_v69) = card m c := by
  show W5 m ρ c (Proc.devRef .tc (Pipeline.arrRef spec1 4)) = _
  rw [W5_arr m ρ c 4, Cert.KernelIdeal.Reg1.arr (V4 m ρ) c]
  show relu (addRow (mm (scaleCol (W4 m ρ c (Proc.devRef .tc main_v66)) (W4 m ρ c (Proc.devRef .tc main_v17)))
    (W4 m ρ c (Proc.devRef .tc main_v68))) (W4 m ρ c (Proc.devRef .tc main_v58))) = _
  rw [W4_v66, W4_v17, W4_v68, W4_v58]

/-! ## What region 1 and the two stretches before it leave alone -/

theorem W5_keep_main_arg3 (c : Dev nD) : W5 m ρ c (Proc.devRef .tc main_arg3) = W2 m ρ c (Proc.devRef .tc main_arg3) := by
  kept_through_region1 main_arg3

theorem W5_keep_main_arg6 (c : Dev nD) : W5 m ρ c (Proc.devRef .tc main_arg6) = W2 m ρ c (Proc.devRef .tc main_arg6) := by
  kept_through_region1 main_arg6

theorem W5_keep_main_arg9 (c : Dev nD) : W5 m ρ c (Proc.devRef .tc main_arg9) = W2 m ρ c (Proc.devRef .tc main_arg9) := by
  kept_through_region1 main_arg9

theorem W5_keep_main_arg10 (c : Dev nD) : W5 m ρ c (Proc.devRef .tc main_arg10) = W2 m ρ c (Proc.devRef .tc main_arg10) := by
  kept_through_region1 main_arg10

theorem W5_keep_main_arg11 (c : Dev nD) : W5 m ρ c (Proc.devRef .tc main_arg11) = W2 m ρ c (Proc.devRef .tc main_arg11) := by
  kept_through_region1 main_arg11

theorem W5_keep_main_arg12 (c : Dev nD) : W5 m ρ c (Proc.devRef .tc main_arg12) = W2 m ρ c (Proc.devRef .tc main_arg12) := by
  kept_through_region1 main_arg12

theorem W5_keep_main_arg13 (c : Dev nD) : W5 m ρ c (Proc.devRef .tc main_arg13) = W2 m ρ c (Proc.devRef .tc main_arg13) := by
  kept_through_region1 main_arg13

theorem W5_keep_main_arg14 (c : Dev nD) : W5 m ρ c (Proc.devRef .tc main_arg14) = W2 m ρ c (Proc.devRef .tc main_arg14) := by
  kept_through_region1 main_arg14

theorem W5_keep_main_v62_0 (c : Dev nD) : W5 m ρ c (Proc.devRef .tc main_v62_0) = W2 m ρ c (Proc.devRef .tc main_v62_0) := by
  kept_through_region1 main_v62_0

theorem W5_keep_main_v62_1 (c : Dev nD) : W5 m ρ c (Proc.devRef .tc main_v62_1) = W2 m ρ c (Proc.devRef .tc main_v62_1) := by
  kept_through_region1 main_v62_1

theorem W5_keep_main_v22 (c : Dev nD) : W5 m ρ c (Proc.devRef .tc main_v22) = W2 m ρ c (Proc.devRef .tc main_v22) := by
  kept_through_region1 main_v22

theorem W5_keep_main_v61 (c : Dev nD) : W5 m ρ c (Proc.devRef .tc main_v61) = W2 m ρ c (Proc.devRef .tc main_v61) := by
  kept_through_region1 main_v61

theorem W5_keep_main_v27 (c : Dev nD) : W5 m ρ c (Proc.devRef .tc main_v27) = W2 m ρ c (Proc.devRef .tc main_v27) := by
  kept_through_region1 main_v27

theorem W5_keep_main_v32 (c : Dev nD) : W5 m ρ c (Proc.devRef .tc main_v32) = W2 m ρ c (Proc.devRef .tc main_v32) := by
  kept_through_region1 main_v32

theorem W5_keep_main_v48 (c : Dev nD) : W5 m ρ c (Proc.devRef .tc main_v48) = W2 m ρ c (Proc.devRef .tc main_v48) := by
  kept_through_region1 main_v48

theorem W5_keep_main_v54 (c : Dev nD) : W5 m ρ c (Proc.devRef .tc main_v54) = W2 m ρ c (Proc.devRef .tc main_v54) := by
  kept_through_region1 main_v54

end Cert.KernelIdeal.Host

end
-- ==== Proof.Reg2.lean ====
/-
  Region 2 of the kernel's program at the ideal values: every block of 6000 rows of the output is the positive part of
  (the block of the summed messages, each row scaled by its reciprocal count) times the weight matrix plus the bias row;
  the ten blocks tile the 60000 rows, so the whole output array is that row-wise function of the region's four arrays.
-/
import proofs.«412835_j24404004176459_1_alg».proof.Proof.Gen.KernelIdeal.Frame
import proofs.«412835_j24404004176459_1_alg».proof.Proof.RowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Cert.RowOps
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Broadcasts of a one-row and of a one-column matrix, read at an index -/

/-- A one-row matrix broadcast over the rows reads, at an index, its one row at that index's column. -/
theorem bcastRow_apply {α : Type} {a b : ℕ} (v : (Sh2 1 b).Idx → α) (h : (Sh2 1 b).Broadcasts (Sh2 a b)) (j : (Sh2 a b).Idx) :
    broadcastTo (Sh2 a b) v h j = v (rowOf j) := by
  refine broadcastTo_apply v h j (rowOf j) fun ax => ?_
  match ax with
  | ⟨0, _⟩ => rfl
  | ⟨1, _⟩ =>
    show (j 1).val = if b = 1 then 0 else (j 1).val
    split
    · have := idx2_lt1 j; omega
    · rfl

/-- A one-column matrix broadcast over the columns reads, at an index, its one column at that index's row. -/
theorem bcastCol_apply {α : Type} {a b : ℕ} (v : (Sh2 a 1).Idx → α) (h : (Sh2 a 1).Broadcasts (Sh2 a b)) (j : (Sh2 a b).Idx) :
    broadcastTo (Sh2 a b) v h j = v (colOf j) := by
  refine broadcastTo_apply v h j (colOf j) fun ax => ?_
  match ax with
  | ⟨0, _⟩ =>
    show (j 0).val = if a = 1 then 0 else (j 0).val
    split
    · have := idx2_lt0 j; omega
    · rfl
  | ⟨1, _⟩ => rfl

/-! ## The product into the zero accumulator, as the sum over the contracted coordinate -/

/-- The left factor's row is the output's row. -/
theorem dot_lhs_row (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
/-- The left factor's column is the contracted coordinate. -/
theorem dot_lhs_contr (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
/-- The right factor's row is the contracted coordinate. -/
theorem dot_rhs_contr (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
/-- The right factor's column is the output's column. -/
theorem dot_rhs_col (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- The block product started from zero, at an index: the sum over k of left (row, k) times right (k, column). -/
theorem matmul_at (l : FVec Ideal S6000x128 .bf16) (r : FVec Ideal S128x128 .bf16) (i : S6000x128.Idx) :
    matmul dot_S6000x128_S128x128_S6000x128_1_0_0_1_n_n none l r (constant (F := Ideal) S6000x128 .f32 0x00000000#32) i
      = ∑ k : Fin 128, l (li i k) * r (ri i k) := by
  simp only [matmul]
  rw [Ideal.matmul_constant_zero_apply, ← Equiv.sum_comp (ValueIdx.contrEquiv1 dot_S6000x128_S128x128_S6000x128_1_0_0_1_n_n 128 rfl rfl).symm]
  refine Finset.sum_congr rfl fun k _ => ?_
  have hk := ValueIdx.contrEquiv1_symm_val dot_S6000x128_S128x128_S6000x128_1_0_0_1_n_n 128 rfl rfl k
  have el : dot_S6000x128_S128x128_S6000x128_1_0_0_1_n_n.lhsIdx i ((ValueIdx.contrEquiv1 dot_S6000x128_S128x128_S6000x128_1_0_0_1_n_n 128 rfl rfl).symm k) = li i k := funext fun a => Fin.ext (by
    match a with
    | ⟨0, _⟩ => exact dot_lhs_row _ _
    | ⟨1, _⟩ => exact (dot_lhs_contr _ _).trans hk)
  have er : dot_S6000x128_S128x128_S6000x128_1_0_0_1_n_n.rhsIdx i ((ValueIdx.contrEquiv1 dot_S6000x128_S128x128_S6000x128_1_0_0_1_n_n 128 rfl rfl).symm k) = ri i k := funext fun a => Fin.ext (by
    match a with
    | ⟨0, _⟩ => exact (dot_rhs_contr _ _).trans hk
    | ⟨1, _⟩ => exact dot_rhs_col _ _)
  rw [el, er]

/-! ## The body's payload -/

/-- What the body stores, from the four blocks it loads: the positive part of (the rows scaled by the count column)
    times the weights plus the bias row. -/
theorem pay_eq (v0 : Vec Ideal S6000x128 .f32) (v2 : Vec Ideal S6000x1 .f32) (v7 : Vec Ideal S128x128 .f32) (v11 : Vec Ideal S1x128 .f32) :
    k2_pay1 (F := Ideal) v0 v2 v7 v11 = relu (addRow (mm (scaleCol v0 v2) v7) v11) := by
  funext j
  unfold k2_pay1
  simp only [shapeCast_self]
  rw [maximumf_apply, addf_apply, broadcast_apply, matmul_at, bcastRow_apply]
  simp only [truncf_apply, mulf_apply, bcastCol_apply]
  show max _ (Ideal.ofBits .f32 0x00000000#32) = _
  rw [Ideal.ofBits_zero_f32]
  rfl

/-! ## A block of rows of the row-wise function is the function of the blocks -/

/-- Entry (r, c) of the result depends on row r of the two tall arrays and on the whole of the two small ones: so if a
    block index y sits at the array index i (same column, row shifted by the block's offset), and the tall blocks are
    read out of their arrays at that same shift, the function of the blocks at y is the function of the arrays at i. -/
theorem rowwise_block (A0 : Mat 60000 128) (A1 : Mat 60000 1) (A2 : Mat 128 128) (A3 : Mat 1 128)
    (B0 : Mat 6000 128) (B1 : Mat 6000 1) (B2 : Mat 128 128) (B3 : Mat 1 128) (off : ℕ)
    (y : (Sh2 6000 128).Idx) (i : (Sh2 60000 128).Idx)
    (hi0 : (i 0).val = off + (y 0).val) (hi1 : (i 1).val = (y 1).val)
    (h0 : ∀ (y' : (Sh2 6000 128).Idx) (i' : (Sh2 60000 128).Idx), (i' 0).val = off + (y' 0).val → (i' 1).val = (y' 1).val → B0 y' = A0 i')
    (h1 : ∀ (y' : (Sh2 6000 1).Idx) (i' : (Sh2 60000 1).Idx), (i' 0).val = off + (y' 0).val → B1 y' = A1 i')
    (h2 : B2 = A2) (h3 : B3 = A3) :
    relu (addRow (mm (scaleCol B0 B1) B2) B3) y = relu (addRow (mm (scaleCol A0 A1) A2) A3) i := by
  subst h2; subst h3
  have er : rowOf y = rowOf i := funext fun a => Fin.ext (by
    match a with
    | ⟨0, _⟩ => rfl
    | ⟨1, _⟩ => exact hi1.symm)
  have eri : ∀ k : Fin 128, ri y k = ri i k := fun k => funext fun a => Fin.ext (by
    match a with
    | ⟨0, _⟩ => rfl
    | ⟨1, _⟩ => exact hi1.symm)
  show max ((∑ k : Fin 128, B0 (li y k) * B1 (colOf (li y k)) * B2 (ri y k)) + B3 (rowOf y)) 0
     = max ((∑ k : Fin 128, A0 (li i k) * A1 (colOf (li i k)) * B2 (ri i k)) + B3 (rowOf i)) 0
  rw [er]
  refine congrArg (fun s => max (s + B3 (rowOf i)) 0) (Finset.sum_congr rfl fun k _ => ?_)
  rw [eri k, h0 (li y k) (li i k) hi0 rfl, h1 (colOf (li y k)) (colOf (li i k)) hi0]

/-! ## From the blocks to the array -/

theorem hz : (![0, 0] : Fin 2 → Nat) = fun _ => 0 := funext fun a => by fin_cases a <;> rfl

/-- The printed index maps, decided over the grid: the two tall inputs' row block is the output's, which is the point's
    number; every other block index is zero. -/
theorem idx_facts : ∀ t : Fin cfg2.N,
      win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT t WRITES BACK is block t of the row-wise function of the arrays as the region finds them. -/
theorem flushed_eq (c : Dev nD) (t : Fin cfg2.N) :
    (dat2 V c).flushed 4 t = ((cfg2.win 4).blk t).view.read (Elt Ideal) (relu (addRow (mm (scaleCol (V c main_v73) (V c main_v22)) (V c main_v75)) (V c main_v61))) := by
  show (cfg2.win 4).cut (grid2.coords t) ((dat2 V c).after 4 t) = _
  rw [after2_4]
  unfold out2_4
  rw [View.canon_unit_zero hz]
  simp only [View.ld_unit_zero (S := S6000x128) hz, View.ld_unit_zero (S := S6000x1) hz, View.ld_unit_zero (S := S128x128) hz, View.ld_unit_zero (S := S1x128) hz]
  rw [pay_eq]
  obtain ⟨e0, e1, e2, e3, e4, e5, e6, e7, e8, e9⟩ := idx_facts t
  funext y
  show relu (addRow (mm (scaleCol (iblk2 V c 0 t) (iblk2 V c 1 t)) (iblk2 V c 2 t)) (iblk2 V c 3 t)) y
     = relu (addRow (mm (scaleCol (V c main_v73) (V c main_v22)) (V c main_v75)) (V c main_v61)) (((cfg2.win 4).blk t).view.emb y)
  refine rowwise_block (V c main_v73) (V c main_v22) (V c main_v75) (V c main_v61)
    (iblk2 V c 0 t) (iblk2 V c 1 t) (iblk2 V c 2 t) (iblk2 V c 3 t)
    (win2_4.index t (0 : Fin 2) * 6000) y (((cfg2.win 4).blk t).view.emb y) ?_ ?_ ?_ ?_ ?_ ?_
  · -- the output block's row sits at block index × 6000 + the row inside the block
    show win2_4.index t (0 : Fin 2) * 6000 + 1 * (y 0).val = win2_4.index t (0 : Fin 2) * 6000 + (y 0).val
    omega
  · show win2_4.index t (1 : Fin 2) * 128 + 1 * (y 1).val = (y 1).val
    omega
  · -- the summed messages' block is read at the output's row block
    intro y' i' hr hc
    show V c main_v73 (((cfg2.win 0).blk t).view.emb y') = V c main_v73 i'
    refine congrArg (V c main_v73) ?_
    funext a; apply Fin.ext
    match a with
    | ⟨0, _⟩ => show win2_0.index t (0 : Fin 2) * 6000 + 1 * (y' 0).val = (i' 0).val; omega
    | ⟨1, _⟩ => show win2_0.index t (1 : Fin 2) * 128 + 1 * (y' 1).val = (i' 1).val; omega
  · -- the count column's block too
    intro y' i' hr
    show V c main_v22 (((cfg2.win 1).blk t).view.emb y') = V c main_v22 i'
    refine congrArg (V c main_v22) ?_
    funext a; apply Fin.ext
    match a with
    | ⟨0, _⟩ => show win2_1.index t (0 : Fin 2) * 6000 + 1 * (y' 0).val = (i' 0).val; omega
    | ⟨1, _⟩ =>
      show win2_1.index t (1 : Fin 2) * 1 + 1 * (y' 1).val = (i' 1).val
      have hy := idx2_lt1 y'; have hi := idx2_lt1 i'; omega
  · -- the weights' block is the whole array
    funext y'
    show V c main_v75 (((cfg2.win 2).blk t).view.emb y') = V c main_v75 y'
    refine congrArg (V c main_v75) ?_
    funext a; apply Fin.ext
    match a with
    | ⟨0, _⟩ => show win2_2.index t (0 : Fin 2) * 128 + 1 * (y' 0).val = (y' 0).val; omega
    | ⟨1, _⟩ => show win2_2.index t (1 : Fin 2) * 128 + 1 * (y' 1).val = (y' 1).val; omega
  · -- and so is the bias row's
    funext y'
    show V c main_v61 (((cfg2.win 3).blk t).view.emb y') = V c main_v61 y'
    refine congrArg (V c main_v61) ?_
    funext a; apply Fin.ext
    match a with
    | ⟨0, _⟩ => show win2_3.index t (0 : Fin 2) * 1 + 1 * (y' 0).val = (y' 0).val; omega
    | ⟨1, _⟩ => show win2_3.index t (1 : Fin 2) * 128 + 1 * (y' 1).val = (y' 1).val; omega

/-- An index of the output array is in point t's block iff each coordinate is in the block's range on its axis. -/
theorem mem_blk (t : Fin cfg2.N) (i : S60000x128.Idx) :
    i ∈ ((cfg2.win 4).blk t).view.set ↔ ∀ a : Fin 2, win2_4.index t a * S6000x128.size a ≤ (i a).val ∧ (i a).val < win2_4.index t a * S6000x128.size a + S6000x128.size a := by
  show i ∈ ((View.whole main_v76).slice (win2_4.rect t)).set ↔ _
  rw [View.set_slice_whole, Rect.mem_set_unit]
  exact Iff.rfl

/-- The 10 row blocks tile the 60000 rows: row r lies in the block of point r / 6000. -/
theorem cover (i : S60000x128.Idx) : ∃ t : Fin cfg2.N, (cfg2.win 4).flush t = true ∧ i ∈ ((cfg2.win 4).blk t).view.set := by
  have hi0 : (i 0).val < 60000 := (i 0).isLt
  have hi1 : (i 1).val < 128 := (i 1).isLt
  have hN : cfg2.N = 10 := N_2
  have ht : (i 0).val / 6000 < cfg2.N := by rw [hN]; omega
  obtain ⟨-, -, -, -, -, -, -, -, e8, e9⟩ := idx_facts ⟨(i 0).val / 6000, ht⟩
  have e8' : win2_4.index ⟨(i 0).val / 6000, ht⟩ (0 : Fin 2) = (i 0).val / 6000 := e8
  refine ⟨⟨(i 0).val / 6000, ht⟩, flush2_4 _, ?_⟩
  rw [mem_blk]
  intro a
  match a with
  | ⟨0, _⟩ =>
    show win2_4.index ⟨(i 0).val / 6000, ht⟩ (0 : Fin 2) * 6000 ≤ (i 0).val ∧ (i 0).val < win2_4.index ⟨(i 0).val / 6000, ht⟩ (0 : Fin 2) * 6000 + 6000
    rw [e8']; omega
  | ⟨1, _⟩ =>
    show win2_4.index ⟨(i 0).val / 6000, ht⟩ (1 : Fin 2) * 128 ≤ (i 1).val ∧ (i 1).val < win2_4.index ⟨(i 0).val / 6000, ht⟩ (1 : Fin 2) * 128 + 128
    rw [e9]; omega

/-- Region 2's output array after the run, as one
    row-wise function of the arrays the region finds on entry. -/
theorem arr (c : Dev nD) :
    (dat2 V c).arrAt 4 cfg2.N
      = relu (addRow (mm (scaleCol (V c main_v73) (V c main_v22)) (V c main_v75)) (V c main_v61)) :=
  (dat2 V c).arrAt_eq_of_cover 4 (relu (addRow (mm (scaleCol (V c main_v73) (V c main_v22)) (V c main_v75)) (V c main_v61)))
    (fun t _ => flushed_eq V c t) cover

end Cert.KernelIdeal.Reg2

end
-- ==== Proof.KHost2.lean ====
/-
  The kernel's program from region 1's exit to region 2's exit, at the ideal values. The second gather takes the rows of
  the projected features at the source nodes of the edges into the 60000 nodes; the next stretch sums those rows into
  their destination nodes and cuts slice 2 out of the stacked weights. Region 2's four input arrays are then short terms
  of the argument arrays, and its output array is the positive part of the scaled sums times the weights plus the bias
  row. Every buffer that neither stretch nor region 2 writes keeps the contents it had at region 1's exit.
-/
import proofs.«412835_j24404004176459_1_alg».proof.Proof.KHost1
import proofs.«412835_j24404004176459_1_alg».proof.Proof.Reg2
set_option maxRecDepth 16384

noncomputable section

namespace Cert.KernelIdeal.Host

open Cert.KernelIdeal Cert.KernelIdeal.Gen Cert.RowOps
open Idealize.ShloMosaic Idealize.ShloMosaic.TcCoe Idealize.SL.Sem Idealize.ShloMosaic.StableHlo

variable (m : (ℓ : Loc nD τ sig) → Buf (Elt Ideal) ℓ) (ρ : Dev nD → PrngReg)

set_option hygiene false in
/-- The buffer in question is none of region 2's arrays and no operation of the two stretches before region 2 writes it:
    at region 2's exit it holds what it held at region 1's exit (the goal is about the valuations m, ρ and the device c
    of the statement it is used in). -/
macro "kept_through_region2" b:ident : tactic => `(tactic| (
  rw [W8_of_ne m ρ c $b (by decide)]
  refine Eq.trans (b := W6 m ρ c (Proc.devRef .tc $b)) ?_ ?_
  · show StableHlo.after hostOps2_1 (W6 m ρ c) (Proc.devRef .tc $b) = _
    not_written hostOps2_1
  · show StableHlo.after hostOps2 (W5 m ρ c) (Proc.devRef .tc $b) = _
    not_written hostOps2))

/-! ## The buffers the two stretches read, back to the launch -/

theorem W2_arg13 (c : Dev nD) : W2 m ρ c (Proc.devRef .tc main_arg13) = m ((c : Thread nD τ).loc main_arg13) := by
  rw [W2_of_ne m ρ c main_arg13 (by decide)]
  show StableHlo.after hostOps0 (W0 m ρ c) (Proc.devRef .tc main_arg13) = _
  not_written hostOps0

theorem W2_arg14 (c : Dev nD) : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  not_written hostOps0

/-- The reciprocal counts of the 60000 destination nodes, as the first stretch leaves them. -/
theorem W2_v22 (c : Dev nD) : W2 m ρ c (Proc.devRef .tc main_v22) = inv60k (m ((c : Thread nD τ).loc main_arg14)) := by
  rw [W2_of_ne m ρ c main_v22 (by decide)]
  show StableHlo.after hostOps0 (W0 m ρ c) (Proc.devRef .tc main_v22) = _
  after_results_simp <;> rfl

/-- Slice 2 of the stacked biases, as one row, as the first stretch leaves it. -/
theorem W2_v61 (c : Dev nD) : W2 m ρ c (Proc.devRef .tc main_v61)
    = shapeCast S1x128 (row4 (m ((c : Thread nD τ).loc main_arg4)) 2 slices_S4x128_S1x128_2_0) shapeCasts_S128_S1x128 := by
  rw [W2_of_ne m ρ c main_v61 (by decide)]
  show StableHlo.after hostOps0 (W0 m ρ c) (Proc.devRef .tc main_v61) = _
  after_results_simp <;> rfl

/-! ## After the second gather -/

/-- The rows of region 0's first output at the edges' source nodes (the gather's own casts between a value's
    type and its buffer's are identities). -/
theorem W6_v70 (c : Dev nD) : W6 m ρ c (Proc.devRef .tc main_v70)
    = take200k (W5 m ρ c (Proc.devRef .tc main_v62_0)) (W5 m ρ c (Proc.devRef .tc main_arg13)) := by
  show StableHlo.after hostOps2 (W5 m ρ c) (Proc.devRef .tc main_v70) = _
  after_results_simp
  simp only [TRef.ofBuf, TRef.toBuf, cast_eq]

theorem W6_arg14 (c : Dev nD) : W6 m ρ c (Proc.devRef .tc main_arg14) = W5 m ρ c (Proc.devRef .tc main_arg14) := by
  show StableHlo.after hostOps2 (W5 m ρ c) (Proc.devRef .tc main_arg14) = _
  not_written hostOps2

theorem W6_arg3 (c : Dev nD) : W6 m ρ c (Proc.devRef .tc main_arg3) = W5 m ρ c (Proc.devRef .tc main_arg3) := by
  show StableHlo.after hostOps2 (W5 m ρ c) (Proc.devRef .tc main_arg3) = _
  not_written hostOps2

/-! ## Region 2's entry -/

/-- The gathered rows summed into the destination nodes. -/
theorem W7_v73 (c : Dev nD) : W7 m ρ c (Proc.devRef .tc main_v73)
    = seg60k (m ((c : Thread nD τ).loc main_arg14)) (take200k (h0 m c) (m ((c : Thread nD τ).loc main_arg13))) := by
  have e : W7 m ρ c (Proc.devRef .tc main_v73)
      = seg60k (W6 m ρ c (Proc.devRef .tc main_arg14)) (W6 m ρ c (Proc.devRef .tc main_v70)) := by
    show StableHlo.after hostOps2_1 (W6 m ρ c) (Proc.devRef .tc main_v73) = _
    after_results_simp <;> rfl
  rw [e, W6_v70, W6_arg14, W5_keep_main_v62_0, W5_keep_main_arg13, W5_keep_main_arg14, W2_v62_0, W2_arg13, W2_arg14]

theorem W7_v22 (c : Dev nD) : W7 m ρ c (Proc.devRef .tc main_v22) = inv60k (m ((c : Thread nD τ).loc main_arg14)) := by
  rw [← W2_v22 m ρ c, ← W5_keep_main_v22 m ρ c]
  refine Eq.trans (b := W6 m ρ c (Proc.devRef .tc main_v22)) ?_ ?_
  · show StableHlo.after hostOps2_1 (W6 m ρ c) (Proc.devRef .tc main_v22) = _
    not_written hostOps2_1
  · show StableHlo.after hostOps2 (W5 m ρ c) (Proc.devRef .tc main_v22) = _
    not_written hostOps2

/-- Slice 2 of the stacked weights. -/
theorem W7_v75 (c : Dev nD) : W7 m ρ c (Proc.devRef .tc main_v75)
    = mat4 (m ((c : Thread nD τ).loc main_arg3)) 2 slices_S4x128x128_S1x128x128_2_0_0 := by
  have e : W7 m ρ c (Proc.devRef .tc main_v75)
      = mat4 (W6 m ρ c (Proc.devRef .tc main_arg3)) 2 slices_S4x128x128_S1x128x128_2_0_0 := by
    show StableHlo.after hostOps2_1 (W6 m ρ c) (Proc.devRef .tc main_v75) = _
    after_results_simp <;> rfl
  rw [e, W6_arg3, W5_keep_main_arg3, W2_arg3]

theorem W7_v61 (c : Dev nD) : W7 m ρ c (Proc.devRef .tc main_v61)
    = shapeCast S1x128 (row4 (m ((c : Thread nD τ).loc main_arg4)) 2 slices_S4x128_S1x128_2_0) shapeCasts_S128_S1x128 := by
  rw [← W2_v61 m ρ c, ← W5_keep_main_v61 m ρ c]
  refine Eq.trans (b := W6 m ρ c (Proc.devRef .tc main_v61)) ?_ ?_
  · show StableHlo.after hostOps2_1 (W6 m ρ c) (Proc.devRef .tc main_v61) = _
    not_written hostOps2_1
  · show StableHlo.after hostOps2 (W5 m ρ c) (Proc.devRef .tc main_v61) = _
    not_written hostOps2

/-! ## Region 2's output -/

/-- The email-node features after the first layer. -/
abbrev email (c : Dev nD) : Mat 60000 128 :=
  relu (addRow (mm (scaleCol (seg60k (m ((c : Thread nD τ).loc main_arg14)) (take200k (h0 m c) (m ((c : Thread nD τ).loc main_arg13))))
        (inv60k (m ((c : Thread nD τ).loc main_arg14))))
      (mat4 (m ((c : Thread nD τ).loc main_arg3)) 2 slices_S4x128x128_S1x128x128_2_0_0))
    (shapeCast S1x128 (row4 (m ((c : Thread nD τ).loc main_arg4)) 2 slices_S4x128_S1x128_2_0) shapeCasts_S128_S1x128))

theorem W8_v76 (c : Dev nD) : W8 m ρ c (Proc.devRef .tc main_v76) = email m c := by
  show W8 m ρ c (Proc.devRef .tc (Pipeline.arrRef spec2 4)) = _
  rw [W8_arr m ρ c 4, Cert.KernelIdeal.Reg2.arr (V7 m ρ) c]
  show relu (addRow (mm (scaleCol (W7 m ρ c (Proc.devRef .tc main_v73)) (W7 m ρ c (Proc.devRef .tc main_v22)))
    (W7 m ρ c (Proc.devRef .tc main_v75))) (W7 m ρ c (Proc.devRef .tc main_v61))) = _
  rw [W7_v73, W7_v22, W7_v75, W7_v61]

/-! ## What region 2 and the two stretches before it leave alone -/

theorem W8_keep_main_arg6 (c : Dev nD) : W8 m ρ c (Proc.devRef .tc main_arg6) = W5 m ρ c (Proc.devRef .tc main_arg6) := by
  kept_through_region2 main_arg6

theorem W8_keep_main_arg9 (c : Dev nD) : W8 m ρ c (Proc.devRef .tc main_arg9) = W5 m ρ c (Proc.devRef .tc main_arg9) := by
  kept_through_region2 main_arg9

theorem W8_keep_main_arg10 (c : Dev nD) : W8 m ρ c (Proc.devRef .tc main_arg10) = W5 m ρ c (Proc.devRef .tc main_arg10) := by
  kept_through_region2 main_arg10

theorem W8_keep_main_arg11 (c : Dev nD) : W8 m ρ c (Proc.devRef .tc main_arg11) = W5 m ρ c (Proc.devRef .tc main_arg11) := by
  kept_through_region2 main_arg11

theorem W8_keep_main_arg12 (c : Dev nD) : W8 m ρ c (Proc.devRef .tc main_arg12) = W5 m ρ c (Proc.devRef .tc main_arg12) := by
  kept_through_region2 main_arg12

theorem W8_keep_main_arg13 (c : Dev nD) : W8 m ρ c (Proc.devRef .tc main_arg13) = W5 m ρ c (Proc.devRef .tc main_arg13) := by
  kept_through_region2 main_arg13

theorem W8_keep_main_arg14 (c : Dev nD) : W8 m ρ c (Proc.devRef .tc main_arg14) = W5 m ρ c (Proc.devRef .tc main_arg14) := by
  kept_through_region2 main_arg14

theorem W8_keep_main_v62_1 (c : Dev nD) : W8 m ρ c (Proc.devRef .tc main_v62_1) = W5 m ρ c (Proc.devRef .tc main_v62_1) := by
  kept_through_region2 main_v62_1

theorem W8_keep_main_v69 (c : Dev nD) : W8 m ρ c (Proc.devRef .tc main_v69) = W5 m ρ c (Proc.devRef .tc main_v69) := by
  kept_through_region2 main_v69

theorem W8_keep_main_v27 (c : Dev nD) : W8 m ρ c (Proc.devRef .tc main_v27) = W5 m ρ c (Proc.devRef .tc main_v27) := by
  kept_through_region2 main_v27

theorem W8_keep_main_v32 (c : Dev nD) : W8 m ρ c (Proc.devRef .tc main_v32) = W5 m ρ c (Proc.devRef .tc main_v32) := by
  kept_through_region2 main_v32

theorem W8_keep_main_v48 (c : Dev nD) : W8 m ρ c (Proc.devRef .tc main_v48) = W5 m ρ c (Proc.devRef .tc main_v48) := by
  kept_through_region2 main_v48

theorem W8_keep_main_v54 (c : Dev nD) : W8 m ρ c (Proc.devRef .tc main_v54) = W5 m ρ c (Proc.devRef .tc main_v54) := by
  kept_through_region2 main_v54

end Cert.KernelIdeal.Host

end
-- ==== Proof.Reg3.lean ====
/-
  Region 3 of the kernel's program at the ideal values: every block of 5000 rows of the output is the classifier applied
  to the positive part of the second layer's update: the two blocks of summed messages, each row scaled by its
  reciprocal count, times their weight matrices, plus the block of the first layer's features times the summed
  right-hand weights, plus the summed bias row. The forty blocks tile the 200000 rows.

  The argument. (1) At the extended reals a change of float format is the identity and a product into the zero
  accumulator is the sum over the contracted coordinate, so the body's result is the row-wise expression of its eleven
  loaded blocks. (2) Every operation of that expression is row-wise: row r + x of a product, of a bias addition, of a row
  scaling, of a positive part or of a sum is row x of the same operation of the blocks of rows that start at r. The five
  row-blocked operands of point t are rows 5000 t … 5000 t + 4999 of their arrays and the six small operands are their
  arrays whole, so point t writes back rows 5000 t … of the whole-array expression. (3) Row r lies in the block of point
  r / 5000, so the forty blocks cover the output and the array ends holding the whole-array expression.
-/
import proofs.«412835_j24404004176459_1_alg».proof.Proof.Gen.KernelIdeal.Frame
import proofs.«412835_j24404004176459_1_alg».proof.Proof.RowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen Cert.RowOps
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The two contractions: [5000,128]·[128,128] and [5000,128]·[128,1], each over the one shared axis of extent 128 -/

/-- The left factor of the square product is read at the output's row … -/
theorem lhs_sq_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted coordinate; -/
theorem lhs_sq_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right factor at the contracted coordinate … -/
theorem rhs_sq_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_sq_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block of 5000 rows with a square weight matrix, into the zero accumulator, is the row-wise product:
    the sum over the 128 contracted coordinates, re-indexed from the contraction's own index to its one coordinate. -/
theorem matmul_sq_eq (x : FVec Ideal S5000x128 .bf16) (w : FVec Ideal S128x128 .bf16) :
    matmul dot_S5000x128_S128x128_S5000x128_1_0_0_1_n_n none x w (constant (F := Ideal) S5000x128 .f32 0x00000000#32) = mm (n := 5000) (K := 128) (D := 128) x w := by
  funext i
  unfold mm
  refine (Ideal.matmul_constant_zero_apply dot_S5000x128_S128x128_S5000x128_1_0_0_1_n_n none x w i).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = li (n := 5000) (K := 128) (D := 128) i k := funext fun a => Fin.ext (by
    match a with
    | ⟨0, _⟩ => exact lhs_sq_0 _ _
    | ⟨1, _⟩ => exact (lhs_sq_1 _ _).trans hk)
  have er : dot_S5000x128_S128x128_S5000x128_1_0_0_1_n_n.rhsIdx i ((ValueIdx.contrEquiv1 dot_S5000x128_S128x128_S5000x128_1_0_0_1_n_n 128 rfl rfl).symm k) = ri (n := 5000) (K := 128) (D := 128) i k := funext fun a => Fin.ext (by
    match a with
    | ⟨0, _⟩ => exact (rhs_sq_0 _ _).trans hk
    | ⟨1, _⟩ => exact rhs_sq_1 _ _)
  rw [el, er]

/-- The left factor of the classifier's product is read at the output's row … -/
theorem lhs_col_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- … and at the contracted coordinate; -/
theorem lhs_col_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- the right factor at the contracted coordinate … -/
theorem rhs_col_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- … and at the output's one column. -/
theorem rhs_col_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The product of a block of 5000 rows with the one-column classifier matrix, into the zero accumulator. -/
theorem matmul_col_eq (x : FVec Ideal S5000x128 .bf16) (w : FVec Ideal S128x1 .bf16) :
    matmul dot_S5000x128_S128x1_S5000x1_1_0_0_1_n_n none x w (constant (F := Ideal) S5000x1 .f32 0x00000000#32) = mm (n := 5000) (K := 128) (D := 1) x w := by
  funext i
  unfold mm
  refine (Ideal.matmul_constant_zero_apply dot_S5000x128_S128x1_S5000x1_1_0_0_1_n_n none x w i).trans ?_
  rw [← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx i ((ValueIdx.contrEquiv1 dot_S5000x128_S128x1_S5000x1_1_0_0_1_n_n 128 rfl rfl).symm k) = li (n := 5000) (K := 128) (D := 1) i k := funext fun a => Fin.ext (by
    match a with
    | ⟨0, _⟩ => exact lhs_col_0 _ _
    | ⟨1, _⟩ => exact (lhs_col_1 _ _).trans hk)
  have er : dot_S5000x128_S128x1_S5000x1_1_0_0_1_n_n.rhsIdx i ((ValueIdx.contrEquiv1 dot_S5000x128_S128x1_S5000x1_1_0_0_1_n_n 128 rfl rfl).symm k) = ri (n := 5000) (K := 128) (D := 1) i k := funext fun a => Fin.ext (by
    match a with
    | ⟨0, _⟩ => exact (rhs_col_0 _ _).trans hk
    | ⟨1, _⟩ => exact rhs_col_1 _ _)
  rw [el, er]

/-! ## The layout operations of the body -/

/-- A one-column array [5000,1] broadcast along the 128 entries of each row reads, at any index, its row's one entry. -/
theorem broadcast_col_eq (v : (Sh2 5000 1).Idx → EReal) (h : (Sh2 5000 1).Broadcasts (Sh2 5000 128)) (j : (Sh2 5000 128).Idx) :
    broadcastTo (Sh2 5000 128) v h j = v (colOf j) := by
  refine broadcastTo_apply v h j (colOf j) fun ax => ?_
  match ax with
  | ⟨0, _⟩ => rfl
  | ⟨1, _⟩ => rfl

/-- The one-row bias [1,128] broadcast over the 5000 rows reads, at any index, the bias at that column. -/
theorem broadcast_row_eq (v : (Sh2 1 128).Idx → EReal) (h : (Sh2 1 128).Broadcasts (Sh2 5000 128)) (j : (Sh2 5000 128).Idx) :
    broadcastTo (Sh2 5000 128) v h j = v (rowOf j) := by
  refine broadcastTo_apply v h j (rowOf j) fun ax => ?_
  match ax with
  | ⟨0, _⟩ => rfl
  | ⟨1, _⟩ => rfl

/-- The classifier's bias [1,1] broadcast over the 5000 rows of the one-column output: both of its axes have extent one,
    and the output's column coordinate is 0. -/
theorem broadcast_one_eq (v : (Sh2 1 1).Idx → EReal) (h : (Sh2 1 1).Broadcasts (Sh2 5000 1)) (j : (Sh2 5000 1).Idx) :
    broadcastTo (Sh2 5000 1) v h j = v (rowOf j) := by
  refine broadcastTo_apply v h j (rowOf j) fun ax => ?_
  match ax with
  | ⟨0, _⟩ => rfl
  | ⟨1, _⟩ =>
    show (j 1).val = if (1 : Nat) = 1 then 0 else (j 1).val
    have hj : (j 1).val < 1 := (j 1).isLt
    rw [if_pos rfl]; omega

/-- A change of float format is the identity on the extended reals. -/
theorem trunc_eq {s : Shape} (a : FVec Ideal s .f32) : (truncf .bf16 a bitsLt_bf16_f32 : FVec Ideal s .bf16) = a := rfl

/-- A block of rows times its column of reciprocal counts, broadcast along each row, is the row-scaled block. -/
theorem scaled_eq (a : FVec Ideal S5000x128 .f32) (s : FVec Ideal S5000x1 .f32) :
    (truncf .bf16 (mulf a (broadcastTo S5000x128 s broadcasts_S5000x1_S5000x128)) bitsLt_bf16_f32 : FVec Ideal S5000x128 .bf16) = scaleCol a s :=
  funext fun x => by rw [truncf_apply, mulf_apply, broadcast_col_eq]; rfl

/-! ## The body's result from its loaded blocks -/

/-- The layer's update of a block of rows: the two scaled message blocks and the feature block, each times its weight
    matrix, summed, plus the bias row, and the positive part of that (the maximum with the zero word, which is 0). -/
theorem pay2_eq (v0 : Vec Ideal S5000x128 .f32) (v2 : Vec Ideal S5000x1 .f32) (v7 : Vec Ideal S5000x128 .f32) (v9 : Vec Ideal S5000x1 .f32)
    (v14 : Vec Ideal S5000x128 .f32) (v17 v20 v23 : Vec Ideal S128x128 .f32) (v31 : Vec Ideal S1x128 .f32) :
    k3_pay2 (F := Ideal) v0 v2 v7 v9 v14 v17 v20 v23 v31
      = relu (addRow (add (add (mm (scaleCol v0 v2) v17) (mm (scaleCol v7 v9) v20)) (mm v14 v23)) v31) := by
  unfold k3_pay2
  simp only [shapeCast_self]
  rw [matmul_sq_eq, matmul_sq_eq, matmul_sq_eq]
  funext j
  rw [maximumf_apply, addf_apply, addf_apply, addf_apply, broadcast_apply, broadcast_row_eq, scaled_eq, scaled_eq]
  simp only [trunc_eq]
  rw [show (FloatOps.ofBits (F := Ideal) .f32 0x00000000#32) = 0 from Ideal.ofBits_zero_f32]
  rfl

/-- The classifier on a block of rows: the product with the one-column matrix plus the one bias. -/
theorem pay1_eq (v36 : FVec Ideal S5000x128 .f32) (v38 : Vec Ideal S128x1 .f32) (v41 : Vec Ideal S1x1 .f32) :
    k3_pay1 (F := Ideal) v36 v38 v41 = addRow (mm v36 v38) v41 := by
  unfold k3_pay1
  simp only [shapeCast_self]
  rw [matmul_col_eq]
  funext j
  rw [addf_apply, broadcast_one_eq]
  simp only [trunc_eq]
  rfl

/-- THE BODY'S RESULT from its eleven loaded blocks: the classifier applied to the positive part of the layer's update. -/
theorem pay_eq (v0 : Vec Ideal S5000x128 .f32) (v2 : Vec Ideal S5000x1 .f32) (v7 : Vec Ideal S5000x128 .f32) (v9 : Vec Ideal S5000x1 .f32)
    (v14 : Vec Ideal S5000x128 .f32) (v17 v20 v23 : Vec Ideal S128x128 .f32) (v31 : Vec Ideal S1x128 .f32) (v38 : Vec Ideal S128x1 .f32) (v41 : Vec Ideal S1x1 .f32) :
    k3_pay1 (F := Ideal) (k3_pay2 (F := Ideal) v0 v2 v7 v9 v14 v17 v20 v23 v31) v38 v41
      = addRow (mm (relu (addRow (add (add (mm (scaleCol v0 v2) v17) (mm (scaleCol v7 v9) v20)) (mm v14 v23)) v31)) v38) v41 := by
  rw [pay1_eq, pay2_eq]

/-! ## A block of rows of a row-wise operation is the operation of the block of rows -/

/-- `B` is the block of `n` rows of `A` that starts at row `r`: entry (x, y) of `B` is entry (r + x, y) of `A`. -/
def RowsOf {n N D : Nat} (r : Nat) (B : Mat n D) (A : Mat N D) : Prop :=
  ∀ (x : (Sh2 n D).Idx) (k : (Sh2 N D).Idx), (k 0).val = r + (x 0).val → (k 1).val = (x 1).val → B x = A k

/-- Row `r + x` of a product is row `x` of the block's product: the right factor is read whole. -/
theorem rows_mm {n N K D : Nat} {r : Nat} {B : Mat n K} {A : Mat N K} (h : RowsOf r B A) (W : Mat K D) :
    RowsOf r (mm B W) (mm A W) := fun x k h0 h1 => by
  unfold mm
  refine Finset.sum_congr rfl fun j _ => ?_
  have e1 : B (li x j) = A (li k j) := h _ _ h0 rfl
  have e2 : ri (n := n) x j = ri (n := N) k j := funext fun a => match a with
    | ⟨0, _⟩ => rfl
    | ⟨1, _⟩ => Fin.ext h1.symm
  rw [e1, e2]

/-- The one-row bias is read at the column only. -/
theorem rows_addRow {n N D : Nat} {r : Nat} {B : Mat n D} {A : Mat N D} (h : RowsOf r B A) (b : Mat 1 D) :
    RowsOf r (addRow B b) (addRow A b) := fun x k h0 h1 => by
  unfold addRow
  have e2 : rowOf x = rowOf k := funext fun a => match a with
    | ⟨0, _⟩ => rfl
    | ⟨1, _⟩ => Fin.ext h1.symm
  rw [h x k h0 h1, e2]

/-- The scale of row `r + x` is entry `x` of the block of the scale column. -/
theorem rows_scaleCol {n N D : Nat} {r : Nat} {B : Mat n D} {A : Mat N D} {s : Mat n 1} {S : Mat N 1}
    (h : RowsOf r B A) (hs : RowsOf r s S) : RowsOf r (scaleCol B s) (scaleCol A S) := fun x k h0 h1 => by
  unfold scaleCol
  rw [h x k h0 h1, hs (colOf x) (colOf k) h0 rfl]

/-- The positive part is taken entry by entry. -/
theorem rows_relu {n N D : Nat} {r : Nat} {B : Mat n D} {A : Mat N D} (h : RowsOf r B A) :
    RowsOf r (relu B) (relu A) := fun x k h0 h1 => by
  unfold relu
  rw [h x k h0 h1]

/-- So is the sum. -/
theorem rows_add {n N D : Nat} {r : Nat} {B B' : Mat n D} {A A' : Mat N D} (h : RowsOf r B A) (h' : RowsOf r B' A') :
    RowsOf r (add B B') (add A A') := fun x k h0 h1 => by
  unfold add
  rw [h x k h0 h1, h' x k h0 h1]

/-! ## The index maps over the forty grid points -/

theorem hz : (![0, 0] : Fin 2 → Nat) = fun _ => 0 := funext fun a => by fin_cases a <;> rfl

/-- The five row-blocked input windows move with the output's row block and sit at column block 0. -/
theorem idx_rows : ∀ t : Fin cfg3.N,
    win3_0.index t (0 : Fin 2) = win3_11.index t (0 : Fin 2) ∧ win3_0.index t (1 : Fin 2) = 0
    ∧ win3_1.index t (0 : Fin 2) = win3_11.index t (0 : Fin 2) ∧ win3_1.index t (1 : Fin 2) = 0
    ∧ win3_2.index t (0 : Fin 2) = win3_11.index t (0 : Fin 2) ∧ win3_2.index t (1 : Fin 2) = 0
    ∧ win3_3.index t (0 : Fin 2) = win3_11.index t (0 : Fin 2) ∧ win3_3.index t (1 : Fin 2) = 0
    ∧ win3_4.index t (0 : Fin 2) = win3_11.index t (0 : Fin 2) ∧ win3_4.index t (1 : Fin 2) = 0 :=
  (by decide +kernel : ∀ t : Fin grid3.N, _)

/-- The six small arrays are staged whole at every point: block (0, 0). -/
theorem idx_whole : ∀ t : Fin cfg3.N,
    win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0 :=
  (by decide +kernel : ∀ t : Fin grid3.N, _)

/-- Point `t` writes row block `t` of the one-column output. -/
theorem idx_out : ∀ t : Fin cfg3.N, win3_11.index t (0 : Fin 2) = t.val ∧ win3_11.index t (1 : Fin 2) = 0 :=
  (by decide +kernel : ∀ t : Fin grid3.N, _)

/-! ## The blocks the body loads: an element of a block sits at block index × block size + its coordinate in the block -/

/-- The first block of summed messages is rows 5000 t … of its array. -/
theorem rows_iblk0 (c : Dev nD) (t : Fin cfg3.N) :
    RowsOf (win3_11.index t (0 : Fin 2) * 5000) (iblk3 V c 0 t : Mat 5000 128) (V c main_v80 : Mat 200000 128) := fun x k h0 h1 => by
  obtain ⟨e0, e1, -⟩ := idx_rows t
  unfold iblk3
  rw [View.read_apply]
  show V c main_v80 _ = V c main_v80 k
  congr 1
  funext a
  apply Fin.ext
  match a with
  | ⟨0, _⟩ => show win3_0.index t (0 : Fin 2) * 5000 + 1 * (x 0).val = (k 0).val; omega
  | ⟨1, _⟩ => show win3_0.index t (1 : Fin 2) * 128 + 1 * (x 1).val = (k 1).val; omega

/-- Its column of reciprocal counts is the same rows of the count column. -/
theorem rows_iblk1 (c : Dev nD) (t : Fin cfg3.N) :
    RowsOf (win3_11.index t (0 : Fin 2) * 5000) (iblk3 V c 1 t : Mat 5000 1) (V c main_v27 : Mat 200000 1) := fun x k h0 h1 => by
  obtain ⟨-, -, e0, e1, -⟩ := idx_rows t
  unfold iblk3
  rw [View.read_apply]
  show V c main_v27 _ = V c main_v27 k
  congr 1
  funext a
  apply Fin.ext
  match a with
  | ⟨0, _⟩ => show win3_1.index t (0 : Fin 2) * 5000 + 1 * (x 0).val = (k 0).val; omega
  | ⟨1, _⟩ => show win3_1.index t (1 : Fin 2) * 1 + 1 * (x 1).val = (k 1).val; omega

/-- The second block of summed messages. -/
theorem rows_iblk2 (c : Dev nD) (t : Fin cfg3.N) :
    RowsOf (win3_11.index t (0 : Fin 2) * 5000) (iblk3 V c 2 t : Mat 5000 128) (V c main_v84 : Mat 200000 128) := fun x k h0 h1 => by
  obtain ⟨-, -, -, -, e0, e1, -⟩ := idx_rows t
  unfold iblk3
  rw [View.read_apply]
  show V c main_v84 _ = V c main_v84 k
  congr 1
  funext a
  apply Fin.ext
  match a with
  | ⟨0, _⟩ => show win3_2.index t (0 : Fin 2) * 5000 + 1 * (x 0).val = (k 0).val; omega
  | ⟨1, _⟩ => show win3_2.index t (1 : Fin 2) * 128 + 1 * (x 1).val = (k 1).val; omega

/-- Its column of reciprocal counts. -/
theorem rows_iblk3 (c : Dev nD) (t : Fin cfg3.N) :
    RowsOf (win3_11.index t (0 : Fin 2) * 5000) (iblk3 V c 3 t : Mat 5000 1) (V c main_v32 : Mat 200000 1) := fun x k h0 h1 => by
  obtain ⟨-, -, -, -, -, -, e0, e1, -⟩ := idx_rows t
  unfold iblk3
  rw [View.read_apply]
  show V c main_v32 _ = V c main_v32 k
  congr 1
  funext a
  apply Fin.ext
  match a with
  | ⟨0, _⟩ => show win3_3.index t (0 : Fin 2) * 5000 + 1 * (x 0).val = (k 0).val; omega
  | ⟨1, _⟩ => show win3_3.index t (1 : Fin 2) * 1 + 1 * (x 1).val = (k 1).val; omega

/-- The block of the first layer's features. -/
theorem rows_iblk4 (c : Dev nD) (t : Fin cfg3.N) :
    RowsOf (win3_11.index t (0 : Fin 2) * 5000) (iblk3 V c 4 t : Mat 5000 128) (V c main_v62_1 : Mat 200000 128) := fun x k h0 h1 => by
  obtain ⟨-, -, -, -, -, -, -, -, e0, e1⟩ := idx_rows t
  unfold iblk3
  rw [View.read_apply]
  show V c main_v62_1 _ = V c main_v62_1 k
  congr 1
  funext a
  apply Fin.ext
  match a with
  | ⟨0, _⟩ => show win3_4.index t (0 : Fin 2) * 5000 + 1 * (x 0).val = (k 0).val; omega
  | ⟨1, _⟩ => show win3_4.index t (1 : Fin 2) * 128 + 1 * (x 1).val = (k 1).val; omega

/-- The first message weight matrix is staged whole. -/
theorem iblk5_eq (c : Dev nD) (t : Fin cfg3.N) : (iblk3 V c 5 t : Mat 128 128) = V c main_v86 := by
  obtain ⟨e0, e1, -⟩ := idx_whole t
  funext x
  unfold iblk3
  rw [View.read_apply]
  show V c main_v86 _ = V c main_v86 x
  congr 1
  funext a
  apply Fin.ext
  match a with
  | ⟨0, _⟩ => show win3_5.index t (0 : Fin 2) * 128 + 1 * (x 0).val = (x 0).val; omega
  | ⟨1, _⟩ => show win3_5.index t (1 : Fin 2) * 128 + 1 * (x 1).val = (x 1).val; omega

/-- So is the second. -/
theorem iblk6_eq (c : Dev nD) (t : Fin cfg3.N) : (iblk3 V c 6 t : Mat 128 128) = V c main_v88 := by
  obtain ⟨-, -, e0, e1, -⟩ := idx_whole t
  funext x
  unfold iblk3
  rw [View.read_apply]
  show V c main_v88 _ = V c main_v88 x
  congr 1
  funext a
  apply Fin.ext
  match a with
  | ⟨0, _⟩ => show win3_6.index t (0 : Fin 2) * 128 + 1 * (x 0).val = (x 0).val; omega
  | ⟨1, _⟩ => show win3_6.index t (1 : Fin 2) * 128 + 1 * (x 1).val = (x 1).val; omega

/-- So is the summed right-hand weight matrix. -/
theorem iblk7_eq (c : Dev nD) (t : Fin cfg3.N) : (iblk3 V c 7 t : Mat 128 128) = V c main_v48 := by
  obtain ⟨-, -, -, -, e0, e1, -⟩ := idx_whole t
  funext x
  unfold iblk3
  rw [View.read_apply]
  show V c main_v48 _ = V c main_v48 x
  congr 1
  funext a
  apply Fin.ext
  match a with
  | ⟨0, _⟩ => show win3_7.index t (0 : Fin 2) * 128 + 1 * (x 0).val = (x 0).val; omega
  | ⟨1, _⟩ => show win3_7.index t (1 : Fin 2) * 128 + 1 * (x 1).val = (x 1).val; omega

/-- So is the summed bias row. -/
theorem iblk8_eq (c : Dev nD) (t : Fin cfg3.N) : (iblk3 V c 8 t : Mat 1 128) = V c main_v54 := by
  obtain ⟨-, -, -, -, -, -, e0, e1, -⟩ := idx_whole t
  funext x
  unfold iblk3
  rw [View.read_apply]
  show V c main_v54 _ = V c main_v54 x
  congr 1
  funext a
  apply Fin.ext
  match a with
  | ⟨0, _⟩ => show win3_8.index t (0 : Fin 2) * 1 + 1 * (x 0).val = (x 0).val; omega
  | ⟨1, _⟩ => show win3_8.index t (1 : Fin 2) * 128 + 1 * (x 1).val = (x 1).val; omega

/-- So is the one-column classifier matrix. -/
theorem iblk9_eq (c : Dev nD) (t : Fin cfg3.N) : (iblk3 V c 9 t : Mat 128 1) = V c main_arg9 := by
  obtain ⟨-, -, -, -, -, -, -, -, e0, e1, -⟩ := idx_whole t
  funext x
  unfold iblk3
  rw [View.read_apply]
  show V c main_arg9 _ = V c main_arg9 x
  congr 1
  funext a
  apply Fin.ext
  match a with
  | ⟨0, _⟩ => show win3_9.index t (0 : Fin 2) * 128 + 1 * (x 0).val = (x 0).val; omega
  | ⟨1, _⟩ => show win3_9.index t (1 : Fin 2) * 1 + 1 * (x 1).val = (x 1).val; omega

/-- So is the classifier's one bias. -/
theorem iblk10_eq (c : Dev nD) (t : Fin cfg3.N) : (iblk3 V c 10 t : Mat 1 1) = V c main_v89 := by
  obtain ⟨-, -, -, -, -, -, -, -, -, -, e0, e1⟩ := idx_whole t
  funext x
  unfold iblk3
  rw [View.read_apply]
  show V c main_v89 _ = V c main_v89 x
  congr 1
  funext a
  apply Fin.ext
  match a with
  | ⟨0, _⟩ => show win3_10.index t (0 : Fin 2) * 1 + 1 * (x 0).val = (x 0).val; omega
  | ⟨1, _⟩ => show win3_10.index t (1 : Fin 2) * 1 + 1 * (x 1).val = (x 1).val; omega

/-! ## What a grid point writes back, and the whole array -/

/-- The whole output: the classifier applied to the positive part of the layer's update, all 200000 rows at once. -/
abbrev G (c : Dev nD) : Mat 200000 1 :=
  addRow (mm (relu (addRow
      (add (add (mm (scaleCol (V c main_v80) (V c main_v27)) (V c main_v86))
                (mm (scaleCol (V c main_v84) (V c main_v32)) (V c main_v88)))
           (mm (V c main_v62_1) (V c main_v48)))
      (V c main_v54))) (V c main_arg9)) (V c main_v89)

/-- WHAT POINT `t` WRITES BACK is rows 5000 t … 5000 t + 4999 of the whole output: every operation of the body is
    row-wise, and its row-blocked operands are the same rows of their arrays. -/
theorem flushed_eq (c : Dev nD) (t : Fin cfg3.N) :
    (dat3 V c).flushed 11 t = ((cfg3.win 11).blk t).view.read (Elt Ideal) (G V c) := by
  show (cfg3.win 11).cut (grid3.coords t) ((dat3 V c).after 11 t) = _
  rw [after3_11]
  unfold out3_11
  rw [View.canon_unit_zero hz]
  simp only [View.ld_unit_zero (S := S5000x128) hz, View.ld_unit_zero (S := S5000x1) hz, View.ld_unit_zero (S := S128x128) hz,
    View.ld_unit_zero (S := S1x128) hz, View.ld_unit_zero (S := S128x1) hz, View.ld_unit_zero (S := S1x1) hz]
  rw [pay_eq]
  rw [iblk5_eq, iblk6_eq, iblk7_eq, iblk8_eq, iblk9_eq, iblk10_eq]
  obtain ⟨o0, o1⟩ := idx_out t
  funext y
  rw [View.read_apply]
  refine rows_addRow (rows_mm (rows_relu (rows_addRow (rows_add (rows_add
      (rows_mm (rows_scaleCol (rows_iblk0 V c t) (rows_iblk1 V c t)) _)
      (rows_mm (rows_scaleCol (rows_iblk2 V c t) (rows_iblk3 V c t)) _))
      (rows_mm (rows_iblk4 V c t) _)) _)) _) _ y _ ?_ ?_
  · show win3_11.index t (0 : Fin 2) * 5000 + 1 * (y 0).val = win3_11.index t (0 : Fin 2) * 5000 + (y 0).val; omega
  · show win3_11.index t (1 : Fin 2) * 1 + 1 * (y 1).val = (y 1).val; omega

/-- An index of the output is in point `t`'s block iff each coordinate is in the block's range on its axis. -/
theorem mem_blk (t : Fin cfg3.N) (i : S200000x1.Idx) :
    i ∈ ((cfg3.win 11).blk t).view.set ↔ ∀ a : Fin 2, win3_11.index t a * S5000x1.size a ≤ (i a).val ∧ (i a).val < win3_11.index t a * S5000x1.size a + S5000x1.size a := by
  show i ∈ ((View.whole main_v90).slice (win3_11.rect t)).set ↔ _
  rw [View.set_slice_whole, Rect.mem_set_unit]
  exact Iff.rfl

/-- The forty blocks tile the 200000 rows: row `r` is in the block of point `r / 5000`. -/
theorem cover (i : S200000x1.Idx) : ∃ t : Fin cfg3.N, (cfg3.win 11).flush t = true ∧ i ∈ ((cfg3.win 11).blk t).view.set := by
  have hi0 : (i 0).val < 200000 := (i 0).isLt
  have hi1 : (i 1).val < 1 := (i 1).isLt
  have hN : cfg3.N = 40 := N_3
  have ht : (i 0).val / 5000 < cfg3.N := by rw [hN]; omega
  obtain ⟨o0, o1⟩ := idx_out ⟨(i 0).val / 5000, ht⟩
  refine ⟨⟨(i 0).val / 5000, ht⟩, flush3_11 _, ?_⟩
  rw [mem_blk]
  intro a
  match a with
  | ⟨0, _⟩ =>
    show win3_11.index ⟨(i 0).val / 5000, ht⟩ (0 : Fin 2) * 5000 ≤ (i 0).val ∧ (i 0).val < win3_11.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win3_11.index ⟨(i 0).val / 5000, ht⟩ (1 : Fin 2) * 1 ≤ (i 1).val ∧ (i 1).val < win3_11.index ⟨(i 0).val / 5000, ht⟩ (1 : Fin 2) * 1 + 1
    omega

/-- Region 3's output array [200000, 1] after the run, as one row-wise function of the arrays the region finds on entry. -/
theorem arr (c : Dev nD) :
    (dat3 V c).arrAt 11 cfg3.N
      = addRow (mm (relu (addRow
          (add (add (mm (scaleCol (V c main_v80) (V c main_v27)) (V c main_v86))
                    (mm (scaleCol (V c main_v84) (V c main_v32)) (V c main_v88)))
               (mm (V c main_v62_1) (V c main_v48)))
          (V c main_v54))) (V c main_arg9)) (V c main_v89) :=
  (dat3 V c).arrAt_eq_of_cover 11 (G V c) (fun t _ => flushed_eq V c t) cover

end Cert.KernelIdeal.Reg3

end
-- ==== Proof.KHost3.lean ====
/-
  The kernel's program from its third region's exit to its result, at the ideal values: the two jnp.take calls on the
  card and email tables and the segment sums of their rows into the transactions, the weight slices and the reshaped
  classifier bias the last stretches make, the buffers that the earlier stretches made and nothing since has written,
  the last region's output array as a row-wise function of all of these, and the result buffer as its reshape.
-/
import proofs.«412835_j24404004176459_1_alg».proof.Proof.Gen.KernelIdeal.Frame
import proofs.«412835_j24404004176459_1_alg».proof.Proof.RowOps
import proofs.«412835_j24404004176459_1_alg».proof.Proof.KHost2
import proofs.«412835_j24404004176459_1_alg».proof.Proof.Reg3
import proofs.«412835_j24404004176459_1_alg».proof.Proof.KDefs
set_option maxRecDepth 16384

noncomputable section

namespace Cert.KernelIdeal.Host

open Cert.KernelIdeal Cert.KernelIdeal.Gen Cert.RowOps
open Idealize.ShloMosaic Idealize.ShloMosaic.TcCoe Idealize.SL.Sem Idealize.ShloMosaic.StableHlo

variable (m : (ℓ : Loc nD τ sig) → Buf (Elt Ideal) ℓ) (ρ : Dev nD → PrngReg)

/-- No operation of the named stretch writes the buffer in question: the stretch leaves it as it found it. -/
macro "not_written" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Buffers nothing writes after the first region -/

theorem W2_main_arg6 (c : Dev nD) : W2 m ρ c (Proc.devRef .tc main_arg6) = (m ((c : Thread nD τ).loc main_arg6)) :=
  (W2_of_ne m ρ c main_arg6 (by decide)).trans (show W1 m ρ c (Proc.devRef .tc main_arg6) = W0 m ρ c (Proc.devRef .tc main_arg6) from by show StableHlo.after hostOps0 (W0 m ρ c) (Proc.devRef .tc main_arg6) = _; not_written hostOps0)
theorem W8_main_arg6 (c : Dev nD) : W8 m ρ c (Proc.devRef .tc main_arg6) = (m ((c : Thread nD τ).loc main_arg6)) :=
  (W8_keep_main_arg6 m ρ c).trans ((W5_keep_main_arg6 m ρ c).trans (W2_main_arg6 m ρ c))
theorem W2_main_arg9 (c : Dev nD) : W2 m ρ c (Proc.devRef .tc main_arg9) = (m ((c : Thread nD τ).loc main_arg9)) :=
  (W2_of_ne m ρ c main_arg9 (by decide)).trans (show W1 m ρ c (Proc.devRef .tc main_arg9) = W0 m ρ c (Proc.devRef .tc main_arg9) from by show StableHlo.after hostOps0 (W0 m ρ c) (Proc.devRef .tc main_arg9) = _; not_written hostOps0)
theorem W8_main_arg9 (c : Dev nD) : W8 m ρ c (Proc.devRef .tc main_arg9) = (m ((c : Thread nD τ).loc main_arg9)) :=
  (W8_keep_main_arg9 m ρ c).trans ((W5_keep_main_arg9 m ρ c).trans (W2_main_arg9 m ρ c))
theorem W2_main_arg10 (c : Dev nD) : W2 m ρ c (Proc.devRef .tc main_arg10) = (m ((c : Thread nD τ).loc main_arg10)) :=
  (W2_of_ne m ρ c main_arg10 (by decide)).trans (show W1 m ρ c (Proc.devRef .tc main_arg10) = W0 m ρ c (Proc.devRef .tc main_arg10) from by show StableHlo.after hostOps0 (W0 m ρ c) (Proc.devRef .tc main_arg10) = _; not_written hostOps0)
theorem W8_main_arg10 (c : Dev nD) : W8 m ρ c (Proc.devRef .tc main_arg10) = (m ((c : Thread nD τ).loc main_arg10)) :=
  (W8_keep_main_arg10 m ρ c).trans ((W5_keep_main_arg10 m ρ c).trans (W2_main_arg10 m ρ c))
theorem W2_main_arg11 (c : Dev nD) : W2 m ρ c (Proc.devRef .tc main_arg11) = (m ((c : Thread nD τ).loc main_arg11)) :=
  (W2_of_ne m ρ c main_arg11 (by decide)).trans (show W1 m ρ c (Proc.devRef .tc main_arg11) = W0 m ρ c (Proc.devRef .tc main_arg11) from by show StableHlo.after hostOps0 (W0 m ρ c) (Proc.devRef .tc main_arg11) = _; not_written hostOps0)
theorem W8_main_arg11 (c : Dev nD) : W8 m ρ c (Proc.devRef .tc main_arg11) = (m ((c : Thread nD τ).loc main_arg11)) :=
  (W8_keep_main_arg11 m ρ c).trans ((W5_keep_main_arg11 m ρ c).trans (W2_main_arg11 m ρ c))
theorem W2_main_arg12 (c : Dev nD) : W2 m ρ c (Proc.devRef .tc main_arg12) = (m ((c : Thread nD τ).loc main_arg12)) :=
  (W2_of_ne m ρ c main_arg12 (by decide)).trans (show W1 m ρ c (Proc.devRef .tc main_arg12) = W0 m ρ c (Proc.devRef .tc main_arg12) from by show StableHlo.after hostOps0 (W0 m ρ c) (Proc.devRef .tc main_arg12) = _; not_written hostOps0)
theorem W8_main_arg12 (c : Dev nD) : W8 m ρ c (Proc.devRef .tc main_arg12) = (m ((c : Thread nD τ).loc main_arg12)) :=
  (W8_keep_main_arg12 m ρ c).trans ((W5_keep_main_arg12 m ρ c).trans (W2_main_arg12 m ρ c))
theorem W2_main_arg13 (c : Dev nD) : W2 m ρ c (Proc.devRef .tc main_arg13) = (m ((c : Thread nD τ).loc main_arg13)) :=
  (W2_of_ne m ρ c main_arg13 (by decide)).trans (show W1 m ρ c (Proc.devRef .tc main_arg13) = W0 m ρ c (Proc.devRef .tc main_arg13) from by show StableHlo.after hostOps0 (W0 m ρ c) (Proc.devRef .tc main_arg13) = _; not_written hostOps0)
theorem W8_main_arg13 (c : Dev nD) : W8 m ρ c (Proc.devRef .tc main_arg13) = (m ((c : Thread nD τ).loc main_arg13)) :=
  (W8_keep_main_arg13 m ρ c).trans ((W5_keep_main_arg13 m ρ c).trans (W2_main_arg13 m ρ c))
theorem W2_main_arg14 (c : Dev nD) : W2 m ρ c (Proc.devRef .tc main_arg14) = (m ((c : Thread nD τ).loc main_arg14)) :=
  (W2_of_ne m ρ c main_arg14 (by decide)).trans (show W1 m ρ c (Proc.devRef .tc main_arg14) = W0 m ρ c (Proc.devRef .tc main_arg14) from by show StableHlo.after hostOps0 (W0 m ρ c) (Proc.devRef .tc main_arg14) = _; not_written hostOps0)
theorem W8_main_arg14 (c : Dev nD) : W8 m ρ c (Proc.devRef .tc main_arg14) = (m ((c : Thread nD τ).loc main_arg14)) :=
  (W8_keep_main_arg14 m ρ c).trans ((W5_keep_main_arg14 m ρ c).trans (W2_main_arg14 m ρ c))

/-! ## What the first stretch made for the last region -/

theorem W1_main_v27 (c : Dev nD) : W1 m ρ c (Proc.devRef .tc main_v27) = inv200k (m ((c : Thread nD τ).loc main_arg11)) := by
  show StableHlo.after hostOps0 (W0 m ρ c) (Proc.devRef .tc main_v27) = _
  after_results_simp <;> rfl
theorem W8_main_v27 (c : Dev nD) : W8 m ρ c (Proc.devRef .tc main_v27) = inv200k (m ((c : Thread nD τ).loc main_arg11)) :=
  (W8_keep_main_v27 m ρ c).trans ((W5_keep_main_v27 m ρ c).trans ((W2_of_ne m ρ c main_v27 (by decide)).trans (W1_main_v27 m ρ c)))
theorem W1_main_v32 (c : Dev nD) : W1 m ρ c (Proc.devRef .tc main_v32) = inv200k (m ((c : Thread nD τ).loc main_arg13)) := by
  show StableHlo.after hostOps0 (W0 m ρ c) (Proc.devRef .tc main_v32) = _
  after_results_simp <;> rfl
theorem W8_main_v32 (c : Dev nD) : W8 m ρ c (Proc.devRef .tc main_v32) = inv200k (m ((c : Thread nD τ).loc main_arg13)) :=
  (W8_keep_main_v32 m ρ c).trans ((W5_keep_main_v32 m ρ c).trans ((W2_of_ne m ρ c main_v32 (by decide)).trans (W1_main_v32 m ρ c)))
theorem W1_main_v48 (c : Dev nD) : W1 m ρ c (Proc.devRef .tc main_v48) = (addf (mat4 (m ((c : Thread nD τ).loc main_arg8)) 1 slices_S4x128x128_S1x128x128_1_0_0) (mat4 (m ((c : Thread nD τ).loc main_arg8)) 3 slices_S4x128x128_S1x128x128_3_0_0) : FVec Ideal S128x128 .f32) := by
  show StableHlo.after hostOps0 (W0 m ρ c) (Proc.devRef .tc main_v48) = _
  after_results_simp <;> rfl
theorem W8_main_v48 (c : Dev nD) : W8 m ρ c (Proc.devRef .tc main_v48) = (addf (mat4 (m ((c : Thread nD τ).loc main_arg8)) 1 slices_S4x128x128_S1x128x128_1_0_0) (mat4 (m ((c : Thread nD τ).loc main_arg8)) 3 slices_S4x128x128_S1x128x128_3_0_0) : FVec Ideal S128x128 .f32) :=
  (W8_keep_main_v48 m ρ c).trans ((W5_keep_main_v48 m ρ c).trans ((W2_of_ne m ρ c main_v48 (by decide)).trans (W1_main_v48 m ρ c)))
theorem W1_main_v54 (c : Dev nD) : W1 m ρ c (Proc.devRef .tc main_v54) = (shapeCast S1x128 (addf (row4 (m ((c : Thread nD τ).loc main_arg7)) 1 slices_S4x128_S1x128_1_0) (row4 (m ((c : Thread nD τ).loc main_arg7)) 3 slices_S4x128_S1x128_3_0)) shapeCasts_S128_S1x128 : FVec Ideal S1x128 .f32) := by
  show StableHlo.after hostOps0 (W0 m ρ c) (Proc.devRef .tc main_v54) = _
  after_results_simp <;> rfl
theorem W8_main_v54 (c : Dev nD) : W8 m ρ c (Proc.devRef .tc main_v54) = (shapeCast S1x128 (addf (row4 (m ((c : Thread nD τ).loc main_arg7)) 1 slices_S4x128_S1x128_1_0) (row4 (m ((c : Thread nD τ).loc main_arg7)) 3 slices_S4x128_S1x128_3_0)) shapeCasts_S128_S1x128 : FVec Ideal S1x128 .f32) :=
  (W8_keep_main_v54 m ρ c).trans ((W5_keep_main_v54 m ρ c).trans ((W2_of_ne m ρ c main_v54 (by decide)).trans (W1_main_v54 m ρ c)))
theorem W8_main_v62_1 (c : Dev nD) : W8 m ρ c (Proc.devRef .tc main_v62_1) = h1 m c :=
  (W8_keep_main_v62_1 m ρ c).trans ((W5_keep_main_v62_1 m ρ c).trans (W2_v62_1 m ρ c))
theorem W8_main_v69 (c : Dev nD) : W8 m ρ c (Proc.devRef .tc main_v69) = card m c :=
  (W8_keep_main_v69 m ρ c).trans (W5_v69 m ρ c)

/-! ## Across the four stretches before the last region -/

theorem W12_keep_main_arg9 (c : Dev nD) : W12 m ρ c (Proc.devRef .tc main_arg9) = W8 m ρ c (Proc.devRef .tc main_arg9) :=
  ((show W12 m ρ c (Proc.devRef .tc main_arg9) = W11 m ρ c (Proc.devRef .tc main_arg9) from by show StableHlo.after hostOps3_3 (W11 m ρ c) (Proc.devRef .tc main_arg9) = _; not_written hostOps3_3)).trans (((show W11 m ρ c (Proc.devRef .tc main_arg9) = W10 m ρ c (Proc.devRef .tc main_arg9) from by show StableHlo.after hostOps3_2 (W10 m ρ c) (Proc.devRef .tc main_arg9) = _; not_written hostOps3_2)).trans (((show W10 m ρ c (Proc.devRef .tc main_arg9) = W9 m ρ c (Proc.devRef .tc main_arg9) from by show StableHlo.after hostOps3_1 (W9 m ρ c) (Proc.devRef .tc main_arg9) = _; not_written hostOps3_1)).trans ((show W9 m ρ c (Proc.devRef .tc main_arg9) = W8 m ρ c (Proc.devRef .tc main_arg9) from by show StableHlo.after hostOps3 (W8 m ρ c) (Proc.devRef .tc main_arg9) = _; not_written hostOps3))))
theorem W12_keep_main_v62_1 (c : Dev nD) : W12 m ρ c (Proc.devRef .tc main_v62_1) = W8 m ρ c (Proc.devRef .tc main_v62_1) :=
  ((show W12 m ρ c (Proc.devRef .tc main_v62_1) = W11 m ρ c (Proc.devRef .tc main_v62_1) from by show StableHlo.after hostOps3_3 (W11 m ρ c) (Proc.devRef .tc main_v62_1) = _; not_written hostOps3_3)).trans (((show W11 m ρ c (Proc.devRef .tc main_v62_1) = W10 m ρ c (Proc.devRef .tc main_v62_1) from by show StableHlo.after hostOps3_2 (W10 m ρ c) (Proc.devRef .tc main_v62_1) = _; not_written hostOps3_2)).trans (((show W10 m ρ c (Proc.devRef .tc main_v62_1) = W9 m ρ c (Proc.devRef .tc main_v62_1) from by show StableHlo.after hostOps3_1 (W9 m ρ c) (Proc.devRef .tc main_v62_1) = _; not_written hostOps3_1)).trans ((show W9 m ρ c (Proc.devRef .tc main_v62_1) = W8 m ρ c (Proc.devRef .tc main_v62_1) from by show StableHlo.after hostOps3 (W8 m ρ c) (Proc.devRef .tc main_v62_1) = _; not_written hostOps3))))
theorem W12_keep_main_v27 (c : Dev nD) : W12 m ρ c (Proc.devRef .tc main_v27) = W8 m ρ c (Proc.devRef .tc main_v27) :=
  ((show W12 m ρ c (Proc.devRef .tc main_v27) = W11 m ρ c (Proc.devRef .tc main_v27) from by show StableHlo.after hostOps3_3 (W11 m ρ c) (Proc.devRef .tc main_v27) = _; not_written hostOps3_3)).trans (((show W11 m ρ c (Proc.devRef .tc main_v27) = W10 m ρ c (Proc.devRef .tc main_v27) from by show StableHlo.after hostOps3_2 (W10 m ρ c) (Proc.devRef .tc main_v27) = _; not_written hostOps3_2)).trans (((show W10 m ρ c (Proc.devRef .tc main_v27) = W9 m ρ c (Proc.devRef .tc main_v27) from by show StableHlo.after hostOps3_1 (W9 m ρ c) (Proc.devRef .tc main_v27) = _; not_written hostOps3_1)).trans ((show W9 m ρ c (Proc.devRef .tc main_v27) = W8 m ρ c (Proc.devRef .tc main_v27) from by show StableHlo.after hostOps3 (W8 m ρ c) (Proc.devRef .tc main_v27) = _; not_written hostOps3))))
theorem W12_keep_main_v32 (c : Dev nD) : W12 m ρ c (Proc.devRef .tc main_v32) = W8 m ρ c (Proc.devRef .tc main_v32) :=
  ((show W12 m ρ c (Proc.devRef .tc main_v32) = W11 m ρ c (Proc.devRef .tc main_v32) from by show StableHlo.after hostOps3_3 (W11 m ρ c) (Proc.devRef .tc main_v32) = _; not_written hostOps3_3)).trans (((show W11 m ρ c (Proc.devRef .tc main_v32) = W10 m ρ c (Proc.devRef .tc main_v32) from by show StableHlo.after hostOps3_2 (W10 m ρ c) (Proc.devRef .tc main_v32) = _; not_written hostOps3_2)).trans (((show W10 m ρ c (Proc.devRef .tc main_v32) = W9 m ρ c (Proc.devRef .tc main_v32) from by show StableHlo.after hostOps3_1 (W9 m ρ c) (Proc.devRef .tc main_v32) = _; not_written hostOps3_1)).trans ((show W9 m ρ c (Proc.devRef .tc main_v32) = W8 m ρ c (Proc.devRef .tc main_v32) from by show StableHlo.after hostOps3 (W8 m ρ c) (Proc.devRef .tc main_v32) = _; not_written hostOps3))))
theorem W12_keep_main_v48 (c : Dev nD) : W12 m ρ c (Proc.devRef .tc main_v48) = W8 m ρ c (Proc.devRef .tc main_v48) :=
  ((show W12 m ρ c (Proc.devRef .tc main_v48) = W11 m ρ c (Proc.devRef .tc main_v48) from by show StableHlo.after hostOps3_3 (W11 m ρ c) (Proc.devRef .tc main_v48) = _; not_written hostOps3_3)).trans (((show W11 m ρ c (Proc.devRef .tc main_v48) = W10 m ρ c (Proc.devRef .tc main_v48) from by show StableHlo.after hostOps3_2 (W10 m ρ c) (Proc.devRef .tc main_v48) = _; not_written hostOps3_2)).trans (((show W10 m ρ c (Proc.devRef .tc main_v48) = W9 m ρ c (Proc.devRef .tc main_v48) from by show StableHlo.after hostOps3_1 (W9 m ρ c) (Proc.devRef .tc main_v48) = _; not_written hostOps3_1)).trans ((show W9 m ρ c (Proc.devRef .tc main_v48) = W8 m ρ c (Proc.devRef .tc main_v48) from by show StableHlo.after hostOps3 (W8 m ρ c) (Proc.devRef .tc main_v48) = _; not_written hostOps3))))
theorem W12_keep_main_v54 (c : Dev nD) : W12 m ρ c (Proc.devRef .tc main_v54) = W8 m ρ c (Proc.devRef .tc main_v54) :=
  ((show W12 m ρ c (Proc.devRef .tc main_v54) = W11 m ρ c (Proc.devRef .tc main_v54) from by show StableHlo.after hostOps3_3 (W11 m ρ c) (Proc.devRef .tc main_v54) = _; not_written hostOps3_3)).trans (((show W11 m ρ c (Proc.devRef .tc main_v54) = W10 m ρ c (Proc.devRef .tc main_v54) from by show StableHlo.after hostOps3_2 (W10 m ρ c) (Proc.devRef .tc main_v54) = _; not_written hostOps3_2)).trans (((show W10 m ρ c (Proc.devRef .tc main_v54) = W9 m ρ c (Proc.devRef .tc main_v54) from by show StableHlo.after hostOps3_1 (W9 m ρ c) (Proc.devRef .tc main_v54) = _; not_written hostOps3_1)).trans ((show W9 m ρ c (Proc.devRef .tc main_v54) = W8 m ρ c (Proc.devRef .tc main_v54) from by show StableHlo.after hostOps3 (W8 m ρ c) (Proc.devRef .tc main_v54) = _; not_written hostOps3))))

/-- The card rows taken along the card edges. -/
theorem W9_main_v77 (c : Dev nD) : W9 m ρ c (Proc.devRef .tc main_v77) = take80k (card m c) (m ((c : Thread nD τ).loc main_arg12)) := by
  have e : W9 m ρ c (Proc.devRef .tc main_v77) = take80k (W8 m ρ c (Proc.devRef .tc main_v69)) (W8 m ρ c (Proc.devRef .tc main_arg12)) := by
    show StableHlo.after hostOps3 (W8 m ρ c) (Proc.devRef .tc main_v77) = _
    after_results_simp
    simp only [TRef.ofBuf, TRef.toBuf, cast_eq]
  rw [e, W8_main_v69, W8_main_arg12]

/-- Their sums into the transactions. -/
theorem W10_main_v80 (c : Dev nD) : W10 m ρ c (Proc.devRef .tc main_v80) = seg200k (m ((c : Thread nD τ).loc main_arg11)) (take80k (card m c) (m ((c : Thread nD τ).loc main_arg12))) := by
  have e : W10 m ρ c (Proc.devRef .tc main_v80) = seg200k (W9 m ρ c (Proc.devRef .tc main_arg11)) (W9 m ρ c (Proc.devRef .tc main_v77)) := by
    show StableHlo.after hostOps3_1 (W9 m ρ c) (Proc.devRef .tc main_v80) = _
    after_results_simp <;> rfl
  rw [e, W9_main_v77, (show W9 m ρ c (Proc.devRef .tc main_arg11) = W8 m ρ c (Proc.devRef .tc main_arg11) from by show StableHlo.after hostOps3 (W8 m ρ c) (Proc.devRef .tc main_arg11) = _; not_written hostOps3), W8_main_arg11]

theorem W12_main_v80 (c : Dev nD) : W12 m ρ c (Proc.devRef .tc main_v80) = seg200k (m ((c : Thread nD τ).loc main_arg11)) (take80k (card m c) (m ((c : Thread nD τ).loc main_arg12))) :=
  ((show W12 m ρ c (Proc.devRef .tc main_v80) = W11 m ρ c (Proc.devRef .tc main_v80) from by show StableHlo.after hostOps3_3 (W11 m ρ c) (Proc.devRef .tc main_v80) = _; not_written hostOps3_3)).trans (((show W11 m ρ c (Proc.devRef .tc main_v80) = W10 m ρ c (Proc.devRef .tc main_v80) from by show StableHlo.after hostOps3_2 (W10 m ρ c) (Proc.devRef .tc main_v80) = _; not_written hostOps3_2)).trans (W10_main_v80 m ρ c))

/-- The email rows taken along the email edges. -/
theorem W11_main_v81 (c : Dev nD) : W11 m ρ c (Proc.devRef .tc main_v81) = take60k (email m c) (m ((c : Thread nD τ).loc main_arg14)) := by
  have e : W11 m ρ c (Proc.devRef .tc main_v81) = take60k (W10 m ρ c (Proc.devRef .tc main_v76)) (W10 m ρ c (Proc.devRef .tc main_arg14)) := by
    show StableHlo.after hostOps3_2 (W10 m ρ c) (Proc.devRef .tc main_v81) = _
    after_results_simp
    simp only [TRef.ofBuf, TRef.toBuf, cast_eq]
  rw [e, ((show W10 m ρ c (Proc.devRef .tc main_v76) = W9 m ρ c (Proc.devRef .tc main_v76) from by show StableHlo.after hostOps3_1 (W9 m ρ c) (Proc.devRef .tc main_v76) = _; not_written hostOps3_1)).trans (((show W9 m ρ c (Proc.devRef .tc main_v76) = W8 m ρ c (Proc.devRef .tc main_v76) from by show StableHlo.after hostOps3 (W8 m ρ c) (Proc.devRef .tc main_v76) = _; not_written hostOps3)).trans (W8_v76 m ρ c)),
    ((show W10 m ρ c (Proc.devRef .tc main_arg14) = W9 m ρ c (Proc.devRef .tc main_arg14) from by show StableHlo.after hostOps3_1 (W9 m ρ c) (Proc.devRef .tc main_arg14) = _; not_written hostOps3_1)).trans (((show W9 m ρ c (Proc.devRef .tc main_arg14) = W8 m ρ c (Proc.devRef .tc main_arg14) from by show StableHlo.after hostOps3 (W8 m ρ c) (Proc.devRef .tc main_arg14) = _; not_written hostOps3)).trans (W8_main_arg14 m ρ c))]

/-- Their sums into the transactions. -/
theorem W12_main_v84 (c : Dev nD) : W12 m ρ c (Proc.devRef .tc main_v84) = seg200k (m ((c : Thread nD τ).loc main_arg13)) (take60k (email m c) (m ((c : Thread nD τ).loc main_arg14))) := by
  have e : W12 m ρ c (Proc.devRef .tc main_v84) = seg200k (W11 m ρ c (Proc.devRef .tc main_arg13)) (W11 m ρ c (Proc.devRef .tc main_v81)) := by
    show StableHlo.after hostOps3_3 (W11 m ρ c) (Proc.devRef .tc main_v84) = _
    after_results_simp <;> rfl
  rw [e, W11_main_v81, ((show W11 m ρ c (Proc.devRef .tc main_arg13) = W10 m ρ c (Proc.devRef .tc main_arg13) from by show StableHlo.after hostOps3_2 (W10 m ρ c) (Proc.devRef .tc main_arg13) = _; not_written hostOps3_2)).trans (((show W10 m ρ c (Proc.devRef .tc main_arg13) = W9 m ρ c (Proc.devRef .tc main_arg13) from by show StableHlo.after hostOps3_1 (W9 m ρ c) (Proc.devRef .tc main_arg13) = _; not_written hostOps3_1)).trans (((show W9 m ρ c (Proc.devRef .tc main_arg13) = W8 m ρ c (Proc.devRef .tc main_arg13) from by show StableHlo.after hostOps3 (W8 m ρ c) (Proc.devRef .tc main_arg13) = _; not_written hostOps3)).trans (W8_main_arg13 m ρ c)))]

theorem W11_main_arg6 (c : Dev nD) : W11 m ρ c (Proc.devRef .tc main_arg6) = (m ((c : Thread nD τ).loc main_arg6)) :=
  ((show W11 m ρ c (Proc.devRef .tc main_arg6) = W10 m ρ c (Proc.devRef .tc main_arg6) from by show StableHlo.after hostOps3_2 (W10 m ρ c) (Proc.devRef .tc main_arg6) = _; not_written hostOps3_2)).trans (((show W10 m ρ c (Proc.devRef .tc main_arg6) = W9 m ρ c (Proc.devRef .tc main_arg6) from by show StableHlo.after hostOps3_1 (W9 m ρ c) (Proc.devRef .tc main_arg6) = _; not_written hostOps3_1)).trans (((show W9 m ρ c (Proc.devRef .tc main_arg6) = W8 m ρ c (Proc.devRef .tc main_arg6) from by show StableHlo.after hostOps3 (W8 m ρ c) (Proc.devRef .tc main_arg6) = _; not_written hostOps3)).trans (W8_main_arg6 m ρ c)))
theorem W11_main_arg10 (c : Dev nD) : W11 m ρ c (Proc.devRef .tc main_arg10) = (m ((c : Thread nD τ).loc main_arg10)) :=
  ((show W11 m ρ c (Proc.devRef .tc main_arg10) = W10 m ρ c (Proc.devRef .tc main_arg10) from by show StableHlo.after hostOps3_2 (W10 m ρ c) (Proc.devRef .tc main_arg10) = _; not_written hostOps3_2)).trans (((show W10 m ρ c (Proc.devRef .tc main_arg10) = W9 m ρ c (Proc.devRef .tc main_arg10) from by show StableHlo.after hostOps3_1 (W9 m ρ c) (Proc.devRef .tc main_arg10) = _; not_written hostOps3_1)).trans (((show W9 m ρ c (Proc.devRef .tc main_arg10) = W8 m ρ c (Proc.devRef .tc main_arg10) from by show StableHlo.after hostOps3 (W8 m ρ c) (Proc.devRef .tc main_arg10) = _; not_written hostOps3)).trans (W8_main_arg10 m ρ c)))

theorem W12_main_v86 (c : Dev nD) : W12 m ρ c (Proc.devRef .tc main_v86) = mat4 (m ((c : Thread nD τ).loc main_arg6)) 1 slices_S4x128x128_S1x128x128_1_0_0 := by
  have e : W12 m ρ c (Proc.devRef .tc main_v86) = mat4 (W11 m ρ c (Proc.devRef .tc main_arg6)) 1 slices_S4x128x128_S1x128x128_1_0_0 := by
    show StableHlo.after hostOps3_3 (W11 m ρ c) (Proc.devRef .tc main_v86) = _
    after_results_simp <;> rfl
  rw [e, W11_main_arg6]
theorem W12_main_v88 (c : Dev nD) : W12 m ρ c (Proc.devRef .tc main_v88) = mat4 (m ((c : Thread nD τ).loc main_arg6)) 3 slices_S4x128x128_S1x128x128_3_0_0 := by
  have e : W12 m ρ c (Proc.devRef .tc main_v88) = mat4 (W11 m ρ c (Proc.devRef .tc main_arg6)) 3 slices_S4x128x128_S1x128x128_3_0_0 := by
    show StableHlo.after hostOps3_3 (W11 m ρ c) (Proc.devRef .tc main_v88) = _
    after_results_simp <;> rfl
  rw [e, W11_main_arg6]
theorem W12_main_v89 (c : Dev nD) : W12 m ρ c (Proc.devRef .tc main_v89) = (shapeCast S1x1 (m ((c : Thread nD τ).loc main_arg10)) shapeCasts_S1_S1x1 : FVec Ideal S1x1 .f32) := by
  have e : W12 m ρ c (Proc.devRef .tc main_v89) = (shapeCast S1x1 (W11 m ρ c (Proc.devRef .tc main_arg10)) shapeCasts_S1_S1x1 : FVec Ideal S1x1 .f32) := by
    show StableHlo.after hostOps3_3 (W11 m ρ c) (Proc.devRef .tc main_v89) = _
    after_results_simp <;> rfl
  rw [e, W11_main_arg10]

/-! ## The last region's output and the result -/

/-- The transaction features after the second layer, before the classifier. -/
abbrev tx2 (c : Dev nD) : Mat 200000 128 :=
  relu (addRow
    (add (add (mm (scaleCol (seg200k (m ((c : Thread nD τ).loc main_arg11)) (take80k (card m c) (m ((c : Thread nD τ).loc main_arg12)))) (inv200k (m ((c : Thread nD τ).loc main_arg11)))) (mat4 (m ((c : Thread nD τ).loc main_arg6)) 1 slices_S4x128x128_S1x128x128_1_0_0))
              (mm (scaleCol (seg200k (m ((c : Thread nD τ).loc main_arg13)) (take60k (email m c) (m ((c : Thread nD τ).loc main_arg14)))) (inv200k (m ((c : Thread nD τ).loc main_arg13)))) (mat4 (m ((c : Thread nD τ).loc main_arg6)) 3 slices_S4x128x128_S1x128x128_3_0_0)))
         (mm (h1 m c) (addf (mat4 (m ((c : Thread nD τ).loc main_arg8)) 1 slices_S4x128x128_S1x128x128_1_0_0) (mat4 (m ((c : Thread nD τ).loc main_arg8)) 3 slices_S4x128x128_S1x128x128_3_0_0) : FVec Ideal S128x128 .f32)))
    (shapeCast S1x128 (addf (row4 (m ((c : Thread nD τ).loc main_arg7)) 1 slices_S4x128_S1x128_1_0) (row4 (m ((c : Thread nD τ).loc main_arg7)) 3 slices_S4x128_S1x128_3_0)) shapeCasts_S128_S1x128 : FVec Ideal S1x128 .f32))

/-- The classifier's output as a column. -/
abbrev out2d (c : Dev nD) : Mat 200000 1 :=
  addRow (mm (tx2 m c) (m ((c : Thread nD τ).loc main_arg9))) (shapeCast S1x1 (m ((c : Thread nD τ).loc main_arg10)) shapeCasts_S1_S1x1 : FVec Ideal S1x1 .f32)

theorem W13_main_v90 (c : Dev nD) : W13 m ρ c (Proc.devRef .tc main_v90) = out2d m c := by
  show W13 m ρ c (Proc.devRef .tc (Pipeline.arrRef spec3 11)) = _
  rw [W13_arr m ρ c 11, Cert.KernelIdeal.Reg3.arr (V12 m ρ) c]
  show addRow (mm (relu (addRow (add (add (mm (scaleCol (W12 m ρ c (Proc.devRef .tc main_v80)) (W12 m ρ c (Proc.devRef .tc main_v27))) (W12 m ρ c (Proc.devRef .tc main_v86)))
      (mm (scaleCol (W12 m ρ c (Proc.devRef .tc main_v84)) (W12 m ρ c (Proc.devRef .tc main_v32))) (W12 m ρ c (Proc.devRef .tc main_v88))))
      (mm (W12 m ρ c (Proc.devRef .tc main_v62_1)) (W12 m ρ c (Proc.devRef .tc main_v48)))) (W12 m ρ c (Proc.devRef .tc main_v54)))) (W12 m ρ c (Proc.devRef .tc main_arg9))) (W12 m ρ c (Proc.devRef .tc main_v89)) = _
  rw [W12_main_v80, W12_main_v84, W12_main_v86, W12_main_v88, W12_main_v89,
    W12_keep_main_v27, W8_main_v27, W12_keep_main_v32, W8_main_v32, W12_keep_main_v62_1, W8_main_v62_1,
    W12_keep_main_v48, W8_main_v48, W12_keep_main_v54, W8_main_v54, W12_keep_main_arg9, W8_main_arg9]

/-- THE KERNEL'S RESULT: the classifier's column read as a vector. -/
theorem W14_main_v91 (c : Dev nD) : W14 m ρ c (Proc.devRef .tc main_v91)
    = (shapeCast S200000 (out2d m c) shapeCasts_S200000x1_S200000 : FVec Ideal S200000 .f32) := by
  have e : W14 m ρ c (Proc.devRef .tc main_v91) = (shapeCast S200000 (W13 m ρ c (Proc.devRef .tc main_v90)) shapeCasts_S200000x1_S200000 : FVec Ideal S200000 .f32) := by
    show StableHlo.after hostOps4 (W13 m ρ c) (Proc.devRef .tc main_v91) = _
    after_results_simp <;> rfl
  rw [e, W13_main_v90]

end Cert.KernelIdeal.Host

end
-- ==== Proof.Alg.lean ====
/-
  Algebra on the extended reals used to join the two programs: which entries are real numbers (sums, products and
  maxima of real numbers are real), the distributive law h · (a + b) = h · a + h · b under a sum when every factor is a
  real number (it fails at the infinities), the quotient by a nonzero number as the product with its reciprocal, and the
  regroupings of a layer's terms, which need only that addition is commutative and associative.
-/
import Idealize.ShloMosaic.PureOps.Ideal

noncomputable section

namespace Cert.Alg

open Idealize.ShloMosaic

/-- x is a real number (neither infinity). -/
def IsFin (x : EReal) : Prop := ∃ r : ℝ, x = (r : EReal)

theorem isFin_zero : IsFin 0 := ⟨0, EReal.coe_zero.symm⟩
theorem isFin_coe (r : ℝ) : IsFin (r : EReal) := ⟨r, rfl⟩
theorem IsFin.add {x y : EReal} (hx : IsFin x) (hy : IsFin y) : IsFin (x + y) := by
  obtain ⟨a, rfl⟩ := hx
  obtain ⟨b, rfl⟩ := hy
  exact ⟨a + b, (EReal.coe_add a b).symm⟩
theorem IsFin.mul {x y : EReal} (hx : IsFin x) (hy : IsFin y) : IsFin (x * y) := by
  obtain ⟨a, rfl⟩ := hx
  obtain ⟨b, rfl⟩ := hy
  exact ⟨a * b, (EReal.coe_mul a b).symm⟩
theorem IsFin.max {x y : EReal} (hx : IsFin x) (hy : IsFin y) : IsFin (max x y) := by
  -- the order is total, so the maximum is one of the two
  rcases le_total x y with h | h
  · rw [max_eq_right h]; exact hy
  · rw [max_eq_left h]; exact hx
theorem isFin_sum {ι : Type} (s : Finset ι) (f : ι → EReal) (h : ∀ k ∈ s, IsFin (f k)) : IsFin (∑ k ∈ s, f k) := by
  classical
  -- induction on the index set: the empty sum is 0, and one more term is a sum of two real numbers
  induction s using Finset.induction_on with
  | empty => rw [Finset.sum_empty]; exact isFin_zero
  | insert a s ha ih =>
    rw [Finset.sum_insert ha]
    exact (h a (Finset.mem_insert_self a s)).add (ih (fun k hk => h k (Finset.mem_insert_of_mem hk)))
/-- |x| < +∞ (the absolute value as the larger of x and −x) makes x a real number. -/
theorem isFin_of_abs_lt_top {x : EReal} (h : max x (-x) < ⊤) : IsFin x := by
  -- at either infinity one of x, −x is +∞, so the maximum is +∞
  induction x using EReal.rec with
  | bot => simp at h
  | coe r => exact ⟨r, rfl⟩
  | top => simp at h

/-- The distributive law under a sum, every factor a real number. -/
theorem sum_mul_add {ι : Type} [Fintype ι] (h a b : ι → EReal) (hh : ∀ k, IsFin (h k)) (ha : ∀ k, IsFin (a k))
    (hb : ∀ k, IsFin (b k)) : ∑ k, h k * (a k + b k) = (∑ k, h k * a k) + ∑ k, h k * b k := by
  -- term by term: on real numbers the law is the distributive law of ℝ
  rw [← Finset.sum_add_distrib]
  refine Finset.sum_congr rfl (fun k _ => ?_)
  obtain ⟨r, hr⟩ := hh k
  obtain ⟨p, hp⟩ := ha k
  obtain ⟨q, hq⟩ := hb k
  rw [hr, hp, hq, ← EReal.coe_add, ← EReal.coe_mul, ← EReal.coe_mul, ← EReal.coe_mul, ← EReal.coe_add, mul_add]

/-- A quotient by a nonzero c is the product with the quotient 1 / c (the ideal quotient of PureOps/Ideal.lean). -/
theorem div_eq_mul_one_div (x c : EReal) (hc : c ≠ 0) : Ideal.div x c = x * Ideal.div 1 c := by
  -- off zero both quotients are products with the reciprocal of c
  rw [Ideal.div, Ideal.div, if_neg hc, if_neg hc, one_mul]

/-- The larger of c and 1 is not 0. -/
theorem max_one_ne_zero (c : EReal) : max c 1 ≠ 0 :=
  -- 0 < 1 ≤ max c 1
  (lt_of_lt_of_le zero_lt_one (le_max_right c 1)).ne'

/-- A sum of products with zero left factors is zero. -/
theorem sum_zero_mul {ι : Type} [Fintype ι] (w : ι → EReal) : ∑ k, (0 : EReal) * w k = 0 := by
  simp only [zero_mul, Finset.sum_const_zero]

/-- The first layer's terms regrouped (the two message terms are zero). -/
theorem regroup1 (H1 H3 b1 b3 : EReal) : ((0 + b1) + H1) + ((0 + b3) + H3) = (H1 + H3) + (b1 + b3) := by
  -- drop the zeros, then addition is commutative and associative
  rw [zero_add, zero_add]; ac_rfl

/-- The second layer's terms regrouped. -/
theorem regroup2 (A1 A3 H1 H3 b1 b3 : EReal) :
    ((A1 + b1) + H1) + ((A3 + b3) + H3) = ((A1 + A3) + (H1 + H3)) + (b1 + b3) := by
  -- addition is commutative and associative
  ac_rfl

end Cert.Alg

end
-- ==== Proof.PreFacts.lean ====
/-
  What the precondition says, entry by entry: every entry of the float arguments the algebra multiplies out is a real
  number (its absolute value is below +∞), and every edge index lies in the range of the node table it indexes
  (0 ≤ index < number of rows, read signed). Two facts on 32-bit words follow: a word that is ≥ 0 is not < 0, and a word
  below n is at most n − 1.

  The precondition is a conjunction (a chain of "and" on one-bit words) of nineteen "for all entries" tests, each a
  reduction by "and" over a whole array. The chain being 1 makes every conjunct 1; a reduction by "and" being 1 makes
  every entry's test 1; an entry's test |x| < +∞, the absolute value being the larger of x and −x, leaves x neither
  infinity; an index entry's two tests are the signed comparisons 0 ≤ w and w < n themselves.
-/
import proofs.«412835_j24404004176459_1_alg».proof.Defs
import proofs.«412835_j24404004176459_1_alg».proof.Proof.Gen.Pre_finite_inputs
import proofs.«412835_j24404004176459_1_alg».proof.Proof.Alg
import Idealize.ShloMosaic.Lib.ReduceAll
import Idealize.ShloMosaic.Lib.StableHlo.Predicate
import Idealize.ShloMosaic.Lib.ValueIdx

set_option maxRecDepth 16384

noncomputable section

namespace Cert.KernelIdeal.PreFacts

open Cert.KernelIdeal Cert.Alg
open Idealize.ShloMosaic Idealize.ShloMosaic.TcCoe Idealize.SL.Sem

variable [hPre : Cert.Pre_finite_inputs.Facts]
variable (m : (ℓ : Loc nD τ sig) → Buf (Elt Ideal) ℓ)

open Idealize.ShloMosaic.StableHlo.Predicate (ofBool_eq_one_iff toInt_ofNat_small)

/-- A one-bit word that is not 1 is 0. -/
theorem bit_zero_of_ne_one : ∀ a : BitVec 1, ¬ a = 1#1 → a = 0#1 := by decide

/-- A word that is ≥ 0 (signed) is not < 0. -/
theorem slt_zero_of_sge (w : BitVec 32) (h : IntOp.cmpi .sge w 0#32 = 1#1) : IntOp.cmpi .slt w 0#32 = 0#1 := by
  apply bit_zero_of_ne_one
  rw [IntOp.cmpi_slt]
  rw [IntOp.cmpi_sge] at h
  omega

/-- A word below n (signed, 0 < n < 2^31) is at most n − 1. -/
theorem sle_pred_of_slt (w : BitVec 32) (n : Nat) (hn : 0 < n) (hn' : n < 2 ^ 31)
    (h : IntOp.cmpi .slt w (BitVec.ofNat 32 n) = 1#1) : IntOp.cmpi .sle w (BitVec.ofNat 32 (n - 1)) = 1#1 := by
  rw [IntOp.cmpi_slt, toInt_ofNat_small n hn'] at h
  rw [IntOp.cmpi_sle, toInt_ofNat_small (n - 1) (by omega)]
  omega

/-- The result of a reduction over all axes has one index. -/
instance : Subsingleton Cert.Pre_finite_inputs.S_.Idx := ⟨fun a b => funext fun d => d.elim0⟩

/-- The pattern 0x7F800000 (exponent all ones, significand zero, sign plus) denotes +∞. -/
theorem top_bits : Ideal.ofBits .f32 0x7F800000#32 = (⊤ : EReal) := by
  simp [Ideal.ofBits, Ideal.ieee]

/-- An entry whose test |x| < +∞ came out 1 is a real number. -/
theorem elt_fin {s u : Shape} {dims : Fin u.rank → Fin s.rank} (hb : u.BroadcastsInDim s dims) (x : FVec Ideal s .f32) (i : s.Idx)
    (h : cmpf .olt (Host.absf x) (broadcastInDim s dims hb (constant (F := Ideal) u .f32 0x7F800000#32)) i = 1#1) : IsFin (x i) := by
  apply isFin_of_abs_lt_top
  have h' : BitVec.ofBool (decide (max (x i) (-(x i)) < Ideal.ofBits .f32 0x7F800000#32)) = 1#1 := h
  rw [top_bits, ofBool_eq_one_iff, decide_eq_true_eq] at h'
  exact h'

/-- THE PRECONDITION DECODED, once: the chain of "and" split into its nineteen conjuncts, each reduction by "and" read
    back at an entry. -/
theorem pre_all (h : Cert.Pre_KernelIdeal m) (c : Dev nD) :
    (∀ i : S200000x64.Idx, IsFin (m ((c.tc : Thread nD τ).loc main_arg0) i))
    ∧ (∀ i : S64x128.Idx, IsFin (m ((c.tc : Thread nD τ).loc main_arg1) i))
    ∧ (∀ i : S128.Idx, IsFin (m ((c.tc : Thread nD τ).loc main_arg2) i))
    ∧ (∀ i : S4x128x128.Idx, IsFin (m ((c.tc : Thread nD τ).loc main_arg3) i))
    ∧ (∀ i : S4x128.Idx, IsFin (m ((c.tc : Thread nD τ).loc main_arg4) i))
    ∧ (∀ i : S4x128x128.Idx, IsFin (m ((c.tc : Thread nD τ).loc main_arg5) i))
    ∧ (∀ i : S4x128x128.Idx, IsFin (m ((c.tc : Thread nD τ).loc main_arg6) i))
    ∧ (∀ i : S4x128.Idx, IsFin (m ((c.tc : Thread nD τ).loc main_arg7) i))
    ∧ (∀ i : S4x128x128.Idx, IsFin (m ((c.tc : Thread nD τ).loc main_arg8) i))
    ∧ (∀ i : S128x1.Idx, IsFin (m ((c.tc : Thread nD τ).loc main_arg9) i))
    ∧ (∀ i : S1.Idx, IsFin (m ((c.tc : Thread nD τ).loc main_arg10) i))
    ∧ (∀ e : S250000.Idx, IntOp.cmpi .sge (m ((c.tc : Thread nD τ).loc main_arg11) e) 0#32 = 1#1)
    ∧ (∀ e : S250000.Idx, IntOp.cmpi .slt (m ((c.tc : Thread nD τ).loc main_arg11) e) 200000#32 = 1#1)
    ∧ (∀ e : S250000.Idx, IntOp.cmpi .sge (m ((c.tc : Thread nD τ).loc main_arg12) e) 0#32 = 1#1)
    ∧ (∀ e : S250000.Idx, IntOp.cmpi .slt (m ((c.tc : Thread nD τ).loc main_arg12) e) 80000#32 = 1#1)
    ∧ (∀ e : S250000.Idx, IntOp.cmpi .sge (m ((c.tc : Thread nD τ).loc main_arg13) e) 0#32 = 1#1)
    ∧ (∀ e : S250000.Idx, IntOp.cmpi .slt (m ((c.tc : Thread nD τ).loc main_arg13) e) 200000#32 = 1#1)
    ∧ (∀ e : S250000.Idx, IntOp.cmpi .sge (m ((c.tc : Thread nD τ).loc main_arg14) e) 0#32 = 1#1)
    ∧ (∀ e : S250000.Idx, IntOp.cmpi .slt (m ((c.tc : Thread nD τ).loc main_arg14) e) 60000#32 = 1#1) := by
  have e := congrFun (h c) ValueIdx.ix0
  unfold Cert.Pre_finite_inputs.fn Cert.Pre_finite_inputs.fn_part1 Cert.Pre_finite_inputs.fn_part2 Cert.Pre_finite_inputs.fn_part3 Cert.Pre_finite_inputs.fn_part4 Cert.Pre_finite_inputs.fn_part5 at e
  simp only [andi, IntOp.andi_eq_one] at e
  obtain ⟨⟨⟨⟨⟨⟨⟨⟨⟨⟨⟨⟨⟨⟨⟨⟨⟨⟨f0, f1⟩, f2⟩, f3⟩, f4⟩, f5⟩, f6⟩, f7⟩, f8⟩, f9⟩, f10⟩, g11⟩, l11⟩, g12⟩, l12⟩, g13⟩, l13⟩, g14⟩, l14⟩ := e
  exact ⟨fun i => elt_fin _ _ i (Host.reduce_andi_all _ _ _ _ _ f0 i),
    fun i => elt_fin _ _ i (Host.reduce_andi_all _ _ _ _ _ f1 i),
    fun i => elt_fin _ _ i (Host.reduce_andi_all _ _ _ _ _ f2 i),
    fun i => elt_fin _ _ i (Host.reduce_andi_all _ _ _ _ _ f3 i),
    fun i => elt_fin _ _ i (Host.reduce_andi_all _ _ _ _ _ f4 i),
    fun i => elt_fin _ _ i (Host.reduce_andi_all _ _ _ _ _ f5 i),
    fun i => elt_fin _ _ i (Host.reduce_andi_all _ _ _ _ _ f6 i),
    fun i => elt_fin _ _ i (Host.reduce_andi_all _ _ _ _ _ f7 i),
    fun i => elt_fin _ _ i (Host.reduce_andi_all _ _ _ _ _ f8 i),
    fun i => elt_fin _ _ i (Host.reduce_andi_all _ _ _ _ _ f9 i),
    fun i => elt_fin _ _ i (Host.reduce_andi_all _ _ _ _ _ f10 i),
    fun e => Host.reduce_andi_all _ _ _ _ _ g11 e,
    fun e => Host.reduce_andi_all _ _ _ _ _ l11 e,
    fun e => Host.reduce_andi_all _ _ _ _ _ g12 e,
    fun e => Host.reduce_andi_all _ _ _ _ _ l12 e,
    fun e => Host.reduce_andi_all _ _ _ _ _ g13 e,
    fun e => Host.reduce_andi_all _ _ _ _ _ l13 e,
    fun e => Host.reduce_andi_all _ _ _ _ _ g14 e,
    fun e => Host.reduce_andi_all _ _ _ _ _ l14 e⟩

theorem fin0 (h : Cert.Pre_KernelIdeal m) (c : Dev nD) (i : S200000x64.Idx) : IsFin (m ((c.tc : Thread nD τ).loc main_arg0) i) :=
  (pre_all m h c).1 i
theorem fin1 (h : Cert.Pre_KernelIdeal m) (c : Dev nD) (i : S64x128.Idx) : IsFin (m ((c.tc : Thread nD τ).loc main_arg1) i) :=
  (pre_all m h c).2.1 i
theorem fin2 (h : Cert.Pre_KernelIdeal m) (c : Dev nD) (i : S128.Idx) : IsFin (m ((c.tc : Thread nD τ).loc main_arg2) i) :=
  (pre_all m h c).2.2.1 i
theorem fin4 (h : Cert.Pre_KernelIdeal m) (c : Dev nD) (i : S4x128.Idx) : IsFin (m ((c.tc : Thread nD τ).loc main_arg4) i) :=
  (pre_all m h c).2.2.2.2.1 i
theorem fin5 (h : Cert.Pre_KernelIdeal m) (c : Dev nD) (i : S4x128x128.Idx) : IsFin (m ((c.tc : Thread nD τ).loc main_arg5) i) :=
  (pre_all m h c).2.2.2.2.2.1 i
theorem fin8 (h : Cert.Pre_KernelIdeal m) (c : Dev nD) (i : S4x128x128.Idx) : IsFin (m ((c.tc : Thread nD τ).loc main_arg8) i) :=
  (pre_all m h c).2.2.2.2.2.2.2.2.1 i

theorem rng11 (h : Cert.Pre_KernelIdeal m) (c : Dev nD) (e : S250000.Idx) :
    IntOp.cmpi .sge (m ((c.tc : Thread nD τ).loc main_arg11) e) 0#32 = 1#1
      ∧ IntOp.cmpi .slt (m ((c.tc : Thread nD τ).loc main_arg11) e) 200000#32 = 1#1 :=
  ⟨(pre_all m h c).2.2.2.2.2.2.2.2.2.2.2.1 e, (pre_all m h c).2.2.2.2.2.2.2.2.2.2.2.2.1 e⟩
theorem rng12 (h : Cert.Pre_KernelIdeal m) (c : Dev nD) (e : S250000.Idx) :
    IntOp.cmpi .sge (m ((c.tc : Thread nD τ).loc main_arg12) e) 0#32 = 1#1
      ∧ IntOp.cmpi .slt (m ((c.tc : Thread nD τ).loc main_arg12) e) 80000#32 = 1#1 :=
  ⟨(pre_all m h c).2.2.2.2.2.2.2.2.2.2.2.2.2.1 e, (pre_all m h c).2.2.2.2.2.2.2.2.2.2.2.2.2.2.1 e⟩
theorem rng13 (h : Cert.Pre_KernelIdeal m) (c : Dev nD) (e : S250000.Idx) :
    IntOp.cmpi .sge (m ((c.tc : Thread nD τ).loc main_arg13) e) 0#32 = 1#1
      ∧ IntOp.cmpi .slt (m ((c.tc : Thread nD τ).loc main_arg13) e) 200000#32 = 1#1 :=
  ⟨(pre_all m h c).2.2.2.2.2.2.2.2.2.2.2.2.2.2.2.1 e, (pre_all m h c).2.2.2.2.2.2.2.2.2.2.2.2.2.2.2.2.1 e⟩
theorem rng14 (h : Cert.Pre_KernelIdeal m) (c : Dev nD) (e : S250000.Idx) :
    IntOp.cmpi .sge (m ((c.tc : Thread nD τ).loc main_arg14) e) 0#32 = 1#1
      ∧ IntOp.cmpi .slt (m ((c.tc : Thread nD τ).loc main_arg14) e) 60000#32 = 1#1 :=
  ⟨(pre_all m h c).2.2.2.2.2.2.2.2.2.2.2.2.2.2.2.2.2.1 e, (pre_all m h c).2.2.2.2.2.2.2.2.2.2.2.2.2.2.2.2.2.2 e⟩

end Cert.KernelIdeal.PreFacts

end
-- ==== Proof.BridgeLib.lean ====
/-
  Small readings shared by the comparisons of the two programs: a one-row or one-column matrix made by a reshape, read
  where a row-wise operation reads it; entries of a reshaped slice of a stacked parameter are entries of the parameter,
  so they are real numbers when the parameter's are.
-/
import proofs.«412835_j24404004176459_1_alg».proof.Proof.KDefs
import proofs.«412835_j24404004176459_1_alg».proof.Proof.RowOps
import proofs.«412835_j24404004176459_1_alg».proof.Proof.Alg
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Bridge

open Cert.RowOps Cert.Alg
open Idealize.ShloMosaic Idealize.ShloMosaic.TcCoe Idealize.ShloMosaic.ValueIdx Idealize.SL.Sem
open Cert.KernelIdeal Cert.KernelIdeal.Facts₀ Cert.KernelIdeal.Facts Cert.KernelIdeal.Host

theorem rowOf_eq {n D : Nat} (i : (Sh2 n D).Idx) : rowOf i = ix2 (0 : Fin 1) (⟨(i 1).val, (i 1).isLt⟩ : Fin D) :=
  funext fun a => match a with
    | ⟨0, _⟩ => rfl
    | ⟨1, _⟩ => rfl

theorem colOf_eq {n D : Nat} (i : (Sh2 n D).Idx) : colOf i = ix2 (⟨(i 0).val, (i 0).isLt⟩ : Fin n) (0 : Fin 1) :=
  funext fun a => match a with
    | ⟨0, _⟩ => rfl
    | ⟨1, _⟩ => rfl

/-- A vector [D] reshaped to one row, read for index i: entry (column of i). -/
theorem rowcast_apply {α : Type} {n D : Nat} (x : (⟨1, ![D]⟩ : Shape).Idx → α) (h : (⟨1, ![D]⟩ : Shape).ShapeCasts ⟨2, ![1, D]⟩)
    (i : (Sh2 n D).Idx) : shapeCast ⟨2, ![1, D]⟩ x h (rowOf i) = x (ix1 (⟨(i 1).val, (i 1).isLt⟩ : Fin D)) := by
  rw [rowOf_eq]
  exact shapeCast_a_1a_apply x h 0 _

/-- A vector [n] reshaped to one column, read for index i: entry (row of i). -/
theorem colcast_apply {α : Type} {n D : Nat} (x : (⟨1, ![n]⟩ : Shape).Idx → α) (h : (⟨1, ![n]⟩ : Shape).ShapeCasts ⟨2, ![n, 1]⟩)
    (i : (Sh2 n D).Idx) : shapeCast ⟨2, ![n, 1]⟩ x h (colOf i) = x (ix1 (⟨(i 0).val, (i 0).isLt⟩ : Fin n)) := by
  rw [colOf_eq]
  refine shapeCast_apply x h _ _ ?_
  rw [Shape.rowMajor_val_two, Shape.rowMajor_val_one]
  show (i 0).val = (i 0).val * 1 + 0
  omega

/-- Entries of a reshape are entries of the operand. -/
theorem isFin_shapeCast {s t : Shape} (x : s.Idx → EReal) (h : s.ShapeCasts t) (hx : ∀ k, IsFin (x k)) (j : t.Idx) :
    IsFin (shapeCast t x h j) := hx _

/-- Entries of a slice are entries of the operand. -/
theorem isFin_slice {s t : Shape} (off : Fin s.rank → Nat) (x : s.Idx → EReal) (h : s.Slices off t) (hx : ∀ k, IsFin (x k)) (j : t.Idx) :
    IsFin (extractStridedSlice t off x h j) := hx _

end Cert.Bridge

end
-- ==== Proof.GatherFacts.lean ====
/-
  Two facts about the host-side indexing of the node tables.

  Taking rows by in-range indices is the plain gather. jnp.take first normalises an index as numpy does (a negative
  one has the number of rows added), gathers the rows, and then replaces a row whose index falls outside the table by a
  fill value. When every index w satisfies 0 ≤ w < N, read signed: w is not < 0, so the normalisation leaves it alone;
  and 0 ≤ w ≤ N − 1, so the in-table test — an "and" over a column entry's two comparisons, repeated along the
  features — is 1 at every (edge, feature), and the selection returns the gathered row.

  Summing rows gathered from an all-zero table into an all-zero table leaves zeros: a gathered entry is an entry of the
  table, so it is zero; the accumulating scatter is, entry by entry, the old entry plus the sum of the updates landing
  there, a sum of zeros onto zero.
-/
import proofs.«412835_j24404004176459_1_alg».proof.Proof.KDefs
import proofs.«412835_j24404004176459_1_alg».proof.Proof.PreFacts
import Idealize.ShloMosaic.Lib.ReduceAll
import Idealize.ShloMosaic.Lib.ValueIdx
import Idealize.ShloMosaic.PureOps.Ideal.Laws

set_option maxRecDepth 16384

noncomputable section

namespace Cert.KernelIdeal.Host

open Cert.KernelIdeal Cert.KernelIdeal.Gen
open Idealize.ShloMosaic Idealize.ShloMosaic.TcCoe Idealize.ShloMosaic.ValueIdx

/-! ## An "and" over ones is one -/

/-- A left fold by "and" over one-bit words, started at 1 and meeting only 1s, is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, h =>
    foldl_andi_of_all f l _ (IntOp.andi_eq_one.2 ⟨hi, h a List.mem_cons_self⟩) (fun n hn => h n (List.mem_cons_of_mem _ hn))

/-- A reduction by "and" from 1 over an array of 1s is 1 at every result index. -/
theorem reduce_andi_of_all {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl]
  exact foldl_andi_of_all x _ _ (hi _) (fun n _ => hx n)

/-! ## jnp.take at in-range indices -/

/-- An entry of the index column is an entry of the index array. -/
theorem idxCol_apply (idx : IVec S250000 32) (i : S250000x1.Idx) : ∃ e : S250000.Idx, idxCol idx i = idx e := ⟨_, rfl⟩

/-- numpy's normalisation leaves a nonnegative index alone. -/
theorem wrapIdx_eq (N : BitVec 32) (idx : IVec S250000 32) (h0 : ∀ e : S250000.Idx, IntOp.cmpi .sge (idx e) 0#32 = 1#1) :
    wrapIdx N idx = idx := by
  funext e
  show Scalar.select (IntOp.cmpi .slt (idx e) 0#32) _ _ = idx e
  rw [PreFacts.slt_zero_of_sge _ (h0 e)]
  exact select_zero _ _

/-- The in-table test is 1 at every (edge, feature) when every column entry w has 0 ≤ w ≤ hi. -/
theorem inTable_one (hi : BitVec 32) (w : IVec S250000x1 32)
    (hw : ∀ i : S250000x1.Idx, IntOp.cmpi .sge (w i) 0#32 = 1#1 ∧ IntOp.cmpi .sle (w i) hi = 1#1) (j : S250000x128.Idx) :
    inTable hi w j = 1#1 := by
  unfold inTable broadcastInDim
  exact reduce_andi_of_all _ _ _ _ (fun _ => rfl) (fun i => IntOp.andi_eq_one.2 (hw i)) _

/-- jnp.take of the rows of a table of n rows, every index in [0, n): the gathered rows. -/
theorem take_eq {T : Shape} (d : GatherDims T S250000x1 S250000x128) (n : Nat) (hn : 0 < n) (hn' : n < 2 ^ 31)
    (h : FVec Ideal T .f32) (idx : IVec S250000 32)
    (hr : ∀ e : S250000.Idx, IntOp.cmpi .sge (idx e) 0#32 = 1#1 ∧ IntOp.cmpi .slt (idx e) (BitVec.ofNat 32 n) = 1#1) :
    select (inTable (BitVec.ofNat 32 (n - 1)) (idxCol (wrapIdx (BitVec.ofNat 32 n) idx)))
      (Host.gather d h (idxCol (wrapIdx (BitVec.ofNat 32 n) idx))) fillRows = Host.gather d h (idxCol idx) := by
  rw [wrapIdx_eq (BitVec.ofNat 32 n) idx (fun e => (hr e).1)]
  funext j
  have hm : inTable (BitVec.ofNat 32 (n - 1)) (idxCol idx) j = 1#1 := by
    refine inTable_one _ _ (fun i => ?_) j
    obtain ⟨e, he⟩ := idxCol_apply idx i
    rw [he]
    exact ⟨(hr e).1, PreFacts.sle_pred_of_slt _ n hn hn' (hr e).2⟩
  rw [select_apply, hm, select_one]

theorem take200k_eq (h : FVec Ideal S200000x128 .f32) (idx : IVec S250000 32)
    (hr : ∀ e : S250000.Idx, IntOp.cmpi .sge (idx e) 0#32 = 1#1 ∧ IntOp.cmpi .slt (idx e) 200000#32 = 1#1) :
    take200k h idx = Host.gather gather_S200000x128_S250000x1_S250000x128_1_0_n_n_0_1_1128 h (idxCol idx) :=
  take_eq gather_S200000x128_S250000x1_S250000x128_1_0_n_n_0_1_1128 200000 (by decide) (by decide) h idx hr

theorem take80k_eq (h : FVec Ideal S80000x128 .f32) (idx : IVec S250000 32)
    (hr : ∀ e : S250000.Idx, IntOp.cmpi .sge (idx e) 0#32 = 1#1 ∧ IntOp.cmpi .slt (idx e) 80000#32 = 1#1) :
    take80k h idx = Host.gather gather_S80000x128_S250000x1_S250000x128_1_0_n_n_0_1_1128 h (idxCol idx) :=
  take_eq gather_S80000x128_S250000x1_S250000x128_1_0_n_n_0_1_1128 80000 (by decide) (by decide) h idx hr

theorem take60k_eq (h : FVec Ideal S60000x128 .f32) (idx : IVec S250000 32)
    (hr : ∀ e : S250000.Idx, IntOp.cmpi .sge (idx e) 0#32 = 1#1 ∧ IntOp.cmpi .slt (idx e) 60000#32 = 1#1) :
    take60k h idx = Host.gather gather_S60000x128_S250000x1_S250000x128_1_0_n_n_0_1_1128 h (idxCol idx) :=
  take_eq gather_S60000x128_S250000x1_S250000x128_1_0_n_n_0_1_1128 60000 (by decide) (by decide) h idx hr

/-! ## Zero rows summed into zeros -/

/-- The accumulating scatter of rows gathered from an all-zero table, into an all-zero table, is all zero. -/
theorem scatterAdd_zero {s si su T sw : Shape} {w w' : Nat} (d : ScatterDims s si su) (g : GatherDims T sw su)
    (hs : S_.BroadcastsInDim s (![] : Fin 0 → Fin s.rank)) (hT : S_.BroadcastsInDim T (![] : Fin 0 → Fin T.rank))
    (idx : IVec si w) (v : IVec sw w') :
    Host.scatterAdd (F := Ideal) d (broadcastInDim s ![] hs (constant S_ .f32 0x00000000#32)) idx
        (Host.gather g (broadcastInDim T ![] hT (constant S_ .f32 0x00000000#32)) v) = fun _ => (0 : EReal) := by
  funext i
  have hz : ∀ j, Host.gather g (broadcastInDim T ![] hT (constant (F := Ideal) S_ .f32 0x00000000#32)) v j = (0 : EReal) :=
    fun j => Ideal.ofBits_zero_f32
  show Ideal.ofBits .f32 0x00000000#32 + ∑ j ∈ Finset.univ.filter (fun j => d.resultIdx? j idx = some i),
    Host.gather g (broadcastInDim T ![] hT (constant (F := Ideal) S_ .f32 0x00000000#32)) v j = 0
  rw [Finset.sum_eq_zero (fun j _ => hz j), Ideal.ofBits_zero_f32, add_zero]

theorem seg_zero200k_80k (idx w : IVec S250000x1 32) :
    Host.scatterAdd (F := Ideal) scatter_S200000x128_S250000x1_S250000x128_1_0_0_1
        (broadcastInDim S200000x128 ![] bcast_S_S200000x128 (constant S_ .f32 0x00000000#32)) idx
        (Host.gather gather_S80000x128_S250000x1_S250000x128_1_0_n_n_0_1_1128
          (broadcastInDim S80000x128 ![] bcast_S_S80000x128 (constant S_ .f32 0x00000000#32)) w) = fun _ => (0 : EReal) :=
  scatterAdd_zero _ _ _ _ idx w

theorem seg_zero200k_60k (idx w : IVec S250000x1 32) :
    Host.scatterAdd (F := Ideal) scatter_S200000x128_S250000x1_S250000x128_1_0_0_1
        (broadcastInDim S200000x128 ![] bcast_S_S200000x128 (constant S_ .f32 0x00000000#32)) idx
        (Host.gather gather_S60000x128_S250000x1_S250000x128_1_0_n_n_0_1_1128
          (broadcastInDim S60000x128 ![] bcast_S_S60000x128 (constant S_ .f32 0x00000000#32)) w) = fun _ => (0 : EReal) :=
  scatterAdd_zero _ _ _ _ idx w

end Cert.KernelIdeal.Host

end
-- ==== Proof.Bridge0.lean ====
/-
  The first stage of the two programs is one function of the arguments. The projected features: both are the features
  times the projection matrix plus the bias, entry by entry. The transaction features after the first layer: the
  reference adds, for each of the two edge types into the transactions, (mean message) · W_l + b_l + h · W_r; the
  source tables of that layer are all zero, so both mean messages vanish, and what is left, h · W_r1 + h · W_r3 with
  the two biases, is the kernel's h · (W_r1 + W_r3) + (b_1 + b_3) by the distributive law, every entry of h and of the
  weights being a real number.
-/
import proofs.«412835_j24404004176459_1_alg».proof.Proof.KHost0
import proofs.«412835_j24404004176459_1_alg».proof.Proof.RefRead
import proofs.«412835_j24404004176459_1_alg».proof.Proof.Alg
import proofs.«412835_j24404004176459_1_alg».proof.Proof.PreFacts
import proofs.«412835_j24404004176459_1_alg».proof.Proof.GatherFacts
import proofs.«412835_j24404004176459_1_alg».proof.Proof.BridgeLib
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Bridge

open Cert.RowOps Cert.Alg
open Idealize.ShloMosaic Idealize.ShloMosaic.TcCoe Idealize.ShloMosaic.ValueIdx Idealize.SL.Sem
open Cert.KernelIdeal Cert.KernelIdeal.Facts₀ Cert.KernelIdeal.Facts Cert.KernelIdeal.Host
open Cert.ReferenceIdeal.ReadP

/-! ## The projected features -/

/-- Over arrays of the literal shapes: the kernel's row-wise form is the reference's stage. -/
theorem proj_eq (x0 : FVec Ideal S200000x64 .f32) (x1 : FVec Ideal S64x128 .f32) (x2 : FVec Ideal S128 .f32) :
    addRow (mm x0 x1) (shapeCast S1x128 x2 shapeCasts_S128_S1x128) = val_main_v3 (F := Ideal) x0 x1 x2 := by
  funext i
  rw [val_main_v3_apply, val_main_v0_apply, val_main_v2_apply, val_main_v1_apply]
  show (∑ k : Fin 64, x0 (li i k) * x1 (ri i k)) + shapeCast S1x128 x2 shapeCasts_S128_S1x128 (rowOf i)
    = (∑ k : Fin 64, x0 (lidx_main_v0 i k) * x1 (ridx_main_v0 i k)) + x2 (idx_main_v1 (idx_main_v2 i))
  rw [rowcast_apply]
  have el : ∀ k : Fin 64, lidx_main_v0 i k = li i k := fun k => funext fun a => match a with
    | ⟨0, _⟩ => rfl
    | ⟨1, _⟩ => rfl
  have er : ∀ k : Fin 64, ridx_main_v0 i k = ri i k := fun k => funext fun a => match a with
    | ⟨0, _⟩ => rfl
    | ⟨1, _⟩ => rfl
  have eb : idx_main_v1 (idx_main_v2 i) = ix1 (⟨(i 1).val, (i 1).isLt⟩ : Fin 128) := funext fun a => match a with
    | ⟨0, _⟩ => rfl
  simp only [el, er, eb]

/-! ## The transaction features after the first layer -/

/-- The quotient of zero by a nonzero number is zero. -/
theorem div_zero_of_ne (c : EReal) (hc : c ≠ 0) : Ideal.div 0 c = 0 := by
  unfold Ideal.div
  rw [if_neg hc, zero_mul]

/-- The mean message from the (all-zero) card table into the transactions vanishes. -/
theorem msg_card_zero (x11 x12 : IVec S250000 32) (j : S200000x128.Idx) : val_main_v30 (F := Ideal) x11 x12 j = 0 := by
  rw [val_main_v30_apply]
  have hz : val_main_v21 (F := Ideal) x11 x12 j = 0 :=
    congrFun (seg_zero200k_80k (val_main_v20 (F := Ideal) x11) (val_main_v17 (F := Ideal) x12)) j
  have hc : val_main_v29 (F := Ideal) x11 j ≠ 0 := by
    rw [val_main_v29_apply, val_main_v28_apply, val_main_v27_apply, val_main_v26_apply, val_main_cst_5_apply]
    show max _ (Ideal.ofBits .f32 0x3F800000#32) ≠ 0
    rw [Ideal.ofBits_one_f32]
    exact max_one_ne_zero _
  show Ideal.div (val_main_v21 (F := Ideal) x11 x12 j) (val_main_v29 (F := Ideal) x11 j) = 0
  rw [hz]
  exact div_zero_of_ne _ hc

/-- The mean message from the (all-zero) email table into the transactions vanishes. -/
theorem msg_email_zero (x13 x14 : IVec S250000 32) (j : S200000x128.Idx) : val_main_v61 (F := Ideal) x13 x14 j = 0 := by
  rw [val_main_v61_apply]
  have hz : val_main_v52 (F := Ideal) x13 x14 j = 0 :=
    congrFun (seg_zero200k_60k (val_main_v51 (F := Ideal) x13) (val_main_v48 (F := Ideal) x14)) j
  have hc : val_main_v60 (F := Ideal) x13 j ≠ 0 := by
    rw [val_main_v60_apply, val_main_v59_apply, val_main_v58_apply, val_main_v57_apply, val_main_cst_11_apply]
    show max _ (Ideal.ofBits .f32 0x3F800000#32) ≠ 0
    rw [Ideal.ofBits_one_f32]
    exact max_one_ne_zero _
  show Ideal.div (val_main_v52 (F := Ideal) x13 x14 j) (val_main_v60 (F := Ideal) x13 j) = 0
  rw [hz]
  exact div_zero_of_ne _ hc

/-- Every entry of the projected features is a real number when the features, the projection and its bias are. -/
theorem isFin_proj (x0 : FVec Ideal S200000x64 .f32) (x1 : FVec Ideal S64x128 .f32) (x2 : FVec Ideal S128 .f32)
    (f0 : ∀ i, IsFin (x0 i)) (f1 : ∀ i, IsFin (x1 i)) (f2 : ∀ i, IsFin (x2 i)) (j : S200000x128.Idx) :
    IsFin (val_main_v3 (F := Ideal) x0 x1 x2 j) := by
  rw [← proj_eq]
  show IsFin ((∑ k : Fin 64, x0 (li j k) * x1 (ri j k)) + shapeCast S1x128 x2 shapeCasts_S128_S1x128 (rowOf j))
  exact (isFin_sum _ _ fun k _ => (f0 _).mul (f1 _)).add (isFin_shapeCast x2 _ f2 _)

/-- Over arrays of the literal shapes: the kernel's first-layer update of the transactions is the reference's. -/
theorem upd1_eq (x0 : FVec Ideal S200000x64 .f32) (x1 : FVec Ideal S64x128 .f32) (x2 : FVec Ideal S128 .f32)
    (x3 : FVec Ideal S4x128x128 .f32) (x4 : FVec Ideal S4x128 .f32) (x5 : FVec Ideal S4x128x128 .f32)
    (x11 x12 x13 x14 : IVec S250000 32)
    (f0 : ∀ i, IsFin (x0 i)) (f1 : ∀ i, IsFin (x1 i)) (f2 : ∀ i, IsFin (x2 i)) (f5 : ∀ i, IsFin (x5 i)) :
    relu (addRow (mm (val_main_v3 (F := Ideal) x0 x1 x2)
        (addf (mat4 x5 1 slices_S4x128x128_S1x128x128_1_0_0) (mat4 x5 3 slices_S4x128x128_S1x128x128_3_0_0)))
      (shapeCast S1x128 (addf (row4 x4 1 slices_S4x128_S1x128_1_0) (row4 x4 3 slices_S4x128_S1x128_3_0)) shapeCasts_S128_S1x128))
    = val_main_v131 (F := Ideal) x0 x1 x2 x3 x4 x5 x11 x12 x13 x14 := by
  funext i
  rw [val_main_v131_apply, val_main_v68_apply, val_main_v36_apply, val_main_v34_apply, val_main_v67_apply, val_main_v65_apply,
    val_main_v31_apply, val_main_v62_apply, val_main_v35_apply, val_main_v66_apply, val_main_v33_apply, val_main_v32_apply,
    val_main_v64_apply, val_main_v63_apply, val_main_call0_v0_apply, val_main_call0_cst_apply]
  simp only [msg_card_zero, msg_email_zero]
  rw [sum_zero_mul, sum_zero_mul]
  show max ((∑ k : Fin 128, val_main_v3 (F := Ideal) x0 x1 x2 (li i k)
        * (mat4 x5 1 slices_S4x128x128_S1x128x128_1_0_0 (ri i k) + mat4 x5 3 slices_S4x128x128_S1x128x128_3_0_0 (ri i k)))
      + shapeCast S1x128 (addf (row4 x4 1 slices_S4x128_S1x128_1_0) (row4 x4 3 slices_S4x128_S1x128_3_0)) shapeCasts_S128_S1x128 (rowOf i)) 0
    = max (((0 + val_main_v9 (F := Ideal) x4 (idx_main_v32 (idx_main_v33 i)))
          + ∑ k : Fin 128, val_main_v3 (F := Ideal) x0 x1 x2 (lidx_main_v35 i k) * val_main_v11 (F := Ideal) x5 (ridx_main_v35 i k))
        + ((0 + val_main_v40 (F := Ideal) x4 (idx_main_v63 (idx_main_v64 i)))
          + ∑ k : Fin 128, val_main_v3 (F := Ideal) x0 x1 x2 (lidx_main_v66 i k) * val_main_v42 (F := Ideal) x5 (ridx_main_v66 i k)))
      (Ideal.ofBits .f32 0x00000000#32)
  rw [rowcast_apply, Ideal.ofBits_zero_f32, regroup1,
    sum_mul_add _ _ _ (fun k => isFin_proj x0 x1 x2 f0 f1 f2 _)
      (fun k => isFin_shapeCast _ _ (isFin_slice _ x5 _ f5) _) (fun k => isFin_shapeCast _ _ (isFin_slice _ x5 _ f5) _)]
  have el1 : ∀ k : Fin 128, lidx_main_v35 i k = li i k := fun k => funext fun a => match a with
    | ⟨0, _⟩ => rfl
    | ⟨1, _⟩ => rfl
  have er1 : ∀ k : Fin 128, ridx_main_v35 i k = ri i k := fun k => funext fun a => match a with
    | ⟨0, _⟩ => rfl
    | ⟨1, _⟩ => rfl
  have el3 : ∀ k : Fin 128, lidx_main_v66 i k = li i k := fun k => funext fun a => match a with
    | ⟨0, _⟩ => rfl
    | ⟨1, _⟩ => rfl
  have er3 : ∀ k : Fin 128, ridx_main_v66 i k = ri i k := fun k => funext fun a => match a with
    | ⟨0, _⟩ => rfl
    | ⟨1, _⟩ => rfl
  have eb1 : idx_main_v32 (idx_main_v33 i) = ix1 (⟨(i 1).val, (i 1).isLt⟩ : Fin 128) := funext fun a => match a with
    | ⟨0, _⟩ => rfl
  have eb3 : idx_main_v63 (idx_main_v64 i) = ix1 (⟨(i 1).val, (i 1).isLt⟩ : Fin 128) := funext fun a => match a with
    | ⟨0, _⟩ => rfl
  simp only [el1, er1, el3, er3, eb1, eb3]
  rfl

variable [hPre : Cert.Pre_finite_inputs.Facts]
variable (m : (ℓ : Loc nD τ sig) → Buf (Elt Ideal) ℓ)

theorem h0_eq (c : Dev nD) :
    h0 m c = val_main_v3 (F := Ideal) (m ((c : Thread nD τ).loc main_arg0)) (m ((c : Thread nD τ).loc main_arg1)) (m ((c : Thread nD τ).loc main_arg2)) :=
  proj_eq _ _ _

theorem h1_eq (hpre : Cert.Pre_KernelIdeal m) (c : Dev nD) :
    h1 m c = val_main_v131 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg11)) (m ((c : Thread nD τ).loc main_arg12)) (m ((c : Thread nD τ).loc main_arg13)) (m ((c : Thread nD τ).loc main_arg14)) := by
  show relu (addRow (mm (h0 m c) _) _) = _
  rw [h0_eq m c]
  exact upd1_eq _ _ _ _ _ _ _ _ _ _ (Cert.KernelIdeal.PreFacts.fin0 m hpre c) (Cert.KernelIdeal.PreFacts.fin1 m hpre c)
    (Cert.KernelIdeal.PreFacts.fin2 m hpre c) (Cert.KernelIdeal.PreFacts.fin5 m hpre c)

end Cert.Bridge

end
-- ==== Proof.Bridge2.lean ====
/-
  The card-node features after the first layer are one function of the arguments in the two programs. Both sum the
  projected features of the source transactions of the edges into each of the 80000 card nodes (the edge indices are in
  range, so jnp.take is the plain gather and numpy's index normalisation changes nothing), divide by the number of those
  edges raised to at least one, multiply by the first slice of the stacked weights and add the first slice of the stacked
  biases, and take the positive part. The kernel multiplies the sums by the reciprocal counts, the reference divides by
  the counts: the same, a raised count being nonzero. The reference also adds the product of the all-zero card table
  with a weight slice, which is zero.
-/
import proofs.«412835_j24404004176459_1_alg».proof.Proof.KHost1
import proofs.«412835_j24404004176459_1_alg».proof.Proof.Bridge0
import proofs.«412835_j24404004176459_1_alg».proof.Proof.BridgeLib
import proofs.«412835_j24404004176459_1_alg».proof.Proof.GatherFacts
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Bridge

open Cert.RowOps Cert.Alg
open Idealize.ShloMosaic Idealize.ShloMosaic.TcCoe Idealize.ShloMosaic.ValueIdx Idealize.SL.Sem
open Cert.KernelIdeal Cert.KernelIdeal.Facts₀ Cert.KernelIdeal.Facts Cert.KernelIdeal.Host
open Cert.ReferenceIdeal.ReadP

/-! ## The kernel's side, entry by entry -/

/-- The kernel's reciprocal column, read for an entry of row r: one over the raised count of node r. -/
theorem inv80k_col (C : FVec Ideal S80000 .f32) (j : (Sh2 80000 128).Idx) :
    shapeCast S80000x1
        (Host.divf (broadcastInDim S80000 ![] bcast_S_S80000 (constant (F := Ideal) S_ .f32 0x3F800000#32)) C)
        shapeCasts_S80000_S80000x1 (colOf j)
      = Ideal.div 1 (C (ix1 (⟨(j 0).val, (j 0).isLt⟩ : Fin 80000))) := by
  rw [colcast_apply, hostDivf_apply]
  show Ideal.div (Ideal.ofBits .f32 0x3F800000#32) _ = _
  rw [Ideal.ofBits_one_f32]

/-- The kernel's update of the 80000 nodes at an entry: the sums S scaled by the reciprocal raised counts C, times the
    weights, plus the bias, the positive part taken. The scaling S · (1 / C) is the quotient S / C, C being nonzero. -/
theorem kernel_entry80k (S : FVec Ideal S80000x128 .f32) (C : FVec Ideal S80000 .f32) (W : FVec Ideal S128x128 .f32)
    (b : FVec Ideal S128 .f32) (hC : ∀ r, C r ≠ 0) (i : (Sh2 80000 128).Idx) :
    relu (addRow (mm (scaleCol S (shapeCast S80000x1
        (Host.divf (broadcastInDim S80000 ![] bcast_S_S80000 (constant (F := Ideal) S_ .f32 0x3F800000#32)) C)
        shapeCasts_S80000_S80000x1)) W) (shapeCast S1x128 b shapeCasts_S128_S1x128)) i
      = max ((∑ k : Fin 128, Ideal.div (S (li i k)) (C (ix1 (⟨(i 0).val, (i 0).isLt⟩ : Fin 80000))) * W (ri i k))
          + b (ix1 (⟨(i 1).val, (i 1).isLt⟩ : Fin 128))) 0 := by
  show max ((∑ k : Fin 128, (S (li i k) * shapeCast S80000x1
        (Host.divf (broadcastInDim S80000 ![] bcast_S_S80000 (constant (F := Ideal) S_ .f32 0x3F800000#32)) C)
        shapeCasts_S80000_S80000x1 (colOf (li i k))) * W (ri i k))
      + shapeCast S1x128 b shapeCasts_S128_S1x128 (rowOf i)) 0 = _
  rw [rowcast_apply]
  have e : ∀ k : Fin 128, (S (li i k) * shapeCast S80000x1
        (Host.divf (broadcastInDim S80000 ![] bcast_S_S80000 (constant (F := Ideal) S_ .f32 0x3F800000#32)) C)
        shapeCasts_S80000_S80000x1 (colOf (li i k))) * W (ri i k)
      = Ideal.div (S (li i k)) (C (ix1 (⟨(i 0).val, (i 0).isLt⟩ : Fin 80000))) * W (ri i k) := fun k => by
    rw [inv80k_col, div_eq_mul_one_div (S (li i k)) _ (hC _)]
  rw [Finset.sum_congr rfl (fun k _ => e k)]

/-! ## The reference's side, entry by entry -/

/-- Where the reference reads the raised count for the left factor of its product at entry i: node (row of i). -/
theorem cnt_ix94 (i : S80000x128.Idx) (k : Fin 128) :
    idx_main_v91 (idx_main_v92 (lidx_main_v94 i k)) = ix1 (⟨(i 0).val, (i 0).isLt⟩ : Fin 80000) :=
  funext fun a => match a with | ⟨0, _⟩ => rfl
/-- Where the reference reads the bias for entry i: column of i. -/
theorem bias_ix96 (i : S80000x128.Idx) : idx_main_v95 (idx_main_v96 i) = ix1 (⟨(i 1).val, (i 1).isLt⟩ : Fin 128) :=
  funext fun a => match a with | ⟨0, _⟩ => rfl
/-- The reference's product reads its left factor in the row of i … -/
theorem lidx94 (i : S80000x128.Idx) (k : Fin 128) : lidx_main_v94 i k = li i k :=
  funext fun a => match a with | ⟨0, _⟩ => rfl | ⟨1, _⟩ => rfl
/-- … and its right factor in the column of i, as a row-wise product does. -/
theorem ridx94 (i : S80000x128.Idx) (k : Fin 128) : ridx_main_v94 i k = ri i k :=
  funext fun a => match a with | ⟨0, _⟩ => rfl | ⟨1, _⟩ => rfl

/-- The reference's update of the 80000 nodes at an entry: the quotient of the segment sums by the raised counts,
    times the weights, plus the bias; the product with the all-zero table adds nothing; the positive part taken. -/
theorem ref_entry80k (x0 : FVec Ideal S200000x64 .f32) (x1 : FVec Ideal S64x128 .f32) (x2 : FVec Ideal S128 .f32)
    (x3 : FVec Ideal S4x128x128 .f32) (x4 : FVec Ideal S4x128 .f32) (x5 : FVec Ideal S4x128x128 .f32)
    (xs xd : IVec S250000 32) (i : S80000x128.Idx) :
    val_main_v132 (F := Ideal) x0 x1 x2 x3 x4 x5 xs xd i
      = max ((∑ k : Fin 128, Ideal.div (val_main_v84 (F := Ideal) x0 x1 x2 xs xd (li i k))
                (val_main_v90 (F := Ideal) xd (ix1 (⟨(i 0).val, (i 0).isLt⟩ : Fin 80000))) * val_main_v70 (F := Ideal) x3 (ri i k))
          + val_main_v72 (F := Ideal) x4 (ix1 (⟨(i 1).val, (i 1).isLt⟩ : Fin 128))) 0 := by
  rw [val_main_v132_apply, val_main_v99_apply, val_main_v97_apply, val_main_v94_apply, val_main_v96_apply,
    val_main_v95_apply, val_main_v98_apply, val_main_call1_v0_apply, bias_ix96]
  have hz : ∀ k : Fin 128, val_main_v4 (F := Ideal) (lidx_main_v98 i k) * val_main_v74 (F := Ideal) x5 (ridx_main_v98 i k)
      = (0 : EReal) * val_main_v74 (F := Ideal) x5 (ridx_main_v98 i k) := fun k => by
    rw [val_main_v4_apply]
    exact congrArg (· * _) Ideal.ofBits_zero_f32
  have hq : ∀ k : Fin 128, val_main_v93 (F := Ideal) x0 x1 x2 xs xd (lidx_main_v94 i k) * val_main_v70 (F := Ideal) x3 (ridx_main_v94 i k)
      = Ideal.div (val_main_v84 (F := Ideal) x0 x1 x2 xs xd (li i k))
          (val_main_v90 (F := Ideal) xd (ix1 (⟨(i 0).val, (i 0).isLt⟩ : Fin 80000))) * val_main_v70 (F := Ideal) x3 (ri i k) := fun k => by
    rw [val_main_v93_apply, val_main_v92_apply, val_main_v91_apply, cnt_ix94, lidx94, ridx94]
    rfl
  rw [Finset.sum_congr rfl (fun k _ => hq k), Finset.sum_congr rfl (fun k _ => hz k), sum_zero_mul]
  show max (((∑ k : Fin 128, _) + _) + 0) (Ideal.ofBits .f32 0x00000000#32) = _
  rw [add_zero, Ideal.ofBits_zero_f32]

/-! ## The two sides joined -/

/-- Summing the rows taken at in-range source nodes: jnp.take's fill never applies and numpy's normalisation leaves
    the indices alone, so it is the sum of the plainly gathered rows, the gather index spelt either way. -/
theorem seg_take80k (h : FVec Ideal S200000x128 .f32) (xs xd : IVec S250000 32)
    (hr : ∀ e : S250000.Idx, IntOp.cmpi .sge (xs e) 0#32 = 1#1 ∧ IntOp.cmpi .slt (xs e) 200000#32 = 1#1) :
    seg80k xd (take200k h xs)
      = seg80k xd (Host.gather gather_S200000x128_S250000x1_S250000x128_1_0_n_n_0_1_1128 h (idxCol (wrapIdx 200000#32 xs))) := by
  rw [take200k_eq h xs hr, wrapIdx_eq 200000#32 xs (fun e => (hr e).1)]

/-- A count raised to at least one is not zero. -/
theorem cnt80k_ne_zero (xd : IVec S250000 32) (r : S80000.Idx) : val_main_v90 (F := Ideal) xd r ≠ 0 := by
  show max (val_main_v88 (F := Ideal) xd r) (Ideal.ofBits .f32 0x3F800000#32) ≠ 0
  rw [Ideal.ofBits_one_f32]
  exact max_one_ne_zero _

variable [hPre : Cert.Pre_finite_inputs.Facts]
variable (m : (ℓ : Loc nD τ sig) → Buf (Elt Ideal) ℓ)

/-- The card-node features after the first layer: the kernel's array is the reference's stage. -/
theorem card_eq (hpre : Cert.Pre_KernelIdeal m) (c : Dev nD) :
    card m c = val_main_v132 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg11)) (m ((c : Thread nD τ).loc main_arg12)) := by
  have eS : seg80k (m ((c : Thread nD τ).loc main_arg12)) (take200k (h0 m c) (m ((c : Thread nD τ).loc main_arg11)))
      = val_main_v84 (F := Ideal) (m ((c : Thread nD τ).loc main_arg0)) (m ((c : Thread nD τ).loc main_arg1))
          (m ((c : Thread nD τ).loc main_arg2)) (m ((c : Thread nD τ).loc main_arg11)) (m ((c : Thread nD τ).loc main_arg12)) := by
    rw [h0_eq, seg_take80k _ _ _ (PreFacts.rng11 m hpre c)]
    rfl
  funext i
  show relu (addRow (mm (scaleCol (seg80k (m ((c : Thread nD τ).loc main_arg12)) (take200k (h0 m c) (m ((c : Thread nD τ).loc main_arg11))))
        (inv80k (m ((c : Thread nD τ).loc main_arg12))))
      (mat4 (m ((c : Thread nD τ).loc main_arg3)) 0 slices_S4x128x128_S1x128x128_0_0_0))
    (shapeCast S1x128 (row4 (m ((c : Thread nD τ).loc main_arg4)) 0 slices_S4x128_S1x128_0_0) shapeCasts_S128_S1x128)) i = _
  rw [eS, ref_entry80k]
  exact kernel_entry80k _ (val_main_v90 (F := Ideal) (m ((c : Thread nD τ).loc main_arg12)))
    (val_main_v70 (F := Ideal) (m ((c : Thread nD τ).loc main_arg3))) (val_main_v72 (F := Ideal) (m ((c : Thread nD τ).loc main_arg4)))
    (cnt80k_ne_zero _) i

end Cert.Bridge

end
-- ==== Proof.Bridge3.lean ====
/-
  The email-node features after the first layer are one function of the arguments in the two programs. Both sum the
  projected features of the source transactions of the edges into each of the 60000 email nodes (the edge indices are in
  range, so jnp.take is the plain gather and numpy's index normalisation changes nothing), divide by the number of those
  edges raised to at least one, multiply by slice 2 of the stacked weights and add slice 2 of the stacked biases, and
  take the positive part. The kernel multiplies the sums by the reciprocal counts, the reference divides by the counts:
  the same, a raised count being nonzero. The reference also adds the product of the all-zero email table with a weight
  slice, which is zero.
-/
import proofs.«412835_j24404004176459_1_alg».proof.Proof.KHost2
import proofs.«412835_j24404004176459_1_alg».proof.Proof.Bridge0
import proofs.«412835_j24404004176459_1_alg».proof.Proof.BridgeLib
import proofs.«412835_j24404004176459_1_alg».proof.Proof.GatherFacts
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Bridge

open Cert.RowOps Cert.Alg
open Idealize.ShloMosaic Idealize.ShloMosaic.TcCoe Idealize.ShloMosaic.ValueIdx Idealize.SL.Sem
open Cert.KernelIdeal Cert.KernelIdeal.Facts₀ Cert.KernelIdeal.Facts Cert.KernelIdeal.Host
open Cert.ReferenceIdeal.ReadP

/-! ## The kernel's side, entry by entry -/

/-- The kernel's reciprocal column, read for an entry of row r: one over the raised count of node r. -/
theorem inv60k_col (C : FVec Ideal S60000 .f32) (j : (Sh2 60000 128).Idx) :
    shapeCast S60000x1
        (Host.divf (broadcastInDim S60000 ![] bcast_S_S60000 (constant (F := Ideal) S_ .f32 0x3F800000#32)) C)
        shapeCasts_S60000_S60000x1 (colOf j)
      = Ideal.div 1 (C (ix1 (⟨(j 0).val, (j 0).isLt⟩ : Fin 60000))) := by
  rw [colcast_apply, hostDivf_apply]
  show Ideal.div (Ideal.ofBits .f32 0x3F800000#32) _ = _
  rw [Ideal.ofBits_one_f32]

/-- The kernel's update of the 60000 nodes at an entry: the sums S scaled by the reciprocal raised counts C, times the
    weights, plus the bias, the positive part taken. The scaling S · (1 / C) is the quotient S / C, C being nonzero. -/
theorem kernel_entry60k (S : FVec Ideal S60000x128 .f32) (C : FVec Ideal S60000 .f32) (W : FVec Ideal S128x128 .f32)
    (b : FVec Ideal S128 .f32) (hC : ∀ r, C r ≠ 0) (i : (Sh2 60000 128).Idx) :
    relu (addRow (mm (scaleCol S (shapeCast S60000x1
        (Host.divf (broadcastInDim S60000 ![] bcast_S_S60000 (constant (F := Ideal) S_ .f32 0x3F800000#32)) C)
        shapeCasts_S60000_S60000x1)) W) (shapeCast S1x128 b shapeCasts_S128_S1x128)) i
      = max ((∑ k : Fin 128, Ideal.div (S (li i k)) (C (ix1 (⟨(i 0).val, (i 0).isLt⟩ : Fin 60000))) * W (ri i k))
          + b (ix1 (⟨(i 1).val, (i 1).isLt⟩ : Fin 128))) 0 := by
  show max ((∑ k : Fin 128, (S (li i k) * shapeCast S60000x1
        (Host.divf (broadcastInDim S60000 ![] bcast_S_S60000 (constant (F := Ideal) S_ .f32 0x3F800000#32)) C)
        shapeCasts_S60000_S60000x1 (colOf (li i k))) * W (ri i k))
      + shapeCast S1x128 b shapeCasts_S128_S1x128 (rowOf i)) 0 = _
  rw [rowcast_apply]
  have e : ∀ k : Fin 128, (S (li i k) * shapeCast S60000x1
        (Host.divf (broadcastInDim S60000 ![] bcast_S_S60000 (constant (F := Ideal) S_ .f32 0x3F800000#32)) C)
        shapeCasts_S60000_S60000x1 (colOf (li i k))) * W (ri i k)
      = Ideal.div (S (li i k)) (C (ix1 (⟨(i 0).val, (i 0).isLt⟩ : Fin 60000))) * W (ri i k) := fun k => by
    rw [inv60k_col, div_eq_mul_one_div (S (li i k)) _ (hC _)]
  rw [Finset.sum_congr rfl (fun k _ => e k)]

/-! ## The reference's side, entry by entry -/

/-- Where the reference reads the raised count for the left factor of its product at entry i: node (row of i). -/
theorem cnt_ix125 (i : S60000x128.Idx) (k : Fin 128) :
    idx_main_v122 (idx_main_v123 (lidx_main_v125 i k)) = ix1 (⟨(i 0).val, (i 0).isLt⟩ : Fin 60000) :=
  funext fun a => match a with | ⟨0, _⟩ => rfl
/-- Where the reference reads the bias for entry i: column of i. -/
theorem bias_ix127 (i : S60000x128.Idx) : idx_main_v126 (idx_main_v127 i) = ix1 (⟨(i 1).val, (i 1).isLt⟩ : Fin 128) :=
  funext fun a => match a with | ⟨0, _⟩ => rfl
/-- The reference's product reads its left factor in the row of i … -/
theorem lidx125 (i : S60000x128.Idx) (k : Fin 128) : lidx_main_v125 i k = li i k :=
  funext fun a => match a with | ⟨0, _⟩ => rfl | ⟨1, _⟩ => rfl
/-- … and its right factor in the column of i, as a row-wise product does. -/
theorem ridx125 (i : S60000x128.Idx) (k : Fin 128) : ridx_main_v125 i k = ri i k :=
  funext fun a => match a with | ⟨0, _⟩ => rfl | ⟨1, _⟩ => rfl

/-- The reference's update of the 60000 nodes at an entry: the quotient of the segment sums by the raised counts,
    times the weights, plus the bias; the product with the all-zero table adds nothing; the positive part taken. -/
theorem ref_entry60k (x0 : FVec Ideal S200000x64 .f32) (x1 : FVec Ideal S64x128 .f32) (x2 : FVec Ideal S128 .f32)
    (x3 : FVec Ideal S4x128x128 .f32) (x4 : FVec Ideal S4x128 .f32) (x5 : FVec Ideal S4x128x128 .f32)
    (xs xd : IVec S250000 32) (i : S60000x128.Idx) :
    val_main_v133 (F := Ideal) x0 x1 x2 x3 x4 x5 xs xd i
      = max ((∑ k : Fin 128, Ideal.div (val_main_v115 (F := Ideal) x0 x1 x2 xs xd (li i k))
                (val_main_v121 (F := Ideal) xd (ix1 (⟨(i 0).val, (i 0).isLt⟩ : Fin 60000))) * val_main_v101 (F := Ideal) x3 (ri i k))
          + val_main_v103 (F := Ideal) x4 (ix1 (⟨(i 1).val, (i 1).isLt⟩ : Fin 128))) 0 := by
  rw [val_main_v133_apply, val_main_v130_apply, val_main_v128_apply, val_main_v125_apply, val_main_v127_apply,
    val_main_v126_apply, val_main_v129_apply, val_main_call2_v0_apply, bias_ix127]
  have hz : ∀ k : Fin 128, val_main_v5 (F := Ideal) (lidx_main_v129 i k) * val_main_v105 (F := Ideal) x5 (ridx_main_v129 i k)
      = (0 : EReal) * val_main_v105 (F := Ideal) x5 (ridx_main_v129 i k) := fun k => by
    rw [val_main_v5_apply]
    exact congrArg (· * _) Ideal.ofBits_zero_f32
  have hq : ∀ k : Fin 128, val_main_v124 (F := Ideal) x0 x1 x2 xs xd (lidx_main_v125 i k) * val_main_v101 (F := Ideal) x3 (ridx_main_v125 i k)
      = Ideal.div (val_main_v115 (F := Ideal) x0 x1 x2 xs xd (li i k))
          (val_main_v121 (F := Ideal) xd (ix1 (⟨(i 0).val, (i 0).isLt⟩ : Fin 60000))) * val_main_v101 (F := Ideal) x3 (ri i k) := fun k => by
    rw [val_main_v124_apply, val_main_v123_apply, val_main_v122_apply, cnt_ix125, lidx125, ridx125]
    rfl
  rw [Finset.sum_congr rfl (fun k _ => hq k), Finset.sum_congr rfl (fun k _ => hz k), sum_zero_mul]
  show max (((∑ k : Fin 128, _) + _) + 0) (Ideal.ofBits .f32 0x00000000#32) = _
  rw [add_zero, Ideal.ofBits_zero_f32]

/-! ## The two sides joined -/

/-- Summing the rows taken at in-range source nodes: jnp.take's fill never applies and numpy's normalisation leaves
    the indices alone, so it is the sum of the plainly gathered rows, the gather index spelt either way. -/
theorem seg_take60k (h : FVec Ideal S200000x128 .f32) (xs xd : IVec S250000 32)
    (hr : ∀ e : S250000.Idx, IntOp.cmpi .sge (xs e) 0#32 = 1#1 ∧ IntOp.cmpi .slt (xs e) 200000#32 = 1#1) :
    seg60k xd (take200k h xs)
      = seg60k xd (Host.gather gather_S200000x128_S250000x1_S250000x128_1_0_n_n_0_1_1128 h (idxCol (wrapIdx 200000#32 xs))) := by
  rw [take200k_eq h xs hr, wrapIdx_eq 200000#32 xs (fun e => (hr e).1)]

/-- A count raised to at least one is not zero. -/
theorem cnt60k_ne_zero (xd : IVec S250000 32) (r : S60000.Idx) : val_main_v121 (F := Ideal) xd r ≠ 0 := by
  show max (val_main_v119 (F := Ideal) xd r) (Ideal.ofBits .f32 0x3F800000#32) ≠ 0
  rw [Ideal.ofBits_one_f32]
  exact max_one_ne_zero _

variable [hPre : Cert.Pre_finite_inputs.Facts]
variable (m : (ℓ : Loc nD τ sig) → Buf (Elt Ideal) ℓ)

/-- The email-node features after the first layer: the kernel's array is the reference's stage. -/
theorem email_eq (hpre : Cert.Pre_KernelIdeal m) (c : Dev nD) :
    email m c = val_main_v133 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg13)) (m ((c : Thread nD τ).loc main_arg14)) := by
  have eS : seg60k (m ((c : Thread nD τ).loc main_arg14)) (take200k (h0 m c) (m ((c : Thread nD τ).loc main_arg13)))
      = val_main_v115 (F := Ideal) (m ((c : Thread nD τ).loc main_arg0)) (m ((c : Thread nD τ).loc main_arg1))
          (m ((c : Thread nD τ).loc main_arg2)) (m ((c : Thread nD τ).loc main_arg13)) (m ((c : Thread nD τ).loc main_arg14)) := by
    rw [h0_eq, seg_take60k _ _ _ (PreFacts.rng13 m hpre c)]
    rfl
  funext i
  show relu (addRow (mm (scaleCol (seg60k (m ((c : Thread nD τ).loc main_arg14)) (take200k (h0 m c) (m ((c : Thread nD τ).loc main_arg13))))
        (inv60k (m ((c : Thread nD τ).loc main_arg14))))
      (mat4 (m ((c : Thread nD τ).loc main_arg3)) 2 slices_S4x128x128_S1x128x128_2_0_0))
    (shapeCast S1x128 (row4 (m ((c : Thread nD τ).loc main_arg4)) 2 slices_S4x128_S1x128_2_0) shapeCasts_S128_S1x128)) i = _
  rw [eS, ref_entry60k]
  exact kernel_entry60k _ (val_main_v121 (F := Ideal) (m ((c : Thread nD τ).loc main_arg14)))
    (val_main_v101 (F := Ideal) (m ((c : Thread nD τ).loc main_arg3))) (val_main_v103 (F := Ideal) (m ((c : Thread nD τ).loc main_arg4)))
    (cnt60k_ne_zero _) i

end Cert.Bridge

end
-- ==== Proof.Bridge4.lean ====
/-
  The second layer's update of the transaction features is one function of the arguments in the two programs. For each
  of the two edge types into the transactions the reference forms (segment sum of the source rows ÷ the edge count
  raised to at least one) · W_l + b_l + h · W_r and adds the two; the kernel multiplies each segment sum by the
  reciprocal count, adds the two message terms, adds h · (W_r1 + W_r3), and then the sum of the two biases. A count
  raised to at least one is not zero, so the quotient is the product with the reciprocal; every entry of h and of the
  W_r slices is a real number, so the distributive law holds under the sum; the rest is a regrouping of a sum. The rows
  are taken at edge indices inside the source table, where numpy's index normalisation and jnp.take's out-of-table
  fill both do nothing, so both programs gather the same rows.
-/
import proofs.«412835_j24404004176459_1_alg».proof.Proof.Bridge0
import proofs.«412835_j24404004176459_1_alg».proof.Proof.KDefs
import proofs.«412835_j24404004176459_1_alg».proof.Proof.RowOps
import proofs.«412835_j24404004176459_1_alg».proof.Proof.RefRead
import proofs.«412835_j24404004176459_1_alg».proof.Proof.Alg
import proofs.«412835_j24404004176459_1_alg».proof.Proof.PreFacts
import proofs.«412835_j24404004176459_1_alg».proof.Proof.GatherFacts
import proofs.«412835_j24404004176459_1_alg».proof.Proof.BridgeLib
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Bridge.Tx2

open Cert.RowOps Cert.Alg Cert.Bridge
open Idealize.ShloMosaic Idealize.ShloMosaic.TcCoe Idealize.ShloMosaic.ValueIdx Idealize.SL.Sem
open Cert.KernelIdeal Cert.KernelIdeal.Facts₀ Cert.KernelIdeal.Facts Cert.KernelIdeal.Host
open Cert.ReferenceIdeal.ReadP

/-! ## The algebra at one entry -/

/-- At one entry (r, c), the sums running over the contracted coordinate: with nonzero counts c1, c3 and every factor
    of the h terms a real number, the kernel's arrangement is the reference's. -/
theorem alg (s1 s3 h w1 w3 r1 r3 : Fin 128 → EReal) (c1 c3 b1 b3 : EReal) (hc1 : c1 ≠ 0) (hc3 : c3 ≠ 0)
    (fh : ∀ k, IsFin (h k)) (f1 : ∀ k, IsFin (r1 k)) (f3 : ∀ k, IsFin (r3 k)) :
    max ((((∑ k, s1 k * Ideal.div 1 c1 * w1 k) + (∑ k, s3 k * Ideal.div 1 c3 * w3 k)) + ∑ k, h k * (r1 k + r3 k)) + (b1 + b3)) 0
      = max ((((∑ k, Ideal.div (s1 k) c1 * w1 k) + b1) + ∑ k, h k * r1 k)
          + (((∑ k, Ideal.div (s3 k) c3 * w3 k) + b3) + ∑ k, h k * r3 k)) 0 := by
  -- a quotient by a nonzero count is the product with its reciprocal
  have e1 : ∀ k, Ideal.div (s1 k) c1 * w1 k = s1 k * Ideal.div 1 c1 * w1 k := fun k => by rw [div_eq_mul_one_div (s1 k) c1 hc1]
  have e3 : ∀ k, Ideal.div (s3 k) c3 * w3 k = s3 k * Ideal.div 1 c3 * w3 k := fun k => by rw [div_eq_mul_one_div (s3 k) c3 hc3]
  -- the distributive law under the sum, then addition is commutative and associative
  rw [sum_mul_add h r1 r3 fh f1 f3, regroup2, Finset.sum_congr rfl (fun k _ => e1 k), Finset.sum_congr rfl (fun k _ => e3 k)]

/-! ## The counts -/

/-- An edge count raised to at least one is not zero. -/
theorem cnt_ne_zero (x : IVec S250000 32) (r : S200000.Idx) : cnt200k x r ≠ 0 := by
  show max _ (Ideal.ofBits .f32 0x3F800000#32) ≠ 0
  rw [Ideal.ofBits_one_f32]
  exact max_one_ne_zero _

/-- The reciprocal-count column, read for index j: one over the count of j's row. -/
theorem inv_at (x : IVec S250000 32) (j : (Sh2 200000 128).Idx) :
    inv200k x (colOf j) = Ideal.div 1 (cnt200k x (ix1 (⟨(j 0).val, (j 0).isLt⟩ : Fin 200000))) := by
  show shapeCast S200000x1 _ shapeCasts_S200000_S200000x1 (colOf j) = _
  rw [colcast_apply, hostDivf_apply, broadcastInDim_scalar_apply, constant_apply, Ideal.ofBits_one_f32]

/-! ## The kernel's terms at an entry -/

/-- A message term of the kernel: the sum over k of (segment sum (r, k) · reciprocal count of r) · weight (k, c). -/
theorem ker_agg (S : Mat 200000 128) (x : IVec S250000 32) (W : Mat 128 128) (i : (Sh2 200000 128).Idx) :
    mm (scaleCol S (inv200k x)) W i
      = ∑ k : Fin 128, S (li i k) * Ideal.div 1 (cnt200k x (ix1 (⟨(i 0).val, (i 0).isLt⟩ : Fin 200000))) * W (ri i k) := by
  show ∑ k : Fin 128, S (li i k) * inv200k x (colOf (li i k)) * W (ri i k) = _
  refine Finset.sum_congr rfl fun k _ => ?_
  rw [inv_at]

/-- The kernel's bias row, the sum of two, read for index i. -/
theorem ker_bias (b1 b3 : FVec Ideal S128 .f32) (i : (Sh2 200000 128).Idx) :
    (shapeCast S1x128 (addf b1 b3) shapeCasts_S128_S1x128 : FVec Ideal S1x128 .f32) (rowOf i) = b1 (ix1 (⟨(i 1).val, (i 1).isLt⟩ : Fin 128)) + b3 (ix1 (⟨(i 1).val, (i 1).isLt⟩ : Fin 128)) := by
  rw [rowcast_apply]
  rfl

/-! ## The reference's terms at an entry -/

/-- The reference's message term from the card table at an entry: the sum over k of (segment sum (r, k) ÷ count of r) ·
    weight (k, c). -/
theorem ref_agg_card (x0 : FVec Ideal S200000x64 .f32) (x1 : FVec Ideal S64x128 .f32) (x2 : FVec Ideal S128 .f32)
    (x3 : FVec Ideal S4x128x128 .f32) (x4 : FVec Ideal S4x128 .f32) (x5 : FVec Ideal S4x128x128 .f32) (x6 : FVec Ideal S4x128x128 .f32)
    (x11 x12 : IVec S250000 32) (i : S200000x128.Idx) :
    val_main_v159 (F := Ideal) x0 x1 x2 x3 x4 x5 x6 x11 x12 i
      = ∑ k : Fin 128, Ideal.div (val_main_v149 (F := Ideal) x0 x1 x2 x3 x4 x5 x11 x12 (li i k)) (cnt200k x11 (ix1 (⟨(i 0).val, (i 0).isLt⟩ : Fin 200000)))
          * mat4 x6 1 slices_S4x128x128_S1x128x128_1_0_0 (ri i k) := by
  rw [val_main_v159_apply]
  refine Finset.sum_congr rfl fun k _ => ?_
  have el : lidx_main_v159 i k = li i k := funext fun a => match a with | ⟨0, _⟩ => rfl | ⟨1, _⟩ => rfl
  have er : ridx_main_v159 i k = ri i k := funext fun a => match a with | ⟨0, _⟩ => rfl | ⟨1, _⟩ => rfl
  have ec : idx_main_v156 (idx_main_v157 (li i k)) = (ix1 (⟨(i 0).val, (i 0).isLt⟩ : Fin 200000)) := funext fun a => match a with | ⟨0, _⟩ => rfl
  rw [el, er, val_main_v158_apply, val_main_v157_apply, val_main_v156_apply, ec]
  rfl

/-- The reference's message term from the email table at an entry: the sum over k of (segment sum (r, k) ÷ count of r) ·
    weight (k, c). -/
theorem ref_agg_email (x0 : FVec Ideal S200000x64 .f32) (x1 : FVec Ideal S64x128 .f32) (x2 : FVec Ideal S128 .f32)
    (x3 : FVec Ideal S4x128x128 .f32) (x4 : FVec Ideal S4x128 .f32) (x5 : FVec Ideal S4x128x128 .f32) (x6 : FVec Ideal S4x128x128 .f32)
    (x13 x14 : IVec S250000 32) (i : S200000x128.Idx) :
    val_main_v190 (F := Ideal) x0 x1 x2 x3 x4 x5 x6 x13 x14 i
      = ∑ k : Fin 128, Ideal.div (val_main_v180 (F := Ideal) x0 x1 x2 x3 x4 x5 x13 x14 (li i k)) (cnt200k x13 (ix1 (⟨(i 0).val, (i 0).isLt⟩ : Fin 200000)))
          * mat4 x6 3 slices_S4x128x128_S1x128x128_3_0_0 (ri i k) := by
  rw [val_main_v190_apply]
  refine Finset.sum_congr rfl fun k _ => ?_
  have el : lidx_main_v190 i k = li i k := funext fun a => match a with | ⟨0, _⟩ => rfl | ⟨1, _⟩ => rfl
  have er : ridx_main_v190 i k = ri i k := funext fun a => match a with | ⟨0, _⟩ => rfl | ⟨1, _⟩ => rfl
  have ec : idx_main_v187 (idx_main_v188 (li i k)) = (ix1 (⟨(i 0).val, (i 0).isLt⟩ : Fin 200000)) := funext fun a => match a with | ⟨0, _⟩ => rfl
  rw [el, er, val_main_v189_apply, val_main_v188_apply, val_main_v187_apply, ec]
  rfl

/-- The reference's h · W_r term (slice 1) at an entry. -/
theorem ref_self1 (x0 : FVec Ideal S200000x64 .f32) (x1 : FVec Ideal S64x128 .f32) (x2 : FVec Ideal S128 .f32)
    (x3 : FVec Ideal S4x128x128 .f32) (x4 : FVec Ideal S4x128 .f32) (x5 : FVec Ideal S4x128x128 .f32) (x8 : FVec Ideal S4x128x128 .f32)
    (x11 x12 x13 x14 : IVec S250000 32) (i : S200000x128.Idx) :
    val_main_v163 (F := Ideal) x0 x1 x2 x3 x4 x5 x8 x11 x12 x13 x14 i
      = ∑ k : Fin 128, val_main_v131 (F := Ideal) x0 x1 x2 x3 x4 x5 x11 x12 x13 x14 (li i k) * mat4 x8 1 slices_S4x128x128_S1x128x128_1_0_0 (ri i k) := by
  rw [val_main_v163_apply]
  refine Finset.sum_congr rfl fun k _ => ?_
  have el : lidx_main_v163 i k = li i k := funext fun a => match a with | ⟨0, _⟩ => rfl | ⟨1, _⟩ => rfl
  have er : ridx_main_v163 i k = ri i k := funext fun a => match a with | ⟨0, _⟩ => rfl | ⟨1, _⟩ => rfl
  rw [el, er]
  rfl

/-- The reference's h · W_r term (slice 3) at an entry. -/
theorem ref_self3 (x0 : FVec Ideal S200000x64 .f32) (x1 : FVec Ideal S64x128 .f32) (x2 : FVec Ideal S128 .f32)
    (x3 : FVec Ideal S4x128x128 .f32) (x4 : FVec Ideal S4x128 .f32) (x5 : FVec Ideal S4x128x128 .f32) (x8 : FVec Ideal S4x128x128 .f32)
    (x11 x12 x13 x14 : IVec S250000 32) (i : S200000x128.Idx) :
    val_main_v194 (F := Ideal) x0 x1 x2 x3 x4 x5 x8 x11 x12 x13 x14 i
      = ∑ k : Fin 128, val_main_v131 (F := Ideal) x0 x1 x2 x3 x4 x5 x11 x12 x13 x14 (li i k) * mat4 x8 3 slices_S4x128x128_S1x128x128_3_0_0 (ri i k) := by
  rw [val_main_v194_apply]
  refine Finset.sum_congr rfl fun k _ => ?_
  have el : lidx_main_v194 i k = li i k := funext fun a => match a with | ⟨0, _⟩ => rfl | ⟨1, _⟩ => rfl
  have er : ridx_main_v194 i k = ri i k := funext fun a => match a with | ⟨0, _⟩ => rfl | ⟨1, _⟩ => rfl
  rw [el, er]
  rfl

/-- The reference's bias row (slice 1) broadcast over the rows, at an entry. -/
theorem ref_bias1 (x7 : FVec Ideal S4x128 .f32) (i : S200000x128.Idx) :
    val_main_v161 (F := Ideal) x7 i = row4 x7 1 slices_S4x128_S1x128_1_0 (ix1 (⟨(i 1).val, (i 1).isLt⟩ : Fin 128)) := by
  have eb : idx_main_v160 (idx_main_v161 i) = (ix1 (⟨(i 1).val, (i 1).isLt⟩ : Fin 128)) := funext fun a => match a with | ⟨0, _⟩ => rfl
  rw [val_main_v161_apply, val_main_v160_apply, eb]
  rfl

/-- The reference's bias row (slice 3) broadcast over the rows, at an entry. -/
theorem ref_bias3 (x7 : FVec Ideal S4x128 .f32) (i : S200000x128.Idx) :
    val_main_v192 (F := Ideal) x7 i = row4 x7 3 slices_S4x128_S1x128_3_0 (ix1 (⟨(i 1).val, (i 1).isLt⟩ : Fin 128)) := by
  have eb : idx_main_v191 (idx_main_v192 i) = (ix1 (⟨(i 1).val, (i 1).isLt⟩ : Fin 128)) := funext fun a => match a with | ⟨0, _⟩ => rfl
  rw [val_main_v192_apply, val_main_v191_apply, eb]
  rfl

/-- The zero the positive part is taken against. -/
theorem ref_zero (i : S200000x128.Idx) : val_main_call3_v0 (F := Ideal) i = 0 := by
  rw [val_main_call3_v0_apply, val_main_call3_cst_apply]
  exact Ideal.ofBits_zero_f32

/-! ## The segment sums -/

/-- The reference's segment sum of the card rows is the kernel's: at edge indices inside the table the index normalisation
    and the out-of-table fill do nothing, so both gather the same rows. -/
theorem seg_card (x0 : FVec Ideal S200000x64 .f32) (x1 : FVec Ideal S64x128 .f32) (x2 : FVec Ideal S128 .f32)
    (x3 : FVec Ideal S4x128x128 .f32) (x4 : FVec Ideal S4x128 .f32) (x5 : FVec Ideal S4x128x128 .f32)
    (x11 x12 : IVec S250000 32) (C : Mat 80000 128) (hC : C = val_main_v132 (F := Ideal) x0 x1 x2 x3 x4 x5 x11 x12)
    (r : ∀ e : S250000.Idx, IntOp.cmpi .sge (x12 e) 0#32 = 1#1 ∧ IntOp.cmpi .slt (x12 e) 80000#32 = 1#1) :
    val_main_v149 (F := Ideal) x0 x1 x2 x3 x4 x5 x11 x12 = seg200k x11 (take80k C x12) := by
  subst hC
  rw [take80k_eq _ x12 r]
  show seg200k x11 (Host.gather gather_S80000x128_S250000x1_S250000x128_1_0_n_n_0_1_1128 (val_main_v132 (F := Ideal) x0 x1 x2 x3 x4 x5 x11 x12) (idxCol (wrapIdx 80000#32 x12))) = _
  rw [wrapIdx_eq 80000#32 x12 (fun e => (r e).1)]

/-- The reference's segment sum of the email rows is the kernel's: at edge indices inside the table the index normalisation
    and the out-of-table fill do nothing, so both gather the same rows. -/
theorem seg_email (x0 : FVec Ideal S200000x64 .f32) (x1 : FVec Ideal S64x128 .f32) (x2 : FVec Ideal S128 .f32)
    (x3 : FVec Ideal S4x128x128 .f32) (x4 : FVec Ideal S4x128 .f32) (x5 : FVec Ideal S4x128x128 .f32)
    (x13 x14 : IVec S250000 32) (E : Mat 60000 128) (hE : E = val_main_v133 (F := Ideal) x0 x1 x2 x3 x4 x5 x13 x14)
    (r : ∀ e : S250000.Idx, IntOp.cmpi .sge (x14 e) 0#32 = 1#1 ∧ IntOp.cmpi .slt (x14 e) 60000#32 = 1#1) :
    val_main_v180 (F := Ideal) x0 x1 x2 x3 x4 x5 x13 x14 = seg200k x13 (take60k E x14) := by
  subst hE
  rw [take60k_eq _ x14 r]
  show seg200k x13 (Host.gather gather_S60000x128_S250000x1_S250000x128_1_0_n_n_0_1_1128 (val_main_v133 (F := Ideal) x0 x1 x2 x3 x4 x5 x13 x14) (idxCol (wrapIdx 60000#32 x14))) = _
  rw [wrapIdx_eq 60000#32 x14 (fun e => (r e).1)]

/-! ## The second layer's update, over arrays of the literal shapes -/

/-- With H, C, E the transaction, card and email features after the first layer (the reference's three stages), the
    kernel's second-layer update of the transactions is the reference's. -/
theorem layer2_eq (x0 : FVec Ideal S200000x64 .f32) (x1 : FVec Ideal S64x128 .f32) (x2 : FVec Ideal S128 .f32)
    (x3 : FVec Ideal S4x128x128 .f32) (x4 : FVec Ideal S4x128 .f32) (x5 : FVec Ideal S4x128x128 .f32)
    (x6 : FVec Ideal S4x128x128 .f32) (x7 : FVec Ideal S4x128 .f32) (x8 : FVec Ideal S4x128x128 .f32)
    (x11 x12 x13 x14 : IVec S250000 32)
    (H : Mat 200000 128) (C : Mat 80000 128) (E : Mat 60000 128)
    (hH : H = val_main_v131 (F := Ideal) x0 x1 x2 x3 x4 x5 x11 x12 x13 x14)
    (hC : C = val_main_v132 (F := Ideal) x0 x1 x2 x3 x4 x5 x11 x12)
    (hE : E = val_main_v133 (F := Ideal) x0 x1 x2 x3 x4 x5 x13 x14)
    (r12 : ∀ e : S250000.Idx, IntOp.cmpi .sge (x12 e) 0#32 = 1#1 ∧ IntOp.cmpi .slt (x12 e) 80000#32 = 1#1)
    (r14 : ∀ e : S250000.Idx, IntOp.cmpi .sge (x14 e) 0#32 = 1#1 ∧ IntOp.cmpi .slt (x14 e) 60000#32 = 1#1)
    (fH : ∀ i, IsFin (H i)) (f8 : ∀ i, IsFin (x8 i)) :
  (relu (addRow
    (add (add (mm (scaleCol (seg200k x11 (take80k C x12)) (inv200k x11)) (mat4 x6 1 slices_S4x128x128_S1x128x128_1_0_0))
              (mm (scaleCol (seg200k x13 (take60k E x14)) (inv200k x13)) (mat4 x6 3 slices_S4x128x128_S1x128x128_3_0_0)))
         (mm H (addf (mat4 x8 1 slices_S4x128x128_S1x128x128_1_0_0) (mat4 x8 3 slices_S4x128x128_S1x128x128_3_0_0) : FVec Ideal S128x128 .f32)))
    (shapeCast S1x128 (addf (row4 x7 1 slices_S4x128_S1x128_1_0) (row4 x7 3 slices_S4x128_S1x128_3_0)) shapeCasts_S128_S1x128 : FVec Ideal S1x128 .f32)) : Mat 200000 128)
      = val_main_v259 (F := Ideal) x0 x1 x2 x3 x4 x5 x6 x7 x8 x11 x12 x13 x14 := by
  funext i
  rw [val_main_v259_apply, val_main_v196_apply, val_main_v164_apply, val_main_v195_apply, val_main_v162_apply, val_main_v193_apply,
    ref_agg_card, ref_agg_email, ref_self1, ref_self3, ref_bias1, ref_bias3, ref_zero,
    seg_card x0 x1 x2 x3 x4 x5 x11 x12 C hC r12, seg_email x0 x1 x2 x3 x4 x5 x13 x14 E hE r14, ← hH]
  show max ((((mm (scaleCol (seg200k x11 (take80k C x12)) (inv200k x11)) (mat4 x6 1 slices_S4x128x128_S1x128x128_1_0_0) i)
        + (mm (scaleCol (seg200k x13 (take60k E x14)) (inv200k x13)) (mat4 x6 3 slices_S4x128x128_S1x128x128_3_0_0) i))
        + ∑ k : Fin 128, H (li i k) * (mat4 x8 1 slices_S4x128x128_S1x128x128_1_0_0 (ri i k) + mat4 x8 3 slices_S4x128x128_S1x128x128_3_0_0 (ri i k)))
        + (shapeCast S1x128 (addf (row4 x7 1 slices_S4x128_S1x128_1_0) (row4 x7 3 slices_S4x128_S1x128_3_0)) shapeCasts_S128_S1x128 : FVec Ideal S1x128 .f32) (rowOf i)) 0 = _
  rw [ker_agg, ker_agg, ker_bias]
  exact alg (fun k => seg200k x11 (take80k C x12) (li i k)) (fun k => seg200k x13 (take60k E x14) (li i k)) (fun k => H (li i k))
    (fun k => mat4 x6 1 slices_S4x128x128_S1x128x128_1_0_0 (ri i k)) (fun k => mat4 x6 3 slices_S4x128x128_S1x128x128_3_0_0 (ri i k))
    (fun k => mat4 x8 1 slices_S4x128x128_S1x128x128_1_0_0 (ri i k)) (fun k => mat4 x8 3 slices_S4x128x128_S1x128x128_3_0_0 (ri i k))
    (cnt200k x11 (ix1 (⟨(i 0).val, (i 0).isLt⟩ : Fin 200000))) (cnt200k x13 (ix1 (⟨(i 0).val, (i 0).isLt⟩ : Fin 200000))) (row4 x7 1 slices_S4x128_S1x128_1_0 (ix1 (⟨(i 1).val, (i 1).isLt⟩ : Fin 128))) (row4 x7 3 slices_S4x128_S1x128_3_0 (ix1 (⟨(i 1).val, (i 1).isLt⟩ : Fin 128)))
    (cnt_ne_zero x11 _) (cnt_ne_zero x13 _) (fun k => fH _)
    (fun k => isFin_shapeCast _ _ (isFin_slice _ x8 _ f8) _) (fun k => isFin_shapeCast _ _ (isFin_slice _ x8 _ f8) _)

/-! ## The transaction features after the first layer have real entries -/

/-- Entries of A · W + b are real numbers when those of A, W and b are. -/
theorem isFin_affine {n K D : Nat} (A : Mat n K) (W : Mat K D) (b : Mat 1 D) (fA : ∀ i, IsFin (A i)) (fW : ∀ i, IsFin (W i))
    (fb : ∀ i, IsFin (b i)) (j : (Sh2 n D).Idx) : IsFin (addRow (mm A W) b j) :=
  (isFin_sum _ _ fun k _ => (fA _).mul (fW _)).add (fb _)

/-- So are those of its positive part. -/
theorem isFin_layer {n K D : Nat} (A : Mat n K) (W : Mat K D) (b : Mat 1 D) (fA : ∀ i, IsFin (A i)) (fW : ∀ i, IsFin (W i))
    (fb : ∀ i, IsFin (b i)) (j : (Sh2 n D).Idx) : IsFin (relu (addRow (mm A W) b) j) :=
  (isFin_affine A W b fA fW fb j).max isFin_zero

variable [hPre : Cert.Pre_finite_inputs.Facts]
variable (m : (ℓ : Loc nD τ sig) → Buf (Elt Ideal) ℓ)

/-- Every entry of the transaction features after the first layer is a real number: they are positive parts of sums of
    products of entries of the features, the projection, the first layer's weights and the biases, all real numbers. -/
theorem isFin_h1 (hpre : Cert.Pre_KernelIdeal m) (c : Dev nD) (i : (Sh2 200000 128).Idx) : IsFin (h1 m c i) :=
  isFin_layer _ _ _
    (fun j => isFin_affine _ _ _ (Cert.KernelIdeal.PreFacts.fin0 m hpre c) (Cert.KernelIdeal.PreFacts.fin1 m hpre c)
      (fun r => isFin_shapeCast _ _ (Cert.KernelIdeal.PreFacts.fin2 m hpre c) r) j)
    (fun j => (isFin_shapeCast _ _ (isFin_slice _ _ _ (Cert.KernelIdeal.PreFacts.fin5 m hpre c)) j).add
      (isFin_shapeCast _ _ (isFin_slice _ _ _ (Cert.KernelIdeal.PreFacts.fin5 m hpre c)) j))
    (fun r => isFin_shapeCast _ _ (fun q => (isFin_shapeCast _ _ (isFin_slice _ _ _ (Cert.KernelIdeal.PreFacts.fin4 m hpre c)) q).add
      (isFin_shapeCast _ _ (isFin_slice _ _ _ (Cert.KernelIdeal.PreFacts.fin4 m hpre c)) q)) r) i

end Cert.Bridge.Tx2

namespace Cert.Bridge

open Cert.RowOps Cert.Alg
open Idealize.ShloMosaic Idealize.ShloMosaic.TcCoe Idealize.ShloMosaic.ValueIdx Idealize.SL.Sem
open Cert.KernelIdeal Cert.KernelIdeal.Facts₀ Cert.KernelIdeal.Facts Cert.KernelIdeal.Host
open Cert.ReferenceIdeal.ReadP

variable [hPre : Cert.Pre_finite_inputs.Facts]
variable (m : (ℓ : Loc nD τ sig) → Buf (Elt Ideal) ℓ)

/-- The second layer's update of the transactions, with the card and email features after the first layer given as
    arrays Cd, Em equal to the reference's stages: the kernel's array is the reference's stage. -/
theorem tx2_eq_of (hpre : Cert.Pre_KernelIdeal m) (c : Dev nD) (Cd : Mat 80000 128) (Em : Mat 60000 128)
    (carde : Cd = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)) (m ((c : Thread nD τ).loc main_arg12)))
    (emaile : Em = val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg13)) (m ((c : Thread nD τ).loc main_arg14))) :
  (relu (addRow
    (add (add (mm (scaleCol (seg200k (m ((c : Thread nD τ).loc main_arg11)) (take80k Cd (m ((c : Thread nD τ).loc main_arg12)))) (inv200k (m ((c : Thread nD τ).loc main_arg11)))) (mat4 (m ((c : Thread nD τ).loc main_arg6)) 1 slices_S4x128x128_S1x128x128_1_0_0))
              (mm (scaleCol (seg200k (m ((c : Thread nD τ).loc main_arg13)) (take60k Em (m ((c : Thread nD τ).loc main_arg14)))) (inv200k (m ((c : Thread nD τ).loc main_arg13)))) (mat4 (m ((c : Thread nD τ).loc main_arg6)) 3 slices_S4x128x128_S1x128x128_3_0_0)))
         (mm (h1 m c) (addf (mat4 (m ((c : Thread nD τ).loc main_arg8)) 1 slices_S4x128x128_S1x128x128_1_0_0) (mat4 (m ((c : Thread nD τ).loc main_arg8)) 3 slices_S4x128x128_S1x128x128_3_0_0) : FVec Ideal S128x128 .f32)))
    (shapeCast S1x128 (addf (row4 (m ((c : Thread nD τ).loc main_arg7)) 1 slices_S4x128_S1x128_1_0) (row4 (m ((c : Thread nD τ).loc main_arg7)) 3 slices_S4x128_S1x128_3_0)) shapeCasts_S128_S1x128 : FVec Ideal S1x128 .f32)) : Mat 200000 128)
      = val_main_v259 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) :=
  Tx2.layer2_eq _ _ _ _ _ _ _ _ _ _ _ _ _ (h1 m c) Cd Em (h1_eq m hpre c) carde emaile
    (Cert.KernelIdeal.PreFacts.rng12 m hpre c) (Cert.KernelIdeal.PreFacts.rng14 m hpre c)
    (Tx2.isFin_h1 m hpre c) (Cert.KernelIdeal.PreFacts.fin8 m hpre c)

end Cert.Bridge

end
-- ==== Proof.Bridge5.lean ====
/-
  The classifier and the result. Both programs end with the second layer's transaction features times the classifier
  column plus its bias, read as a vector of one entry per transaction; with the features equal, the results are equal
  entry by entry.
-/
import proofs.«412835_j24404004176459_1_alg».proof.Proof.KHost3
import proofs.«412835_j24404004176459_1_alg».proof.Proof.RefRead
import proofs.«412835_j24404004176459_1_alg».proof.Proof.Alg
import proofs.«412835_j24404004176459_1_alg».proof.Proof.PreFacts
import proofs.«412835_j24404004176459_1_alg».proof.Proof.BridgeLib
import proofs.«412835_j24404004176459_1_alg».proof.Proof.Bridge2
import proofs.«412835_j24404004176459_1_alg».proof.Proof.Bridge3
import proofs.«412835_j24404004176459_1_alg».proof.Proof.Bridge4
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.Bridge

open Cert.RowOps Cert.Alg
open Idealize.ShloMosaic Idealize.ShloMosaic.TcCoe Idealize.ShloMosaic.ValueIdx Idealize.SL.Sem
open Cert.KernelIdeal Cert.KernelIdeal.Facts₀ Cert.KernelIdeal.Facts Cert.KernelIdeal.Host
open Cert.ReferenceIdeal.ReadP

/-- Over arrays of the literal shapes: the classifier applied to the reference's own second-layer features. -/
theorem cls_eq (x0 : FVec Ideal S200000x64 .f32) (x1 : FVec Ideal S64x128 .f32) (x2 : FVec Ideal S128 .f32)
    (x3 : FVec Ideal S4x128x128 .f32) (x4 : FVec Ideal S4x128 .f32) (x5 x6 : FVec Ideal S4x128x128 .f32) (x7 : FVec Ideal S4x128 .f32)
    (x8 : FVec Ideal S4x128x128 .f32) (x9 : FVec Ideal S128x1 .f32) (x10 : FVec Ideal S1 .f32) (x11 x12 x13 x14 : IVec S250000 32) :
    (shapeCast S200000 (addRow (mm (val_main_v259 (F := Ideal) x0 x1 x2 x3 x4 x5 x6 x7 x8 x11 x12 x13 x14) x9)
        (shapeCast S1x1 x10 shapeCasts_S1_S1x1)) shapeCasts_S200000x1_S200000 : FVec Ideal S200000 .f32)
      = val_main_v264 (F := Ideal) x0 x1 x2 x3 x4 x5 x6 x7 x8 x9 x10 x11 x12 x13 x14 := by
  have h2 : addRow (mm (val_main_v259 (F := Ideal) x0 x1 x2 x3 x4 x5 x6 x7 x8 x11 x12 x13 x14) x9) (shapeCast S1x1 x10 shapeCasts_S1_S1x1)
      = val_main_v263 (F := Ideal) x0 x1 x2 x3 x4 x5 x6 x7 x8 x9 x10 x11 x12 x13 x14 := by
    funext i
    rw [val_main_v263_apply, val_main_v260_apply, val_main_v262_apply, val_main_v261_apply]
    show (∑ k : Fin 128, val_main_v259 (F := Ideal) x0 x1 x2 x3 x4 x5 x6 x7 x8 x11 x12 x13 x14 (li i k) * x9 (ri i k))
        + shapeCast S1x1 x10 shapeCasts_S1_S1x1 (rowOf i)
      = (∑ k : Fin 128, val_main_v259 (F := Ideal) x0 x1 x2 x3 x4 x5 x6 x7 x8 x11 x12 x13 x14 (lidx_main_v260 i k) * x9 (ridx_main_v260 i k))
        + x10 (idx_main_v261 (idx_main_v262 i))
    rw [rowcast_apply]
    have el : ∀ k : Fin 128, lidx_main_v260 i k = li i k := fun k => funext fun a => match a with
      | ⟨0, _⟩ => rfl
      | ⟨1, _⟩ => rfl
    have er : ∀ k : Fin 128, ridx_main_v260 i k = ri i k := fun k => funext fun a => match a with
      | ⟨0, _⟩ => rfl
      | ⟨1, _⟩ => rfl
    have eb : idx_main_v261 (idx_main_v262 i) = ix1 (⟨(i 1).val, (i 1).isLt⟩ : Fin 1) := funext fun a => match a with
      | ⟨0, _⟩ => Fin.ext (by have h := (i 1).isLt; show 0 = (i 1).val; have h1 : (i 1).val < 1 := h; omega)
    simp only [el, er, eb]
  rw [h2]
  rfl

variable [hPre : Cert.Pre_finite_inputs.Facts]
variable (m : (ℓ : Loc nD τ sig) → Buf (Elt Ideal) ℓ)

/-- The second layer's transaction features: the kernel's array is the reference's stage (the card and email tables being
    the reference's own). -/
theorem tx2_eq (hpre : Cert.Pre_KernelIdeal m) (c : Dev nD) :
    tx2 m c = val_main_v259 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg11)) (m ((c : Thread nD τ).loc main_arg12)) (m ((c : Thread nD τ).loc main_arg13)) (m ((c : Thread nD τ).loc main_arg14)) :=
  tx2_eq_of m hpre c (card m c) (email m c) (card_eq m hpre c) (email_eq m hpre c)

/-- THE TWO RESULTS: the kernel's result vector is the reference's last stage of the same arguments. -/
theorem out_eq (hpre : Cert.Pre_KernelIdeal m) (c : Dev nD) :
    (shapeCast S200000 (out2d m c) shapeCasts_S200000x1_S200000 : FVec Ideal S200000 .f32)
      = val_main_v264 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) := by
  show (shapeCast S200000 (addRow (mm (tx2 m c) _) _) shapeCasts_S200000x1_S200000 : FVec Ideal S200000 .f32) = _
  rw [tx2_eq m hpre c]
  exact cls_eq _ _ _ _ _ _ _ _ _ _ _ _ _ _ _

end Cert.Bridge

end
-- ==== Proof.lean ====
/-
  The certificate of the two-layer graph network. The three frames: the two kernel programs' frame certificates, and the
  reference's run with its result dropped. The idealization rewrote nothing, so it preserves the program trivially.
  The equivalence over the extended reals, for finite parameters and edge indices inside their node tables: the kernel's
  run names its result buffer, which the fold of buffer contents through the four regions and the host stretches reads
  as one function of the arguments; stage by stage (projected features, first-layer transaction, card and email updates,
  second-layer transaction update, classifier) that function is the reference's own stage of the same arguments — jnp.take
  in range is the plain gather, a mean over an all-zero table vanishes, a quotient by a count of at least one is the
  product with its reciprocal, and h · W₁ + h · W₃ = h · (W₁ + W₃) where every factor is a real number.
-/
import proofs.«412835_j24404004176459_1_alg».proof.Defs
import proofs.«412835_j24404004176459_1_alg».proof.Proof.Gen.Kernel
import proofs.«412835_j24404004176459_1_alg».proof.Proof.Gen.Kernel.Skeleton
import proofs.«412835_j24404004176459_1_alg».proof.Proof.Gen.Kernel.Launch
import proofs.«412835_j24404004176459_1_alg».proof.Proof.Gen.Kernel.Points
import proofs.«412835_j24404004176459_1_alg».proof.Proof.Gen.Kernel.Frame
import proofs.«412835_j24404004176459_1_alg».proof.Proof.Gen.KernelIdeal
import proofs.«412835_j24404004176459_1_alg».proof.Proof.Gen.KernelIdeal.Skeleton
import proofs.«412835_j24404004176459_1_alg».proof.Proof.Gen.KernelIdeal.Launch
import proofs.«412835_j24404004176459_1_alg».proof.Proof.Gen.KernelIdeal.Points
import proofs.«412835_j24404004176459_1_alg».proof.Proof.Gen.KernelIdeal.Frame
import proofs.«412835_j24404004176459_1_alg».proof.Proof.Gen.ReferenceIdeal
import proofs.«412835_j24404004176459_1_alg».proof.Proof.Gen.Pre_finite_inputs
import proofs.«412835_j24404004176459_1_alg».proof.Proof.KernelRun
import proofs.«412835_j24404004176459_1_alg».proof.Proof.RefRun
import proofs.«412835_j24404004176459_1_alg».proof.Proof.RefRead
import proofs.«412835_j24404004176459_1_alg».proof.Proof.Bridge5
import Idealize.ShloMosaic.Adequacy
import Idealize.ShloMosaic.Init

set_option maxRecDepth 16384

noncomputable section

namespace Cert.Proof

open Idealize.ShloMosaic Idealize.ShloMosaic.TcCoe Idealize.SL.Sem

/-- The reference run's composed result term is the last stage of its arguments. -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v264 m' c
      = Cert.ReferenceIdeal.ReadP.val_main_v264 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) := by
  unfold Cert.ReferenceIdeal.ValueP.res_main_v264; rfl

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- From memories agreeing on the arguments both programs end with the same result vector: the reference's last stage
    of the arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  have hk := (θ_run Cert.KernelIdeal.defs _ _).mono
    (fun r h c => (⟨(h c).1.trans (Cert.KernelIdeal.Host.W14_main_v91 m ρ c), (h c).2⟩ : _ ∧ _))
    (Cert.KernelIdeal.ResultRun.run (F := Ideal) m ρ)
  refine ⟨_, hk, ?_⟩
  refine (θ_run Cert.ReferenceIdeal.defs _ _).mono (fun r h c => ⟨(h c).1.trans ?_, (h c).2⟩)
    (Cert.ReferenceIdeal.ValueP.run (F := Ideal) m' ρ')
  rw [ref_result]
  obtain ⟨e0, e1, e2, e3, e4, e5, e6, e7, e8, e9, e10, e11, e12, e13, e14⟩ := hagree c
  rw [e0, e1, e2, e3, e4, e5, e6, e7, e8, e9, e10, e11, e12, e13, e14]
  exact (Cert.Bridge.out_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
